-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x128 : Shape := ⟨3, ![4, 8192, 128]⟩
abbrev S4x32768x128 : Shape := ⟨3, ![4, 32768, 128]⟩
abbrev S4x8192x3 : Shape := ⟨3, ![4, 8192, 3]⟩
abbrev S4x8192x16x3 : Shape := ⟨4, ![4, 8192, 16, 3]⟩
abbrev S4x8192x16 : Shape := ⟨3, ![4, 8192, 16]⟩
abbrev S128x128 : Shape := ⟨2, ![128, 128]⟩
abbrev S128 : Shape := ⟨1, ![128]⟩
abbrev S_ : Shape := ⟨0, ![]⟩

class Facts : Prop where
  bcast_S_S4x8192x128 : S_.BroadcastsInDim S4x8192x128 (![] : Fin 0 → Fin S4x8192x128.rank)
  reducesTo_S4x8192x128_S_d0_1_2 : S4x8192x128.ReducesTo [0, 1, 2] S_
  h_S_ : 0 < S_.numel
  bcast_S_S4x32768x128 : S_.BroadcastsInDim S4x32768x128 (![] : Fin 0 → Fin S4x32768x128.rank)
  reducesTo_S4x32768x128_S_d0_1_2 : S4x32768x128.ReducesTo [0, 1, 2] S_
  bcast_S_S4x8192x3 : S_.BroadcastsInDim S4x8192x3 (![] : Fin 0 → Fin S4x8192x3.rank)
  reducesTo_S4x8192x3_S_d0_1_2 : S4x8192x3.ReducesTo [0, 1, 2] S_
  bcast_S_S4x8192x16x3 : S_.BroadcastsInDim S4x8192x16x3 (![] : Fin 0 → Fin S4x8192x16x3.rank)
  reducesTo_S4x8192x16x3_S_d0_1_2_3 : S4x8192x16x3.ReducesTo [0, 1, 2, 3] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg15 : FVec F S128 .f32) (main_arg16 : FVec F S128 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg12 : FVec F S128 .f32) (main_arg13 : FVec F S128x128 .f32) (main_arg14 : FVec F S128 .f32) (main_arg15 : FVec F S128 .f32) (main_arg16 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_v63 main_v67

def fn_part2 {F : FTy → Type} [FloatOps F] (main_arg8 : FVec F S128 .f32) (main_arg9 : FVec F S128x128 .f32) (main_arg10 : FVec F S128 .f32) (main_arg11 : FVec F S128 .f32) (main_arg12 : FVec F S128 .f32) (main_arg13 : FVec F S128x128 .f32) (main_arg14 : FVec F S128 .f32) (main_arg15 : FVec F S128 .f32) (main_arg16 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_v48 main_v49 main_v50

def fn_part1 {F : FTy → Type} [FloatOps F] (main_arg5 : FVec F S128x128 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128x128 .f32) (main_arg14 : FVec F S128 .f32) (main_arg15 : FVec F S128 .f32) (main_arg16 : FVec F S128 .f32) (main_v13 : IVec S_ 1) (main_v16 : IVec S4x8192x16x3 1) : IVec S_ 1 :=
  let main_c_5 : IVec S_ 1 := constantI S_ 1 1#1
  let main_v17 : IVec S_ 1 := (fun x v => Host.reduce IntOp.andi x v reducesTo_S4x8192x16x3_S_d0_1_2_3 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S4x8192x128 .f32) (main_arg1 : FVec F S4x32768x128 .f32) (main_arg2 : FVec F S4x8192x3 .f32) (main_arg3 : FVec F S4x8192x16x3 .f32) (main_arg4 : IVec S4x8192x16 32) (main_arg5 : FVec F S128x128 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128x128 .f32) (main_arg14 : FVec F S128 .f32) (main_arg15 : FVec F S128 .f32) (main_arg16 : FVec F S128 .f32) : IVec S_ 1 :=
  let main_v0 : FVec F S4x8192x128 .f32 := Host.absf main_arg0
  let main_cst : FVec F S_ .f32 := constant S_ .f32 0x7F800000#32
  let main_v1 : FVec F S4x8192x128 .f32 := broadcastInDim S4x8192x128 ![] bcast_S_S4x8192x128 main_cst
  let main_v2 : IVec S4x8192x128 1 := cmpf .olt main_v0 main_v1
  let main_c : IVec S_ 1 := constantI S_ 1 1#1
  let main_v3 : IVec S_ 1 := (fun x v => Host.reduce IntOp.andi x v reducesTo_S4x8192x128_S_d0_1_2 h_S_) main_v2 main_c
  let main_v4 : FVec F S4x32768x128 .f32 := Host.absf main_arg1
  let main_cst_0 : FVec F S_ .f32 := constant S_ .f32 0x7F800000#32
  let main_v5 : FVec F S4x32768x128 .f32 := broadcastInDim S4x32768x128 ![] bcast_S_S4x32768x128 main_cst_0
  let main_v6 : IVec S4x32768x128 1 := cmpf .olt main_v4 main_v5
  let main_c_1 : IVec S_ 1 := constantI S_ 1 1#1
  let main_v7 : IVec S_ 1 := (fun x v => Host.reduce IntOp.andi x v reducesTo_S4x32768x128_S_d0_1_2 h_S_) main_v6 main_c_1
  let main_v8 : IVec S_ 1 := andi main_v3 main_v7
  let main_v9 : FVec F S4x8192x3 .f32 := Host.absf main_arg2
  let main_cst_2 : FVec F S_ .f32 := constant S_ .f32 0x7F800000#32
  let main_v10 : FVec F S4x8192x3 .f32 := broadcastInDim S4x8192x3 ![] bcast_S_S4x8192x3 main_cst_2
  let main_v11 : IVec S4x8192x3 1 := cmpf .olt main_v9 main_v10
  let main_c_3 : IVec S_ 1 := constantI S_ 1 1#1
  let main_v12 : IVec S_ 1 := (fun x v => Host.reduce IntOp.andi x v reducesTo_S4x8192x3_S_d0_1_2 h_S_) main_v11 main_c_3
  let main_v13 : IVec S_ 1 := andi main_v8 main_v12
  let main_v14 : FVec F S4x8192x16x3 .f32 := Host.absf main_arg3
  let main_cst_4 : FVec F S_ .f32 := constant S_ .f32 0x7F800000#32
  let main_v15 : FVec F S4x8192x16x3 .f32 := broadcastInDim S4x8192x16x3 ![] bcast_S_S4x8192x16x3 main_cst_4
  let main_v16 : IVec S4x8192x16x3 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S4x8192x128 : Shape := ⟨3, ![4, 8192, 128]⟩
abbrev S4x32768x128 : Shape := ⟨3, ![4, 32768, 128]⟩
abbrev S4x8192x3 : Shape := ⟨3, ![4, 8192, 3]⟩
abbrev S4x8192x16x3 : Shape := ⟨4, ![4, 8192, 16, 3]⟩
abbrev S4x8192x16 : Shape := ⟨3, ![4, 8192, 16]⟩
abbrev S128x128 : Shape := ⟨2, ![128, 128]⟩
abbrev S128 : Shape := ⟨1, ![128]⟩
abbrev S4x8192x1x3 : Shape := ⟨4, ![4, 8192, 1, 3]⟩
abbrev S_ : Shape := ⟨0, ![]⟩
abbrev S4x8192 : Shape := ⟨2, ![4, 8192]⟩
abbrev S4x8192x1 : Shape := ⟨3, ![4, 8192, 1]⟩
abbrev S4x8192x16x1 : Shape := ⟨4, ![4, 8192, 16, 1]⟩
abbrev S4x8192x16x128 : Shape := ⟨4, ![4, 8192, 16, 128]⟩
abbrev S1x128 : Shape := ⟨2, ![1, 128]⟩
abbrev S1x8192x128 : Shape := ⟨3, ![1, 8192, 128]⟩
abbrev S8192x128 : Shape := ⟨2, ![8192, 128]⟩

abbrev nBuf : Space → Nat
  | .hbm => 58
  | .vmem => 15
  | .smem => 0
  | _ => 0

abbrev bufTy : (tb : Table) → Fin (tcTables nBuf tb) → BufTy
  | .hbm, ⟨0, _⟩ => ⟨S4x8192x128, .f32⟩
  | .hbm, ⟨1, _⟩ => ⟨S4x32768x128, .f32⟩
  | .hbm, ⟨2, _⟩ => ⟨S4x8192x3, .f32⟩
  | .hbm, ⟨3, _⟩ => ⟨S4x8192x16x3, .f32⟩
  | .hbm, ⟨4, _⟩ => ⟨S4x8192x16, .i32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S4x8192x1x3, .f32⟩
  | .hbm, ⟨18, _⟩ => ⟨S4x8192x16x3, .f32⟩
  | .hbm, ⟨19, _⟩ => ⟨S4x8192x16x3, .f32⟩
  | .hbm, ⟨20, _⟩ => ⟨S4x8192x16x3, .f32⟩
  | .hbm, ⟨21, _⟩ => ⟨S_, .f32⟩
  | .hbm, ⟨22, _⟩ => ⟨S4x8192x16, .f32⟩
  | .hbm, ⟨23, _⟩ => ⟨S_, .f32⟩
  | .hbm, ⟨24, _⟩ => ⟨S4x8192x16, .f32⟩
  | .hbm, ⟨25, _⟩ => ⟨S4x8192x16, .f32⟩
  | .hbm, ⟨26, _⟩ => ⟨S_, .f32⟩
  | .hbm, ⟨27, _⟩ => ⟨S4x8192x16, .f32⟩
  | .hbm, ⟨28, _⟩ => ⟨S4x8192x16, .f32⟩
  | .hbm, ⟨29, _⟩ => ⟨S_, .f32⟩
  | .hbm, ⟨30, _⟩ => ⟨S4x8192, .f32⟩
  | .hbm, ⟨31, _⟩ => ⟨S4x8192x1, .f32⟩
  | .hbm, ⟨32, _⟩ => ⟨S4x8192x16, .f32⟩
  | .hbm, ⟨33, _⟩ => ⟨S4x8192x16, .f32⟩
  | .hbm, ⟨34, _⟩ => ⟨S_, .i32⟩
  | .hbm, ⟨35, _⟩ => ⟨S4x8192x16, .i32⟩
  | .hbm, ⟨36, _⟩ => ⟨S4x8192x16, .i1⟩
  | .hbm, ⟨37, _⟩ => ⟨S_, .i32⟩
  | .hbm, ⟨38, _⟩ => ⟨S4x8192x16, .i32⟩
  | .hbm, ⟨39, _⟩ => ⟨S4x8192x16, .i32⟩
  | .hbm, ⟨40, _⟩ => ⟨S4x8192x16, .i32⟩
  | .hbm, ⟨41, _⟩ => ⟨S4x8192x16x1, .i32⟩
  | .hbm, ⟨42, _⟩ => ⟨S4x8192x16x128, .f32⟩
  | .hbm, ⟨43, _⟩ => ⟨S4x8192x16x1, .f32⟩
  | .hbm, ⟨44, _⟩ => ⟨S4x8192x16x128, .f32⟩
  | .hbm, ⟨45, _⟩ => ⟨S4x8192x16x128, .f32⟩
  | .hbm, ⟨46, _⟩ => ⟨S_, .f32⟩
  | .hbm, ⟨47, _⟩ => ⟨S4x8192x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S1x128, .f32⟩
  | .hbm, ⟨57, _⟩ => ⟨S4x8192x128, .f32⟩
  | .local _ .vmem, ⟨0, _⟩ => ⟨S1x8192x128, .f32⟩
  | .local _ .vmem, ⟨1, _⟩ => ⟨S1x8192x128, .f32⟩
  | .local _ .vmem, ⟨2, _⟩ => ⟨S128x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S128x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x8192x128, .f32⟩
  | _, _ => ⟨S4x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_v8 : Ref sig .tc := ⟨.hbm, 28, rfl⟩
abbrev main_cst_2 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c : Ref sig .tc := ⟨.hbm, 34, rfl⟩
abbrev main_v13 : Ref sig .tc := ⟨.hbm, 35, rfl⟩
abbrev main_v14 : Ref sig .tc := ⟨.hbm, 36, rfl⟩
abbrev main_c_3 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x8192x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

class Facts₀ : Prop where
  bcast_S4x8192x3_S4x8192x1x3_0_1_3 : S4x8192x3.BroadcastsInDim S4x8192x1x3 (![0, 1, 3] : Fin 3 → Fin S4x8192x1x3.rank)
  bcast_S4x8192x1x3_S4x8192x16x3_0_1_2_3 : S4x8192x1x3.BroadcastsInDim S4x8192x16x3 (![0, 1, 2, 3] : Fin 4 → Fin S4x8192x16x3.rank)
  reducesTo_S4x8192x16x3_S4x8192x16_d3 : S4x8192x16x3.ReducesTo [3] S4x8192x16
  h_S_ : 0 < S_.numel
  bcast_S_S4x8192x16 : S_.BroadcastsInDim S4x8192x16 (![] : Fin 0 → Fin S4x8192x16.rank)
  reducesTo_S4x8192x16_S4x8192_d2 : S4x8192x16.ReducesTo [2] S4x8192
  bcast_S4x8192_S4x8192x1_0_1 : S4x8192.BroadcastsInDim S4x8192x1 (![0, 1] : Fin 2 → Fin S4x8192x1.rank)
  bcast_S4x8192x1_S4x8192x16_0_1_2 : S4x8192x1.BroadcastsInDim S4x8192x16 (![0, 1, 2] : Fin 3 → Fin S4x8192x16.rank)
  bcast_S4x8192x16_S4x8192x16x1_0_1_2 : S4x8192x16.BroadcastsInDim S4x8192x16x1 (![0, 1, 2] : Fin 3 → Fin S4x8192x16x1.rank)
  bcast_S4x8192x16x1_S4x8192x16x128_0_1_2_3 : S4x8192x16x1.BroadcastsInDim S4x8192x16x128 (![0, 1, 2, 3] : Fin 4 → Fin S4x8192x16x128.rank)
  reducesTo_S4x8192x16x128_S4x8192x128_d2 : S4x8192x16x128.ReducesTo [2] S4x8192x128
  shapeCasts_S128_S1x128 : S128.ShapeCasts S1x128
  iota_S128x128_d0_w32 : S128x128.Iotas .tc 32 [0]
  natLt_1_32 : 1 < 32
  iota_S128x128_d1_w32 : S128x128.Iotas .tc 32 [1]
  inb_S1x8192x128_S1x8192x128_0_0_0 : ∀ a, (![0, 0, 0] : Fin 3 → Nat) a + S1x8192x128.size a ≤ S1x8192x128.size a
  h_S1x8192x128 : 0 < S1x8192x128.numel
  shapeCasts_S1x8192x128_S8192x128 : S1x8192x128.ShapeCasts S8192x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  reduces_S8192x128_S128 : S8192x128.Reduces [0] S128
  shapeCasts_S8192x128_S1x8192x128 : S8192x128.ShapeCasts S1x8192x128
  gather_S4x32768x128_S4x8192x16x1_S4x8192x16x128_3_1_0_0_1_3_11128_wf : GatherDims.WF S4x32768x128 S4x8192x16x1 S4x8192x16x128 [3] [1] [0] [1] [0] 3 ![1, 1, 128]
  dot_S8192x128_S128x128_S8192x128_1_0_0_1_n_n_wf : DotDims.WF S8192x128 S128x128 S8192x128 [1] [0] [0] [1] [] []
  dot_S1x128_S128x128_S1x128_1_0_0_1_n_n_wf : DotDims.WF S1x128 S128x128 S1x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x8192x128.size a ≤ S4x8192x128.size a
  hwx0_0 : ∀ i : grid0.Coords, EltTy.bits .f32 = 32 ∨ (Rect.block (s := S4x8192x128) S1x8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8192x128.size a ≤ S4x8192x128.size a
  hwx0_1 : ∀ i : grid0.Coords, EltTy.bits .f32 = 32 ∨ (Rect.block (s := S4x8192x128) S1x8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x128.size a ≤ S1x128.size a
  hwx0_11 : ∀ i : grid0.Coords, EltTy.bits .f32 = 32 ∨ (Rect.block (s := S1x128) S1x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x128.size a ≤ S1x128.size a
  hwx0_13 : ∀ i : grid0.Coords, EltTy.bits .f32 = 32 ∨ (Rect.block (s := S1x128) S1x128.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x8192x128.size a ≤ S4x8192x128.size a
  hwx0_14 : ∀ i : grid0.Coords, EltTy.bits .f32 = 32 ∨ (Rect.block (s := S4x8192x128) S1x8192x128.size (cc0_transform_14 i) (hinb0_14 i)).WholeWords (EltTy.packing .f32)

variable [Facts₀]

def gather_S4x32768x128_S4x8192x16x1_S4x8192x16x128_3_1_0_0_1_3_11128 : GatherDims S4x32768x128 S4x8192x16x1 S4x8192x16x128 where
  offsetDims := [3]
  collapsedSliceDims := [1]
  operandBatchingDims := [0]
  startIndicesBatchingDims := [0]
  startIndexMap := [1]
  indexVectorDim := 3
  sliceSizes := ![1, 1, 128]
  wf := gather_S4x32768x128_S4x8192x16x1_S4x8192x16x128_3_1_0_0_1_3_11128_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf

abbrev win0_0 : Pipeline.Window sig grid0 :=
  Pipeline.Window.ofSpec (Memref.whole main_v23) S1x8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v27) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v28) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v29) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg13) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v30) S1x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v31) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v32) S1x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v33) S1x8192x128.size cc0_transform_14 reads0_14 true true 1 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S4x8192x128 : Shape := ⟨3, ![4, 8192, 128]⟩
abbrev S4x32768x128 : Shape := ⟨3, ![4, 32768, 128]⟩
abbrev S4x8192x3 : Shape := ⟨3, ![4, 8192, 3]⟩
abbrev S4x8192x16x3 : Shape := ⟨4, ![4, 8192, 16, 3]⟩
abbrev S4x8192x16 : Shape := ⟨3, ![4, 8192, 16]⟩
abbrev S128x128 : Shape := ⟨2, ![128, 128]⟩
abbrev S128 : Shape := ⟨1, ![128]⟩
abbrev S_ : Shape := ⟨0, ![]⟩
abbrev S4x8192x16x1 : Shape := ⟨4, ![4, 8192, 16, 1]⟩
abbrev S4x8192x16x128 : Shape := ⟨4, ![4, 8192, 16, 128]⟩
abbrev S4x8192x1x3 : Shape := ⟨4, ![4, 8192, 1, 3]⟩
abbrev S4x8192 : Shape := ⟨2, ![4, 8192]⟩
abbrev S4x8192x1 : Shape := ⟨3, ![4, 8192, 1]⟩
abbrev S1x1x128 : Shape := ⟨3, ![1, 1, 128]⟩
abbrev S4x8192x8x16 : Shape := ⟨4, ![4, 8192, 8, 16]⟩
abbrev S4x8 : Shape := ⟨2, ![4, 8]⟩
abbrev S4x1x8x1 : Shape := ⟨4, ![4, 1, 8, 1]⟩

abbrev nBuf : Space → Nat
  | .hbm => 220
  | .vmem => 0
  | .smem => 0
  | _ => 0

abbrev hbmTy0_0 (i : Nat) : BufTy := match i % 128 with
  | 0 => ⟨S4x8192x128, .f32⟩
  | 1 => ⟨S4x32768x128, .f32⟩
  | 2 => ⟨S4x8192x3, .f32⟩
  | 3 => ⟨S4x8192x16x3, .f32⟩
  | 4 => ⟨S4x8192x16, .i32⟩
  | 5 => ⟨S128x128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128x128, .f32⟩
  | 14 => ⟨S128, .f32⟩
  | 15 => ⟨S128, .f32⟩
  | 16 => ⟨S128, .f32⟩
  | 17 => ⟨S_, .i32⟩
  | 18 => ⟨S4x8192x16, .i32⟩
  | 19 => ⟨S4x8192x16, .i1⟩
  | 20 => ⟨S_, .i32⟩
  | 21 => ⟨S4x8192x16, .i32⟩
  | 22 => ⟨S4x8192x16, .i32⟩
  | 23 => ⟨S4x8192x16, .i32⟩
  | 24 => ⟨S4x8192x16x1, .i32⟩
  | 25 => ⟨S4x8192x16x128, .f32⟩
  | 26 => ⟨S4x8192x1x3, .f32⟩
  | 27 => ⟨S4x8192x16x3, .f32⟩
  | 28 => ⟨S4x8192x16x3, .f32⟩
  | 29 => ⟨S4x8192x16x3, .f32⟩
  | 30 => ⟨S_, .f32⟩
  | 31 => ⟨S4x8192x16, .f32⟩
  | 32 => ⟨S_, .f32⟩
  | 33 => ⟨S4x8192x16, .f32⟩
  | 34 => ⟨S4x8192x16, .f32⟩
  | 35 => ⟨S_, .f32⟩
  | 36 => ⟨S4x8192x16, .f32⟩
  | 37 => ⟨S4x8192x16, .f32⟩
  | 38 => ⟨S_, .f32⟩
  | 39 => ⟨S4x8192, .f32⟩
  | 40 => ⟨S4x8192x1, .f32⟩
  | 41 => ⟨S4x8192x16, .f32⟩
  | 42 => ⟨S4x8192x16, .f32⟩
  | 43 => ⟨S4x8192x16x1, .f32⟩
  | 44 => ⟨S4x8192x16x128, .f32⟩
  | 45 => ⟨S4x8192x16x128, .f32⟩
  | 46 => ⟨S_, .f32⟩
  | 47 => ⟨S4x8192x128, .f32⟩
  | 48 => ⟨S4x8192x128, .f32⟩
  | 49 => ⟨S1x1x128, .f32⟩
  | 50 => ⟨S4x8192x128, .f32⟩
  | 51 => ⟨S4x8192x128, .f32⟩
  | 52 => ⟨S4x8192x8x16, .f32⟩
  | 53 => ⟨S_, .f32⟩
  | 54 => ⟨S4x8, .f32⟩
  | 55 => ⟨S4x1x8x1, .f32⟩
  | 56 => ⟨S_, .f32⟩
  | 57 => ⟨S4x1x8x1, .f32⟩
  | 58 => ⟨S4x1x8x1, .f32⟩
  | 59 => ⟨S_, .i32⟩
  | 60 => ⟨S_, .f32⟩
  | 61 => ⟨S4x8, .f32⟩
  | 62 => ⟨S4x1x8x1, .f32⟩
  | 63 => ⟨S_, .f32⟩
  | 64 => ⟨S4x1x8x1, .f32⟩
  | 65 => ⟨S4x1x8x1, .f32⟩
  | 66 => ⟨S4x8192x8x16, .f32⟩
  | 67 => ⟨S4x8192x8x16, .f32⟩
  | 68 => ⟨S4x8192x8x16, .f32⟩
  | 69 => ⟨S_, .f32⟩
  | 70 => ⟨S_, .f32⟩
  | 71 => ⟨S_, .f32⟩
  | 72 => ⟨S_, .f32⟩
  | 73 => ⟨S4x8, .f32⟩
  | 74 => ⟨S4x1x8x1, .f32⟩
  | 75 => ⟨S4x1x8x1, .f32⟩
  | 76 => ⟨S4x1x8x1, .f32⟩
  | 77 => ⟨S_, .f32⟩
  | 78 => ⟨S_, .i1⟩
  | 79 => ⟨S_, .f32⟩
  | 80 => ⟨S_, .f32⟩
  | 81 => ⟨S4x1x8x1, .f32⟩
  | 82 => ⟨S4x1x8x1, .f32⟩
  | 83 => ⟨S4x8192x8x16, .f32⟩
  | 84 => ⟨S4x8192x8x16, .f32⟩
  | 85 => ⟨S_, .f32⟩
  | 86 => ⟨S4x1x8x1, .f32⟩
  | 87 => ⟨S4x1x8x1, .f32⟩
  | 88 => ⟨S4x1x8x1, .f32⟩
  | 89 => ⟨S4x8192x8x16, .f32⟩
  | 90 => ⟨S4x8192x8x16, .f32⟩
  | 91 => ⟨S4x8192x128, .f32⟩
  | 92 => ⟨S1x1x128, .f32⟩
  | 93 => ⟨S4x8192x128, .f32⟩
  | 94 => ⟨S4x8192x128, .f32⟩
  | 95 => ⟨S1x1x128, .f32⟩
  | 96 => ⟨S4x8192x128, .f32⟩
  | 97 => ⟨S4x8192x128, .f32⟩
  | 98 => ⟨S_, .f32⟩
  | 99 => ⟨S4x8192x128, .f32⟩
  | 100 => ⟨S4x8192x128, .i1⟩
  | 101 => ⟨S_, .f32⟩
  | 102 => ⟨S4x8192x128, .f32⟩
  | 103 => ⟨S4x8192x128, .f32⟩
  | 104 => ⟨S4x8192x128, .f32⟩
  | 105 => ⟨S4x8192x128, .f32⟩
  | 106 => ⟨S1x1x128, .f32⟩
  | 107 => ⟨S4x8192x128, .f32⟩
  | 108 => ⟨S4x8192x128, .f32⟩
  | 109 => ⟨S4x8192x8x16, .f32⟩
  | 110 => ⟨S_, .f32⟩
  | 111 => ⟨S4x8, .f32⟩
  | 112 => ⟨S4x1x8x1, .f32⟩
  | 113 => ⟨S_, .f32⟩
  | 114 => ⟨S4x1x8x1, .f32⟩
  | 115 => ⟨S4x1x8x1, .f32⟩
  | 116 => ⟨S_, .i32⟩
  | 117 => ⟨S_, .f32⟩
  | 118 => ⟨S4x8, .f32⟩
  | 119 => ⟨S4x1x8x1, .f32⟩
  | 120 => ⟨S_, .f32⟩
  | 121 => ⟨S4x1x8x1, .f32⟩
  | 122 => ⟨S4x1x8x1, .f32⟩
  | 123 => ⟨S4x8192x8x16, .f32⟩
  | 124 => ⟨S4x8192x8x16, .f32⟩
  | 125 => ⟨S4x8192x8x16, .f32⟩
  | 126 => ⟨S_, .f32⟩
  | 127 => ⟨S_, .f32⟩
  | _ => ⟨S4x8192x128, .f32⟩

abbrev hbmTy0_1 (i : Nat) : BufTy := match i % 128 with
  | 0 => ⟨S_, .f32⟩
  | 1 => ⟨S_, .f32⟩
  | 2 => ⟨S4x8, .f32⟩
  | 3 => ⟨S4x1x8x1, .f32⟩
  | 4 => ⟨S4x1x8x1, .f32⟩
  | 5 => ⟨S4x1x8x1, .f32⟩
  | 6 => ⟨S_, .f32⟩
  | 7 => ⟨S_, .i1⟩
  | 8 => ⟨S_, .f32⟩
  | 9 => ⟨S_, .f32⟩
  | 10 => ⟨S4x1x8x1, .f32⟩
  | 11 => ⟨S4x1x8x1, .f32⟩
  | 12 => ⟨S4x8192x8x16, .f32⟩
  | 13 => ⟨S4x8192x8x16, .f32⟩
  | 14 => ⟨S_, .f32⟩
  | 15 => ⟨S4x1x8x1, .f32⟩
  | 16 => ⟨S4x1x8x1, .f32⟩
  | 17 => ⟨S4x1x8x1, .f32⟩
  | 18 => ⟨S4x8192x8x16, .f32⟩
  | 19 => ⟨S4x8192x8x16, .f32⟩
  | 20 => ⟨S4x8192x128, .f32⟩
  | 21 => ⟨S1x1x128, .f32⟩
  | 22 => ⟨S4x8192x128, .f32⟩
  | 23 => ⟨S4x8192x128, .f32⟩
  | 24 => ⟨S1x1x128, .f32⟩
  | 25 => ⟨S4x8192x128, .f32⟩
  | 26 => ⟨S4x8192x128, .f32⟩
  | 27 => ⟨S_, .f32⟩
  | 28 => ⟨S4x8192x128, .f32⟩
  | 29 => ⟨S4x8192x128, .i1⟩
  | 30 => ⟨S_, .f32⟩
  | 31 => ⟨S4x8192x128, .f32⟩
  | 32 => ⟨S4x8192x128, .f32⟩
  | 33 => ⟨S4x8192x128, .f32⟩
  | 34 => ⟨S4x8192x128, .f32⟩
  | 35 => ⟨S4x8192x128, .f32⟩
  | 36 => ⟨S1x1x128, .f32⟩
  | 37 => ⟨S4x8192x128, .f32⟩
  | 38 => ⟨S4x8192x128, .f32⟩
  | 39 => ⟨S4x8192x8x16, .f32⟩
  | 40 => ⟨S_, .f32⟩
  | 41 => ⟨S4x8, .f32⟩
  | 42 => ⟨S4x1x8x1, .f32⟩
  | 43 => ⟨S_, .f32⟩
  | 44 => ⟨S4x1x8x1, .f32⟩
  | 45 => ⟨S4x1x8x1, .f32⟩
  | 46 => ⟨S_, .i32⟩
  | 47 => ⟨S_, .f32⟩
  | 48 => ⟨S4x8, .f32⟩
  | 49 => ⟨S4x1x8x1, .f32⟩
  | 50 => ⟨S_, .f32⟩
  | 51 => ⟨S4x1x8x1, .f32⟩
  | 52 => ⟨S4x1x8x1, .f32⟩
  | 53 => ⟨S4x8192x8x16, .f32⟩
  | 54 => ⟨S4x8192x8x16, .f32⟩
  | 55 => ⟨S4x8192x8x16, .f32⟩
  | 56 => ⟨S_, .f32⟩
  | 57 => ⟨S_, .f32⟩
  | 58 => ⟨S_, .f32⟩
  | 59 => ⟨S_, .f32⟩
  | 60 => ⟨S4x8, .f32⟩
  | 61 => ⟨S4x1x8x1, .f32⟩
  | 62 => ⟨S4x1x8x1, .f32⟩
  | 63 => ⟨S4x1x8x1, .f32⟩
  | 64 => ⟨S_, .f32⟩
  | 65 => ⟨S_, .i1⟩
  | 66 => ⟨S_, .f32⟩
  | 67 => ⟨S_, .f32⟩
  | 68 => ⟨S4x1x8x1, .f32⟩
  | 69 => ⟨S4x1x8x1, .f32⟩
  | 70 => ⟨S4x8192x8x16, .f32⟩
  | 71 => ⟨S4x8192x8x16, .f32⟩
  | 72 => ⟨S_, .f32⟩
  | 73 => ⟨S4x1x8x1, .f32⟩
  | 74 => ⟨S4x1x8x1, .f32⟩
  | 75 => ⟨S4x1x8x1, .f32⟩
  | 76 => ⟨S4x8192x8x16, .f32⟩
  | 77 => ⟨S4x8192x8x16, .f32⟩
  | 78 => ⟨S4x8192x128, .f32⟩
  | 79 => ⟨S1x1x128, .f32⟩
  | 80 => ⟨S4x8192x128, .f32⟩
  | 81 => ⟨S4x8192x128, .f32⟩
  | 82 => ⟨S1x1x128, .f32⟩
  | 83 => ⟨S4x8192x128, .f32⟩
  | 84 => ⟨S4x8192x128, .f32⟩
  | 85 => ⟨S_, .f32⟩
  | 86 => ⟨S4x8192x128, .f32⟩
  | 87 => ⟨S4x8192x128, .i1⟩
  | 88 => ⟨S_, .f32⟩
  | 89 => ⟨S4x8192x128, .f32⟩
  | 90 => ⟨S4x8192x128, .f32⟩
  | 91 => ⟨S4x8192x128, .f32⟩
  | _ => ⟨S4x8192x128, .f32⟩

abbrev hbmTy (i : Nat) : BufTy := match i / 128 with
  | 0 => hbmTy0_0 i
  | 1 => hbmTy0_1 i
  | _ => ⟨S4x8192x128, .f32⟩

abbrev bufTy : (tb : Table) → Fin (tcTables nBuf tb) → BufTy
  | .hbm, ⟨i, _⟩ => hbmTy i
  | _, _ => ⟨S4x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_v0 : Ref sig .tc := ⟨.hbm, 18, rfl⟩
abbrev main_v1 : Ref sig .tc := ⟨.hbm, 19, rfl⟩
abbrev main_c_0 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_cst_1 : Ref sig .tc := ⟨.hbm, 32, rfl⟩
abbrev main_v12 : Ref sig .tc := ⟨.hbm, 33, rfl⟩
abbrev main_v13 : Ref sig .tc := ⟨.hbm, 34, rfl⟩
abbrev main_cst_2 : Ref sig .tc := ⟨.hbm, 35, rfl⟩
abbrev main_v14 : Ref sig .tc := ⟨.hbm, 36, rfl⟩
abbrev main_v15 : Ref sig .tc := ⟨.hbm, 37, rfl⟩
abbrev main_cst_3 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_5 : Ref sig .tc := ⟨.hbm, 53, rfl⟩
abbrev main_v29 : Ref sig .tc := ⟨.hbm, 54, rfl⟩
abbrev main_v30 : Ref sig .tc := ⟨.hbm, 55, rfl⟩
abbrev main_cst_6 : Ref sig .tc := ⟨.hbm, 56, rfl⟩
abbrev main_v31 : Ref sig .tc := ⟨.hbm, 57, rfl⟩
abbrev main_v32 : Ref sig .tc := ⟨.hbm, 58, rfl⟩
abbrev main_c_7 : Ref sig .tc := ⟨.hbm, 59, rfl⟩
abbrev main_call0_cst : Ref sig .tc := ⟨.hbm, 60, rfl⟩
abbrev main_call0_v0 : Ref sig .tc := ⟨.hbm, 61, rfl⟩
abbrev main_call0_v1 : Ref sig .tc := ⟨.hbm, 62, rfl⟩
abbrev main_call0_cst_0 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_v5 : Ref sig .tc := ⟨.hbm, 67, rfl⟩
abbrev main_call0_v6 : Ref sig .tc := ⟨.hbm, 68, rfl⟩
abbrev main_call0_v7 : Ref sig .tc := ⟨.hbm, 69, rfl⟩
abbrev main_call0_cst_1 : Ref sig .tc := ⟨.hbm, 70, rfl⟩
abbrev main_call0_v8 : Ref sig .tc := ⟨.hbm, 71, rfl⟩
abbrev main_call0_cst_2 : Ref sig .tc := ⟨.hbm, 72, rfl⟩
abbrev main_call0_v9 : Ref sig .tc := ⟨.hbm, 73, rfl⟩
abbrev main_call0_v10 : Ref sig .tc := ⟨.hbm, 74, rfl⟩
abbrev main_call0_v11 : Ref sig .tc := ⟨.hbm, 75, rfl⟩
abbrev main_call0_v12 : Ref sig .tc := ⟨.hbm, 76, rfl⟩
abbrev main_call0_cst_3 : Ref sig .tc := ⟨.hbm, 77, rfl⟩
abbrev main_call0_v13 : Ref sig .tc := ⟨.hbm, 78, rfl⟩
abbrev main_call0_cst_4 : Ref sig .tc := ⟨.hbm, 79, rfl⟩
abbrev main_call0_call0_v0 : Ref sig .tc := ⟨.hbm, 80, rfl⟩
abbrev main_call0_call0_v1 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_cst_8 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_cst_9 : Ref sig .tc := ⟨.hbm, 98, rfl⟩
abbrev main_v48 : Ref sig .tc := ⟨.hbm, 99, rfl⟩
abbrev main_v49 : Ref sig .tc := ⟨.hbm, 100, rfl⟩
abbrev main_cst_10 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_cst_11 : Ref sig .tc := ⟨.hbm, 110, rfl⟩
abbrev main_v58 : Ref sig .tc := ⟨.hbm, 111, rfl⟩
abbrev main_v59 : Ref sig .tc := ⟨.hbm, 112, rfl⟩
abbrev main_cst_12 : Ref sig .tc := ⟨.hbm, 113, rfl⟩
abbrev main_v60 : Ref sig .tc := ⟨.hbm, 114, rfl⟩
abbrev main_v61 : Ref sig .tc := ⟨.hbm, 115, rfl⟩
abbrev main_c_13 : Ref sig .tc := ⟨.hbm, 116, rfl⟩
abbrev main_call2_cst : Ref sig .tc := ⟨.hbm, 117, rfl⟩
abbrev main_call2_v0 : Ref sig .tc := ⟨.hbm, 118, rfl⟩
abbrev main_call2_v1 : Ref sig .tc := ⟨.hbm, 119, rfl⟩
abbrev main_call2_cst_0 : Ref sig .tc := ⟨.hbm, 120, rfl⟩
abbrev main_call2_v2 : Ref sig .tc := ⟨.hbm, 121, rfl⟩
abbrev main_call2_v3 : Ref sig .tc := ⟨.hbm, 122, rfl⟩
abbrev main_call2_v4 : Ref sig .tc := ⟨.hbm, 123, rfl⟩
abbrev main_call2_v5 : Ref sig .tc := ⟨.hbm, 124, rfl⟩
abbrev main_call2_v6 : Ref sig .tc := ⟨.hbm, 125, rfl⟩
abbrev main_call2_v7 : Ref sig .tc := ⟨.hbm, 126, rfl⟩
abbrev main_call2_cst_1 : Ref sig .tc := ⟨.hbm, 127, rfl⟩
abbrev main_call2_v8 : Ref sig .tc := ⟨.hbm, 128, rfl⟩
abbrev main_call2_cst_2 : Ref sig .tc := ⟨.hbm, 129, rfl⟩
abbrev main_call2_v9 : Ref sig .tc := ⟨.hbm, 130, rfl⟩
abbrev main_call2_v10 : Ref sig .tc := ⟨.hbm, 131, rfl⟩
abbrev main_call2_v11 : Ref sig .tc := ⟨.hbm, 132, rfl⟩
abbrev main_call2_v12 : Ref sig .tc := ⟨.hbm, 133, rfl⟩
abbrev main_call2_cst_3 : Ref sig .tc := ⟨.hbm, 134, rfl⟩
abbrev main_call2_v13 : Ref sig .tc := ⟨.hbm, 135, rfl⟩
abbrev main_call2_cst_4 : Ref sig .tc := ⟨.hbm, 136, rfl⟩
abbrev main_call2_call0_v0 : Ref sig .tc := ⟨.hbm, 137, rfl⟩
abbrev main_call2_call0_v1 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_cst_14 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_cst_15 : Ref sig .tc := ⟨.hbm, 155, rfl⟩
abbrev main_v77 : Ref sig .tc := ⟨.hbm, 156, rfl⟩
abbrev main_v78 : Ref sig .tc := ⟨.hbm, 157, rfl⟩
abbrev main_cst_16 : Ref sig .tc := ⟨.hbm, 158, rfl⟩
abbrev main_v79 : Ref sig .tc := ⟨.hbm, 159, rfl⟩
abbrev main_v80 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_v86 : Ref sig .tc := ⟨.hbm, 166, rfl⟩
abbrev main_v87 : Ref sig .tc := ⟨.hbm, 167, rfl⟩
abbrev main_cst_17 : Ref sig .tc := ⟨.hbm, 168, rfl⟩
abbrev main_v88 : Ref sig .tc := ⟨.hbm, 169, rfl⟩
abbrev main_v89 : Ref sig .tc := ⟨.hbm, 170, rfl⟩
abbrev main_cst_18 : Ref sig .tc := ⟨.hbm, 171, rfl⟩
abbrev main_v90 : Ref sig .tc := ⟨.hbm, 172, rfl⟩
abbrev main_v91 : Ref sig .tc := ⟨.hbm, 173, rfl⟩
abbrev main_c_19 : Ref sig .tc := ⟨.hbm, 174, rfl⟩
abbrev main_call4_cst : Ref sig .tc := ⟨.hbm, 175, rfl⟩
abbrev main_call4_v0 : Ref sig .tc := ⟨.hbm, 176, rfl⟩
abbrev main_call4_v1 : Ref sig .tc := ⟨.hbm, 177, rfl⟩
abbrev main_call4_cst_0 : Ref sig .tc := ⟨.hbm, 178, rfl⟩
abbrev main_call4_v2 : Ref sig .tc := ⟨.hbm, 179, rfl⟩
abbrev main_call4_v3 : Ref sig .tc := ⟨.hbm, 180, rfl⟩
abbrev main_call4_v4 : Ref sig .tc := ⟨.hbm, 181, rfl⟩
abbrev main_call4_v5 : Ref sig .tc := ⟨.hbm, 182, rfl⟩
abbrev main_call4_v6 : Ref sig .tc := ⟨.hbm, 183, rfl⟩
abbrev main_call4_v7 : Ref sig .tc := ⟨.hbm, 184, rfl⟩
abbrev main_call4_cst_1 : Ref sig .tc := ⟨.hbm, 185, rfl⟩
abbrev main_call4_v8 : Ref sig .tc := ⟨.hbm, 186, rfl⟩
abbrev main_call4_cst_2 : Ref sig .tc := ⟨.hbm, 187, rfl⟩
abbrev main_call4_v9 : Ref sig .tc := ⟨.hbm, 188, rfl⟩
abbrev main_call4_v10 : Ref sig .tc := ⟨.hbm, 189, rfl⟩
abbrev main_call4_v11 : Ref sig .tc := ⟨.hbm, 190, rfl⟩
abbrev main_call4_v12 : Ref sig .tc := ⟨.hbm, 191, rfl⟩
abbrev main_call4_cst_3 : Ref sig .tc := ⟨.hbm, 192, rfl⟩
abbrev main_call4_v13 : Ref sig .tc := ⟨.hbm, 193, rfl⟩
abbrev main_call4_cst_4 : Ref sig .tc := ⟨.hbm, 194, rfl⟩
abbrev main_call4_call0_v0 : Ref sig .tc := ⟨.hbm, 195, rfl⟩
abbrev main_call4_call0_v1 : Ref sig .tc := ⟨.hbm, 196, rfl⟩
abbrev main_v92 : Ref sig .tc := ⟨.hbm, 197, rfl⟩
abbrev main_v93 : Ref sig .tc := ⟨.hbm, 198, rfl⟩
abbrev main_v94 : Ref sig .tc := ⟨.hbm, 199, rfl⟩
abbrev main_cst_20 : Ref sig .tc := ⟨.hbm, 200, rfl⟩
abbrev main_v95 : Ref sig .tc := ⟨.hbm, 201, rfl⟩
abbrev main_v96 : Ref sig .tc := ⟨.hbm, 202, rfl⟩
abbrev main_v97 : Ref sig .tc := ⟨.hbm, 203, rfl⟩
abbrev main_v98 : Ref sig .tc := ⟨.hbm, 204, rfl⟩
abbrev main_v99 : Ref sig .tc := ⟨.hbm, 205, rfl⟩
abbrev main_v100 : Ref sig .tc := ⟨.hbm, 206, rfl⟩
abbrev main_v101 : Ref sig .tc := ⟨.hbm, 207, rfl⟩
abbrev main_v102 : Ref sig .tc := ⟨.hbm, 208, rfl⟩
abbrev main_v103 : Ref sig .tc := ⟨.hbm, 209, rfl⟩
abbrev main_v104 : Ref sig .tc := ⟨.hbm, 210, rfl⟩
abbrev main_v105 : Ref sig .tc := ⟨.hbm, 211, rfl⟩
abbrev main_v106 : Ref sig .tc := ⟨.hbm, 212, rfl⟩
abbrev main_cst_21 : Ref sig .tc := ⟨.hbm, 213, rfl⟩
abbrev main_v107 : Ref sig .tc := ⟨.hbm, 214, rfl⟩
abbrev main_v108 : Ref sig .tc := ⟨.hbm, 215, rfl⟩
abbrev main_cst_22 : Ref sig .tc := ⟨.hbm, 216, rfl⟩
abbrev main_v109 : Ref sig .tc := ⟨.hbm, 217, rfl⟩
abbrev main_v110 : Ref sig .tc := ⟨.hbm, 218, rfl⟩
abbrev main_v111 : Ref sig .tc := ⟨.hbm, 219, rfl⟩

abbrev nD : Nat := 1
abbrev τ : Topo := Topo.v7x

variable {F : FTy → Type} [FloatOps F]

class Facts₀ : Prop where
  bcast_S_S4x8192x16 : S_.BroadcastsInDim S4x8192x16 (![] : Fin 0 → Fin S4x8192x16.rank)
  bcast_S4x8192x16_S4x8192x16x1_0_1_2 : S4x8192x16.BroadcastsInDim S4x8192x16x1 (![0, 1, 2] : Fin 3 → Fin S4x8192x16x1.rank)
  bcast_S4x8192x3_S4x8192x1x3_0_1_3 : S4x8192x3.BroadcastsInDim S4x8192x1x3 (![0, 1, 3] : Fin 3 → Fin S4x8192x1x3.rank)
  bcast_S4x8192x1x3_S4x8192x16x3_0_1_2_3 : S4x8192x1x3.BroadcastsInDim S4x8192x16x3 (![0, 1, 2, 3] : Fin 4 → Fin S4x8192x16x3.rank)
  reducesTo_S4x8192x16x3_S4x8192x16_d3 : S4x8192x16x3.ReducesTo [3] S4x8192x16
  h_S_ : 0 < S_.numel
  reducesTo_S4x8192x16_S4x8192_d2 : S4x8192x16.ReducesTo [2] S4x8192
  bcast_S4x8192_S4x8192x1_0_1 : S4x8192.BroadcastsInDim S4x8192x1 (![0, 1] : Fin 2 → Fin S4x8192x1.rank)
  bcast_S4x8192x1_S4x8192x16_0_1_2 : S4x8192x1.BroadcastsInDim S4x8192x16 (![0, 1, 2] : Fin 3 → Fin S4x8192x16.rank)
  bcast_S4x8192x16x1_S4x8192x16x128_0_1_2_3 : S4x8192x16x1.BroadcastsInDim S4x8192x16x128 (![0, 1, 2, 3] : Fin 4 → Fin S4x8192x16x128.rank)
  reducesTo_S4x8192x16x128_S4x8192x128_d2 : S4x8192x16x128.ReducesTo [2] S4x8192x128
  bcast_S128_S1x1x128_2 : S128.BroadcastsInDim S1x1x128 (![2] : Fin 1 → Fin S1x1x128.rank)
  bcast_S1x1x128_S4x8192x128_0_1_2 : S1x1x128.BroadcastsInDim S4x8192x128 (![0, 1, 2] : Fin 3 → Fin S4x8192x128.rank)
  shapeCasts_S4x8192x128_S4x8192x8x16 : S4x8192x128.ShapeCasts S4x8192x8x16
  reducesTo_S4x8192x8x16_S4x8_d1_3 : S4x8192x8x16.ReducesTo [1, 3] S4x8
  bcast_S4x8_S4x1x8x1_0_2 : S4x8.BroadcastsInDim S4x1x8x1 (![0, 2] : Fin 2 → Fin S4x1x8x1.rank)
  bcast_S_S4x1x8x1 : S_.BroadcastsInDim S4x1x8x1 (![] : Fin 0 → Fin S4x1x8x1.rank)
  bcast_S4x1x8x1_S4x8192x8x16_0_1_2_3 : S4x1x8x1.BroadcastsInDim S4x8192x8x16 (![0, 1, 2, 3] : Fin 4 → Fin S4x8192x8x16.rank)
  shapeCasts_S4x8192x8x16_S4x8192x128 : S4x8192x8x16.ShapeCasts S4x8192x128
  bcast_S_S4x8192x128 : S_.BroadcastsInDim S4x8192x128 (![] : Fin 0 → Fin S4x8192x128.rank)
  gather_S4x32768x128_S4x8192x16x1_S4x8192x16x128_3_1_0_0_1_3_11128_wf : GatherDims.WF S4x32768x128 S4x8192x16x1 S4x8192x16x128 [3] [1] [0] [1] [0] 3 ![1, 1, 128]
  dot_S4x8192x128_S128x128_S4x8192x128_2_0_01_1_n_n_wf : DotDims.WF S4x8192x128 S128x128 S4x8192x128 [2] [0] [0, 1] [1] [] []

variable [Facts₀]

def gather_S4x32768x128_S4x8192x16x1_S4x8192x16x128_3_1_0_0_1_3_11128 : GatherDims S4x32768x128 S4x8192x16x1 S4x8192x16x128 where
  offsetDims := [3]
  collapsedSliceDims := [1]
  operandBatchingDims := [0]
  startIndicesBatchingDims := [0]
  startIndexMap := [1]
  indexVectorDim := 3
  sliceSizes := ![1, 1, 128]
  wf := gather_S4x32768x128_S4x8192x16x1_S4x8192x16x128_3_1_0_0_1_3_11128_wf
def dot_S4x8192x128_S128x128_S4x8192x128_2_0_01_1_n_n : DotDims S4x8192x128 S128x128 S4x8192x128 where
  lhsContracting := [2]
  rhsContracting := [0]
  lhsNonContracting := [0, 1]
  rhsNonContracting := [1]
  lhsBatch := []
  rhsBatch := []
  wf := dot_S4x8192x128_S128x128_S4x8192x128_2_0_01_1_n_n_wf

class Facts : Prop extends Facts₀ where

variable [Facts]
-- ==== Proof.Spec.lean ====
/-
  The mathematics both programs compute, over plain functions of a row and a channel.

  One block is a linear layer, a group normalisation and a leaky rectifier.  For a batch entry with rows
  `n : Fin 8192` and channels `c : Fin 128`, the channels fall into eight groups of sixteen consecutive ones.
  With `h n c = (∑ k, x n k * W k c) + b c`, the group mean of channel `c` is the sum of `h` over all rows and the
  sixteen channels of `c`'s group, divided by the count word (8192 · 16); the variance is the same sum of the squared
  centred values divided by the count word; the normalised value is
  `(h n c - mean c) * rsqrt (var c + eps) * g c + be c`, and the rectifier keeps a value that is at least zero and
  scales the others by the slope word.  The words are kept as the extended reals they encode and are never evaluated,
  except that the count word is positive.

  The network is three blocks, the second block's result added to the query features before the third.
-/
import Idealize.ShloMosaic.PureOps.Ideal
import Idealize.ShloMosaic.Lib.ValueIdx

noncomputable section

open scoped BigOperators

namespace Cert.Spec

open Idealize.ShloMosaic

/-- The count word: 131072.0 = 8192 rows times 16 channels of a group. -/
def cnt : EReal := Ideal.ofBits .f32 0x48000000#32
/-- The variance's stabiliser word. -/
def eps : EReal := Ideal.ofBits .f32 0x3727C5AC#32
/-- The rectifier's slope word. -/
def slope : EReal := Ideal.ofBits .f32 0x3DCCCCCD#32
/-- The zero word. -/
def zero : EReal := Ideal.ofBits .f32 0x00000000#32

/-- Channel `q` of the group that holds channel `c`. -/
def gch (c : Fin 128) (q : Fin 16) : Fin 128 := ⟨16 * (c.val / 16) + q.val, by omega⟩

/-- The sum of `f` over all rows and over the sixteen channels of `c`'s group. -/
def gsum (f : Fin 8192 → Fin 128 → EReal) (c : Fin 128) : EReal := ∑ n : Fin 8192, ∑ q : Fin 16, f n (gch c q)

/-- The linear layer. -/
def lin (x : Fin 8192 → Fin 128 → EReal) (W : Fin 128 → Fin 128 → EReal) (b : Fin 128 → EReal) :
    Fin 8192 → Fin 128 → EReal := fun n c => (∑ k : Fin 128, x n k * W k c) + b c

/-- The group mean, at a channel of the group. -/
def mean (h : Fin 8192 → Fin 128 → EReal) : Fin 128 → EReal := fun c => Ideal.div (gsum h c) cnt

/-- The centred values. -/
def cen (h : Fin 8192 → Fin 128 → EReal) : Fin 8192 → Fin 128 → EReal := fun n c => h n c - mean h c

/-- The group variance (mean of the squared centred values), at a channel of the group. -/
def var (h : Fin 8192 → Fin 128 → EReal) : Fin 128 → EReal :=
  fun c => Ideal.div (gsum (fun n c' => cen h n c' * cen h n c') c) cnt

/-- The group normalisation with its scale `g` and shift `be`. -/
def gn (h : Fin 8192 → Fin 128 → EReal) (g be : Fin 128 → EReal) : Fin 8192 → Fin 128 → EReal :=
  fun n c => cen h n c * Ideal.rsqrt (var h c + eps) * g c + be c

/-- The leaky rectifier. -/
def act (y : EReal) : EReal := Scalar.select (Ideal.cmp .oge y zero) y (slope * y)

/-- One block. -/
def block (x : Fin 8192 → Fin 128 → EReal) (W : Fin 128 → Fin 128 → EReal) (b g be : Fin 128 → EReal) :
    Fin 8192 → Fin 128 → EReal := fun n c => act (gn (lin x W b) g be n c)

/-- The network on one batch entry: `lat` the weighted neighbour features, `q` the query features. -/
def net (lat q : Fin 8192 → Fin 128 → EReal)
    (W1 : Fin 128 → Fin 128 → EReal) (b1 g1 be1 : Fin 128 → EReal)
    (W2 : Fin 128 → Fin 128 → EReal) (b2 g2 be2 : Fin 128 → EReal)
    (W3 : Fin 128 → Fin 128 → EReal) (b3 g3 be3 : Fin 128 → EReal) : Fin 8192 → Fin 128 → EReal :=
  block (fun n k => block (block lat W1 b1 g1 be1) W2 b2 g2 be2 n k + q n k) W3 b3 g3 be3

/-! ## The words -/

/-- The zero word denotes zero. -/
theorem zero_eq : zero = 0 := by
  simp [zero, Ideal.ofBits, Ideal.ieee]

/-- The count word denotes the real 131072. -/
theorem cnt_eq : cnt = ((131072 : ℝ) : EReal) := by
  simp [cnt, Ideal.ofBits, Ideal.ieee, -EReal.coe_mul]; norm_num

/-- The count word is above zero. -/
theorem cnt_pos : (0 : EReal) < cnt := by
  rw [cnt_eq]; exact_mod_cast (by norm_num : (0 : ℝ) < 131072)

/-! ## The group sum through a same-group matrix -/

/-- A channel is channel `c' % 16` of its own group. -/
theorem gch_self (c' : Fin 128) : gch c' ⟨c'.val % 16, Nat.mod_lt _ (by norm_num)⟩ = c' :=
  Fin.ext (by show 16 * (c'.val / 16) + c'.val % 16 = c'.val; omega)

/-- The channels of one group: over all channels, keeping those of `c`'s group is summing over the sixteen. -/
theorem sum_same_group (u : Fin 128 → EReal) (c : Fin 128) :
    (∑ c' : Fin 128, if c'.val / 16 = c.val / 16 then u c' else 0) = ∑ q : Fin 16, u (gch c q) := by
  rw [← Finset.sum_filter]
  refine Finset.sum_bij' (fun c' _ => (⟨c'.val % 16, Nat.mod_lt _ (by norm_num)⟩ : Fin 16)) (fun q _ => gch c q)
    (fun _ _ => Finset.mem_univ _) ?_ ?_ ?_ ?_
  · intro q _
    refine Finset.mem_filter.mpr ⟨Finset.mem_univ _, ?_⟩
    show (16 * (c.val / 16) + q.val) / 16 = c.val / 16
    have := q.isLt; omega
  · intro c' hc'
    have h := (Finset.mem_filter.mp hc').2
    refine Fin.ext ?_
    show 16 * (c.val / 16) + c'.val % 16 = c'.val
    omega
  · intro q _
    refine Fin.ext ?_
    show (16 * (c.val / 16) + q.val) % 16 = q.val
    have := q.isLt; omega
  · intro c' hc'
    have h := (Finset.mem_filter.mp hc').2
    refine congrArg u (Fin.ext ?_)
    show c'.val = 16 * (c.val / 16) + c'.val % 16
    omega

/-- Column sums multiplied into a matrix that is one where the two channels share a group and zero elsewhere, summed
    over the first channel: the group sum. (A product with zero is zero and with one is the factor on every extended
    real, so nothing here asks for finiteness.) -/
theorem gsum_of_same_group (f : Fin 8192 → Fin 128 → EReal) (e : Fin 128 → Fin 128 → EReal)
    (he : ∀ c' c, e c' c = if c'.val / 16 = c.val / 16 then 1 else 0) (c : Fin 128) :
    (∑ c' : Fin 128, (∑ n : Fin 8192, f n c') * e c' c) = gsum f c := by
  unfold gsum
  have h1 : ∀ c' : Fin 128, (∑ n : Fin 8192, f n c') * e c' c
      = if c'.val / 16 = c.val / 16 then ∑ n : Fin 8192, f n c' else 0 := by
    intro c'; rw [he]; split_ifs <;> simp
  rw [Finset.sum_congr rfl fun c' _ => h1 c', sum_same_group (fun c' => ∑ n : Fin 8192, f n c') c, Finset.sum_comm]

end Cert.Spec

end
-- ==== Proof.KerBlock.lean ====
/-
  What the kernel body leaves in the output block, read at row `n` and channel `c`: the specification's network of
  the blocks it loaded (the neighbour features' block, the query features' block, the three layers' weights, biases,
  scales and shifts as [1, 128] rows).
-/
import proofs.«408550_j77214922047594_4_alg».proof.Proof.Gen.KernelIdeal.Frame
import proofs.«408550_j77214922047594_4_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KerBlock

open Cert.KernelIdeal Cert.KernelIdeal.Gen Idealize.ShloMosaic Idealize.ShloMosaic.ValueIdx

/-! ## The two products read at an index -/

theorem lhsD_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhsD_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhsD_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhsD_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- The rows' block times a weight matrix, into the zero accumulator, at (n, c): the sum over the contracted channel. -/
theorem mm_apply (x : FVec Ideal S8192x128 .f32) (W : FVec Ideal S128x128 .f32) (n : Fin 8192) (c : Fin 128) :
    matmul dot_S8192x128_S128x128_S8192x128_1_0_0_1_n_n none x W (constant S8192x128 .f32 0x00000000#32) (ix2 n c)
      = ∑ k : Fin 128, x (ix2 n k) * W (ix2 k c) := by
  simp only [matmul]
  rw [Ideal.matmul_constant_zero_apply, ← Equiv.sum_comp (contrEquiv1 dot_S8192x128_S128x128_S8192x128_1_0_0_1_n_n 128 rfl rfl).symm]
  refine Finset.sum_congr rfl fun k _ => ?_
  have hk := contrEquiv1_symm_val dot_S8192x128_S128x128_S8192x128_1_0_0_1_n_n 128 rfl rfl k
  have el : dot_S8192x128_S128x128_S8192x128_1_0_0_1_n_n.lhsIdx (ix2 n c) ((contrEquiv1 dot_S8192x128_S128x128_S8192x128_1_0_0_1_n_n 128 rfl rfl).symm k) = ix2 n k := funext fun a => Fin.ext (by
    match a with
    | ⟨0, _⟩ => exact lhsD_0 _ _
    | ⟨1, _⟩ => exact (lhsD_1 _ _).trans hk)
  have er : dot_S8192x128_S128x128_S8192x128_1_0_0_1_n_n.rhsIdx (ix2 n c) ((contrEquiv1 dot_S8192x128_S128x128_S8192x128_1_0_0_1_n_n 128 rfl rfl).symm k) = ix2 k c := funext fun a => Fin.ext (by
    match a with
    | ⟨0, _⟩ => exact (rhsD_0 _ _).trans hk
    | ⟨1, _⟩ => exact rhsD_1 _ _)
  rw [el, er]

theorem lhsE_0 (i : S1x128.Idx) (q : dot_S1x128_S128x128_S1x128_1_0_0_1_n_n.contr.Idx) :
    (dot_S1x128_S128x128_S1x128_1_0_0_1_n_n.lhsIdx i q 0).val = (i 0).val := by
  unfold DotDims.lhsIdx
  rw [dif_neg (show ¬(0 : Fin S1x128.rank) ∈ dot_S1x128_S128x128_S1x128_1_0_0_1_n_n.lhsBatch by decide), dif_pos (show (0 : Fin S1x128.rank) ∈ dot_S1x128_S128x128_S1x128_1_0_0_1_n_n.lhsNonContracting by decide)]
  rfl
theorem lhsE_1 (i : S1x128.Idx) (q : dot_S1x128_S128x128_S1x128_1_0_0_1_n_n.contr.Idx) :
    (dot_S1x128_S128x128_S1x128_1_0_0_1_n_n.lhsIdx i q 1).val = (q ⟨0, by decide⟩).val :=
  dot_S1x128_S128x128_S1x128_1_0_0_1_n_n.lhsIdx_val_of_single rfl i q
theorem rhsE_0 (i : S1x128.Idx) (q : dot_S1x128_S128x128_S1x128_1_0_0_1_n_n.contr.Idx) :
    (dot_S1x128_S128x128_S1x128_1_0_0_1_n_n.rhsIdx i q 0).val = (q ⟨0, by decide⟩).val :=
  dot_S1x128_S128x128_S1x128_1_0_0_1_n_n.rhsIdx_val_of_single rfl i q
theorem rhsE_1 (i : S1x128.Idx) (q : dot_S1x128_S128x128_S1x128_1_0_0_1_n_n.contr.Idx) :
    (dot_S1x128_S128x128_S1x128_1_0_0_1_n_n.rhsIdx i q 1).val = (i 1).val := by
  unfold DotDims.rhsIdx
  rw [dif_neg (show ¬(1 : Fin S128x128.rank) ∈ dot_S1x128_S128x128_S1x128_1_0_0_1_n_n.rhsBatch by decide), dif_pos (show (1 : Fin S128x128.rank) ∈ dot_S1x128_S128x128_S1x128_1_0_0_1_n_n.rhsNonContracting by decide)]
  rfl

/-- A [1, 128] row times a 128 × 128 matrix, into the zero accumulator, at (u, c). -/
theorem mm1_apply (r : FVec Ideal S1x128 .f32) (E : FVec Ideal S128x128 .f32) (u : Fin 1) (c : Fin 128) :
    matmul dot_S1x128_S128x128_S1x128_1_0_0_1_n_n none r E (constant S1x128 .f32 0x00000000#32) (ix2 u c)
      = ∑ k : Fin 128, r (ix2 u k) * E (ix2 k c) := by
  simp only [matmul]
  rw [Ideal.matmul_constant_zero_apply, ← Equiv.sum_comp (contrEquiv1 dot_S1x128_S128x128_S1x128_1_0_0_1_n_n 128 rfl rfl).symm]
  refine Finset.sum_congr rfl fun k _ => ?_
  have hk := contrEquiv1_symm_val dot_S1x128_S128x128_S1x128_1_0_0_1_n_n 128 rfl rfl k
  have el : dot_S1x128_S128x128_S1x128_1_0_0_1_n_n.lhsIdx (ix2 u c) ((contrEquiv1 dot_S1x128_S128x128_S1x128_1_0_0_1_n_n 128 rfl rfl).symm k) = ix2 u k := funext fun a => Fin.ext (by
    match a with
    | ⟨0, _⟩ => exact lhsE_0 _ _
    | ⟨1, _⟩ => exact (lhsE_1 _ _).trans hk)
  have er : dot_S1x128_S128x128_S1x128_1_0_0_1_n_n.rhsIdx (ix2 u c) ((contrEquiv1 dot_S1x128_S128x128_S1x128_1_0_0_1_n_n 128 rfl rfl).symm k) = ix2 k c := funext fun a => Fin.ext (by
    match a with
    | ⟨0, _⟩ => exact (rhsE_0 _ _).trans hk
    | ⟨1, _⟩ => exact rhsE_1 _ _)
  rw [el, er]

/-- The column sums over the 8192 rows, viewed as a [1, 128] row, at (u, c). -/
theorem colsum_apply (v : FVec Ideal S8192x128 .f32) (u : Fin 1) (c : Fin 128) :
    shapeCast S1x128 (multiReduction .add [0] S128 v 0x00000000#32 reduces_S8192x128_S128 (.inl rfl) rfl) shapeCasts_S128_S1x128 (ix2 u c)
      = ∑ n : Fin 8192, v (ix2 n c) := by
  rw [shapeCast_a_1a_apply]
  refine (Ideal.multiReduction_add_single v _ reduces_S8192x128_S128 _ _ (ix1 c)).trans ?_
  refine Finset.sum_congr rfl fun n _ => congrArg v (funext fun a => Fin.ext ?_)
  match a with
  | ⟨0, _⟩ => rfl
  | ⟨1, _⟩ => rfl

/-! ## The same-group matrix -/

/-- Floor division of a word by sixteen, as the program writes it with the signed quotient and remainder. -/
def fdiv16 (w : BitVec 32) : BitVec 32 :=
  Scalar.select
    (IntOp.andi
      (IntOp.cmpi .ne (IntOp.subi ((IntOp.cmpi .sgt w 0#32).setWidth 32) ((IntOp.cmpi .slt w 0#32).setWidth 32))
        (Scalar.subi (Scalar.extui (Scalar.cmpi .sgt 16#32 0#32)) (Scalar.extui (Scalar.cmpi .slt 16#32 0#32))))
      (IntOp.cmpi .ne (IntOp.remsi .vector w 16#32) 0#32))
    (IntOp.subi (IntOp.divsi .vector w 16#32) 1#32) (IntOp.divsi .vector w 16#32)

/-- On a channel number it is the group number. -/
theorem fdiv16_spec : ∀ r : Fin 128, fdiv16 (BitVec.ofNat 32 r.val) = BitVec.ofNat 32 (r.val / 16) := by
  decide +kernel

/-- The row part of the matrix: the group of the row. -/
theorem pay2_apply (r c : Fin 128) : k0_pay2 (ix2 r c) = BitVec.ofNat 32 (r.val / 16) := by
  have h : ∀ w : BitVec 32, iota .tc S128x128 32 [0] iota_S128x128_d0_w32 (ix2 r c) = w → k0_pay2 (ix2 r c) = fdiv16 w := by
    intro w hw; subst hw; rfl
  rw [h _ (iota_single_apply _ _ _ _ _ _)]
  exact fdiv16_spec r

/-- The column part of the matrix: the group of the column. -/
theorem col_apply (r c : Fin 128) :
    select (andi k0_pay4 k0_pay5) (subi k0_pay3 (broadcast S128x128 1#32)) k0_pay3 (ix2 r c) = BitVec.ofNat 32 (c.val / 16) := by
  have h : ∀ w : BitVec 32, iota .tc S128x128 32 [1] iota_S128x128_d1_w32 (ix2 r c) = w →
      select (andi k0_pay4 k0_pay5) (subi k0_pay3 (broadcast S128x128 1#32)) k0_pay3 (ix2 r c) = fdiv16 w := by
    intro w hw; subst hw; rfl
  rw [h _ (iota_single_apply _ _ _ _ _ _)]
  exact fdiv16_spec c

/-- Two group numbers as words are equal exactly when they are equal. -/
theorem cmp_group (a b : Nat) (ha : a < 8) (hb : b < 8) :
    IntOp.cmpi .eq (BitVec.ofNat 32 a) (BitVec.ofNat 32 b) = if a = b then 1#1 else 0#1 := by
  interval_cases a <;> interval_cases b <;> rfl

/-- The same-group matrix: one where row and column are channels of one group, zero elsewhere. -/
theorem pay6_apply (r c : Fin 128) :
    k0_pay6 (F := Ideal) k0_pay2 k0_pay3 k0_pay4 k0_pay5 (ix2 r c) = if r.val / 16 = c.val / 16 then 1 else 0 := by
  have h : ∀ a b : BitVec 32, k0_pay2 (ix2 r c) = a →
      select (andi k0_pay4 k0_pay5) (subi k0_pay3 (broadcast S128x128 1#32)) k0_pay3 (ix2 r c) = b →
      k0_pay6 (F := Ideal) k0_pay2 k0_pay3 k0_pay4 k0_pay5 (ix2 r c) = ((((IntOp.cmpi .eq a b).setWidth 32).toInt : ℝ) : EReal) := by
    intro a b ha hb; subst ha; subst hb; rfl
  rw [h _ _ (pay2_apply r c) (col_apply r c), cmp_group _ _ (by have := r.isLt; omega) (by have := c.isLt; omega)]
  split_ifs
  · show ((((1#1 : BitVec 1).setWidth 32).toInt : ℝ) : EReal) = 1
    have : ((1#1 : BitVec 1).setWidth 32).toInt = 1 := by decide
    rw [this]; norm_num
  · show ((((0#1 : BitVec 1).setWidth 32).toInt : ℝ) : EReal) = 0
    have : ((0#1 : BitVec 1).setWidth 32).toInt = 0 := by decide
    rw [this]; norm_num

/-! ## The stretch the three blocks share -/

/-- A group statistic's row: the column sums times the same-group matrix, over the count word. -/
def gstat (v : FVec Ideal S8192x128 .f32) (E : FVec Ideal S128x128 .f32) : FVec Ideal S1x128 .f32 :=
  divf (matmul dot_S1x128_S128x128_S1x128_1_0_0_1_n_n none
      (shapeCast S1x128 (multiReduction .add [0] S128 v 0x00000000#32 reduces_S8192x128_S128 (.inl rfl) rfl) shapeCasts_S128_S1x128)
      E (constant S1x128 .f32 0x00000000#32))
    (broadcast S1x128 (Scalar.ofBits .f32 0x48000000#32))

/-- With the same-group matrix it is the group sum over the count word, at every channel. -/
theorem gstat_apply (v : FVec Ideal S8192x128 .f32) (E : FVec Ideal S128x128 .f32)
    (hE : ∀ r c : Fin 128, E (ix2 r c) = if r.val / 16 = c.val / 16 then 1 else 0) (u : Fin 1) (c : Fin 128) :
    gstat v E (ix2 u c) = Ideal.div (Spec.gsum (fun n c => v (ix2 n c)) c) Spec.cnt := by
  unfold gstat
  rw [divf_apply, mm1_apply]
  refine congrArg₂ Ideal.div ?_ rfl
  rw [← Spec.gsum_of_same_group (fun n c => v (ix2 n c)) (fun k c => E (ix2 k c)) hE c]
  exact Finset.sum_congr rfl fun k _ => congrArg (· * E (ix2 k c)) (colsum_apply v u k)

/-- The linear layer on the rows' block. -/
def linV (x : FVec Ideal S8192x128 .f32) (W : FVec Ideal S128x128 .f32) (b : FVec Ideal S1x128 .f32) : FVec Ideal S8192x128 .f32 :=
  addf (matmul dot_S8192x128_S128x128_S8192x128_1_0_0_1_n_n none x W (constant S8192x128 .f32 0x00000000#32))
    (broadcastTo S8192x128 (shapeCast S1x128 b shapeCasts_S1x128_S1x128) broadcasts_S1x128_S8192x128)

theorem linV_apply (x : FVec Ideal S8192x128 .f32) (W : FVec Ideal S128x128 .f32) (b : FVec Ideal S1x128 .f32) (n : Fin 8192) (c : Fin 128) :
    linV x W b (ix2 n c)
      = Spec.lin (fun n k => x (ix2 n k)) (fun k c => W (ix2 k c)) (fun c => b (ix2 (0 : Fin 1) c)) n c := by
  unfold linV
  rw [addf_apply, mm_apply, broadcastTo_1b_ab_apply, shapeCast_self]
  rfl

/-- The values less their group mean. -/
def cenV (h : FVec Ideal S8192x128 .f32) (E : FVec Ideal S128x128 .f32) : FVec Ideal S8192x128 .f32 :=
  subf h (broadcastTo S8192x128 (gstat h E) broadcasts_S1x128_S8192x128)

theorem cenV_apply (h : FVec Ideal S8192x128 .f32) (E : FVec Ideal S128x128 .f32)
    (hE : ∀ r c : Fin 128, E (ix2 r c) = if r.val / 16 = c.val / 16 then 1 else 0) (n : Fin 8192) (c : Fin 128) :
    cenV h E (ix2 n c) = Spec.cen (fun n c => h (ix2 n c)) n c := by
  unfold cenV
  rw [subf_apply, broadcastTo_1b_ab_apply, gstat_apply _ _ hE]
  rfl

/-- The centred values over the group's deviation, times the scale. -/
def scaleV (h : FVec Ideal S8192x128 .f32) (g : FVec Ideal S1x128 .f32) (E : FVec Ideal S128x128 .f32) : FVec Ideal S8192x128 .f32 :=
  mulf
    (mulf (cenV h E)
      (broadcastTo S8192x128
        (rsqrt (addf (gstat (mulf (cenV h E) (cenV h E)) E) (broadcast S1x128 (Scalar.ofBits .f32 0x3727C5AC#32))))
        broadcasts_S1x128_S8192x128))
    (broadcastTo S8192x128 (shapeCast S1x128 g shapeCasts_S1x128_S1x128) broadcasts_S1x128_S8192x128)

theorem scaleV_apply (h : FVec Ideal S8192x128 .f32) (g : FVec Ideal S1x128 .f32) (E : FVec Ideal S128x128 .f32)
    (hE : ∀ r c : Fin 128, E (ix2 r c) = if r.val / 16 = c.val / 16 then 1 else 0) (n : Fin 8192) (c : Fin 128) :
    scaleV h g E (ix2 n c)
      = Spec.cen (fun n c => h (ix2 n c)) n c * Ideal.rsqrt (Spec.var (fun n c => h (ix2 n c)) c + Spec.eps)
          * g (ix2 (0 : Fin 1) c) := by
  unfold scaleV
  rw [mulf_apply, mulf_apply, cenV_apply _ _ hE, broadcastTo_1b_ab_apply, broadcastTo_1b_ab_apply, shapeCast_self]
  show Spec.cen (fun n c => h (ix2 n c)) n c
      * Ideal.rsqrt (gstat (mulf (cenV h E) (cenV h E)) E (ix2 (0 : Fin 1) c) + Spec.eps) * g (ix2 (0 : Fin 1) c) = _
  rw [gstat_apply _ _ hE]
  have hsq : (fun n c => mulf (cenV h E) (cenV h E) (ix2 n c))
      = fun n c' => Spec.cen (fun n c => h (ix2 n c)) n c' * Spec.cen (fun n c => h (ix2 n c)) n c' := by
    funext n c'
    rw [mulf_apply, cenV_apply _ _ hE]
  rw [hsq]
  rfl

/-- One block from its linear layer through the scale. -/
def stretch (x : FVec Ideal S8192x128 .f32) (W : FVec Ideal S128x128 .f32) (b g : FVec Ideal S1x128 .f32)
    (E : FVec Ideal S128x128 .f32) : FVec Ideal S8192x128 .f32 :=
  scaleV (linV x W b) g E

/-- The block's normalisation, shift included, at (n, c). -/
theorem norm_apply (x : FVec Ideal S8192x128 .f32) (W : FVec Ideal S128x128 .f32) (b g be : FVec Ideal S1x128 .f32)
    (E : FVec Ideal S128x128 .f32) (hE : ∀ r c : Fin 128, E (ix2 r c) = if r.val / 16 = c.val / 16 then 1 else 0)
    (n : Fin 8192) (c : Fin 128) :
    addf (stretch x W b g E)
        (broadcastTo S8192x128 (shapeCast S1x128 be shapeCasts_S1x128_S1x128) broadcasts_S1x128_S8192x128) (ix2 n c)
      = Spec.gn (Spec.lin (fun n k => x (ix2 n k)) (fun k c => W (ix2 k c)) (fun c => b (ix2 (0 : Fin 1) c)))
          (fun c => g (ix2 (0 : Fin 1) c)) (fun c => be (ix2 (0 : Fin 1) c)) n c := by
  unfold stretch
  rw [addf_apply, scaleV_apply _ _ _ hE, broadcastTo_1b_ab_apply, shapeCast_self]
  have hl : (fun n c => linV x W b (ix2 n c))
      = Spec.lin (fun n k => x (ix2 n k)) (fun k c => W (ix2 k c)) (fun c => b (ix2 (0 : Fin 1) c)) := by
    funext n c; exact linV_apply x W b n c
  rw [hl]
  rfl

/-- The rectifier on a block of values. -/
def actV (y : FVec Ideal S8192x128 .f32) : FVec Ideal S8192x128 .f32 :=
  select (cmpf .oge y (broadcast S8192x128 (Scalar.ofBits .f32 0x00000000#32))) y
    (mulf (broadcast S8192x128 (Scalar.ofBits .f32 0x3DCCCCCD#32)) y)

theorem actV_apply (y : FVec Ideal S8192x128 .f32) (i : S8192x128.Idx) : actV y i = Spec.act (y i) := rfl

/-! ## The payloads as that stretch -/

theorem pay7_eq (v24 v27 : IVec S128x128 32) (v41 v45 : IVec S128x128 1) (v53 : Vec Ideal S1x8192x128 .f32)
    (v55 : Vec Ideal S128x128 .f32) (v57 v79 : Vec Ideal S1x128 .f32) :
    k0_pay7 v24 v27 v41 v45 v53 v55 v57 v79
      = stretch (shapeCast S8192x128 v53 shapeCasts_S1x8192x128_S8192x128) v55 v57 v79
          (k0_pay6 (F := Ideal) v24 v27 v41 v45) := rfl

theorem pay9_eq (v52 : FVec Ideal S128x128 .f32) (v82 v85 : FVec Ideal S8192x128 .f32) (v92 : Vec Ideal S128x128 .f32)
    (v94 v116 v120 : Vec Ideal S1x128 .f32) :
    k0_pay9 v52 v82 v85 v92 v94 v116 v120
      = addf (stretch (actV (addf v82 v85)) v92 v94 v116 v52)
          (broadcastTo S8192x128 (shapeCast S1x128 v120 shapeCasts_S1x128_S1x128) broadcasts_S1x128_S8192x128) := rfl

theorem pay11_eq (v52 : FVec Ideal S128x128 .f32) (v123 : FVec Ideal S8192x128 .f32) (v125 : IVec S8192x128 1)
    (cst_47 : Ideal .f32) (v129 : Vec Ideal S1x8192x128 .f32) (v132 : Vec Ideal S128x128 .f32)
    (v134 v156 v160 : Vec Ideal S1x128 .f32) :
    k0_pay11 v52 v123 v125 cst_47 v129 v132 v134 v156 v160
      = addf (stretch (addf (select v125 v123 (mulf (broadcast S8192x128 cst_47) v123))
              (shapeCast S8192x128 v129 shapeCasts_S1x8192x128_S8192x128)) v132 v134 v156 v52)
          (broadcastTo S8192x128 (shapeCast S1x128 v160 shapeCasts_S1x128_S1x128) broadcasts_S1x128_S8192x128) := rfl

/-! ## The three blocks, before their rectifiers -/

/-- The first block from the neighbour features' block, its shift added. -/
theorem blk1_apply (x0 : Vec Ideal S1x8192x128 .f32) (x2 : Vec Ideal S128x128 .f32) (x3 x4 x5 : Vec Ideal S1x128 .f32)
    (n : Fin 8192) (k : Fin 128) :
    addf (k0_pay7 k0_pay2 k0_pay3 k0_pay4 k0_pay5 x0 x2 x3 x4) (k0_pay8 x5) (ix2 n k)
      = Spec.gn (Spec.lin (fun n k => x0 (ix3 (0 : Fin 1) n k)) (fun k c => x2 (ix2 k c)) (fun c => x3 (ix2 (0 : Fin 1) c)))
          (fun c => x4 (ix2 (0 : Fin 1) c)) (fun c => x5 (ix2 (0 : Fin 1) c)) n k := by
  rw [pay7_eq]
  refine (norm_apply _ x2 x3 x4 x5 _ pay6_apply n k).trans ?_
  have hx : (fun (n : Fin 8192) (k : Fin 128) => shapeCast S8192x128 x0 shapeCasts_S1x8192x128_S8192x128 (ix2 n k))
      = fun n k => x0 (ix3 (0 : Fin 1) n k) := by
    funext n k; exact shapeCast_1ab_ab_apply x0 _ n k
  rw [hx]

/-- The second block from the first's values, rectified here. -/
theorem blk2_apply (E : FVec Ideal S128x128 .f32) (hE : ∀ r c : Fin 128, E (ix2 r c) = if r.val / 16 = c.val / 16 then 1 else 0)
    (v82 v85 : FVec Ideal S8192x128 .f32) (x6 : Vec Ideal S128x128 .f32) (x7 x8 x9 : Vec Ideal S1x128 .f32)
    (n : Fin 8192) (k : Fin 128) :
    k0_pay9 E v82 v85 x6 x7 x8 x9 (ix2 n k)
      = Spec.gn (Spec.lin (fun n k => Spec.act (addf v82 v85 (ix2 n k))) (fun k c => x6 (ix2 k c)) (fun c => x7 (ix2 (0 : Fin 1) c)))
          (fun c => x8 (ix2 (0 : Fin 1) c)) (fun c => x9 (ix2 (0 : Fin 1) c)) n k := by
  rw [pay9_eq]
  exact norm_apply _ x6 x7 x8 x9 E hE n k

/-- The third block from the second's values, rectified here, and the query features' block. -/
theorem blk3_apply (E : FVec Ideal S128x128 .f32) (hE : ∀ r c : Fin 128, E (ix2 r c) = if r.val / 16 = c.val / 16 then 1 else 0)
    (v123 : FVec Ideal S8192x128 .f32) (x1 : Vec Ideal S1x8192x128 .f32) (x10 : Vec Ideal S128x128 .f32)
    (x11 x12 x13 : Vec Ideal S1x128 .f32) (n : Fin 8192) (c : Fin 128) :
    k0_pay11 E v123 (cmpf .oge v123 (broadcast S8192x128 (Scalar.ofBits .f32 0x00000000#32)))
        (Scalar.ofBits .f32 0x3DCCCCCD#32) x1 x10 x11 x12 x13 (ix2 n c)
      = Spec.gn (Spec.lin (fun n k => Spec.act (v123 (ix2 n k)) + x1 (ix3 (0 : Fin 1) n k)) (fun k c => x10 (ix2 k c))
            (fun c => x11 (ix2 (0 : Fin 1) c)))
          (fun c => x12 (ix2 (0 : Fin 1) c)) (fun c => x13 (ix2 (0 : Fin 1) c)) n c := by
  rw [pay11_eq]
  refine (norm_apply _ x10 x11 x12 x13 E hE n c).trans ?_
  have hx : (fun (n : Fin 8192) (k : Fin 128) =>
        addf (actV v123) (shapeCast S8192x128 x1 shapeCasts_S1x8192x128_S8192x128) (ix2 n k))
      = fun n k => Spec.act (v123 (ix2 n k)) + x1 (ix3 (0 : Fin 1) n k) := by
    funext n k; rw [addf_apply, shapeCast_1ab_ab_apply]; rfl
  exact congrArg (fun X => Spec.gn (Spec.lin X (fun k c => x10 (ix2 k c)) (fun c => x11 (ix2 (0 : Fin 1) c)))
    (fun c => x12 (ix2 (0 : Fin 1) c)) (fun c => x13 (ix2 (0 : Fin 1) c)) n c) hx

/-- The last rectifier and the view [1, 8192, 128]. -/
theorem pay1_apply (v163 : FVec Ideal S8192x128 .f32) (n : Fin 8192) (c : Fin 128) :
    k0_pay1 v163 (cmpf .oge v163 (broadcast S8192x128 (Scalar.ofBits .f32 0x00000000#32))) (ix3 (0 : Fin 1) n c)
      = Spec.act (v163 (ix2 n c)) := by
  have h : k0_pay1 v163 (cmpf .oge v163 (broadcast S8192x128 (Scalar.ofBits .f32 0x00000000#32)))
      = shapeCast S1x8192x128 (actV v163) shapeCasts_S8192x128_S1x8192x128 := rfl
  rw [h, shapeCast_ab_1ab_apply]
  rfl

/-- From the second block's values on: the third block on them, rectified, plus the query features. -/
theorem tail_apply (E : FVec Ideal S128x128 .f32) (hE : ∀ r c : Fin 128, E (ix2 r c) = if r.val / 16 = c.val / 16 then 1 else 0)
    (v123 : FVec Ideal S8192x128 .f32) (x1 : Vec Ideal S1x8192x128 .f32) (x10 : Vec Ideal S128x128 .f32)
    (x11 x12 x13 : Vec Ideal S1x128 .f32) (n : Fin 8192) (c : Fin 128) :
    k0_pay1
        (k0_pay11 E v123 (cmpf .oge v123 (broadcast S8192x128 (Scalar.ofBits .f32 0x00000000#32)))
          (Scalar.ofBits .f32 0x3DCCCCCD#32) x1 x10 x11 x12 x13)
        (k0_pay12 E v123 (cmpf .oge v123 (broadcast S8192x128 (Scalar.ofBits .f32 0x00000000#32)))
          (Scalar.ofBits .f32 0x3DCCCCCD#32) x1 x10 x11 x12 x13) (ix3 (0 : Fin 1) n c)
      = Spec.block (fun n k => Spec.act (v123 (ix2 n k)) + x1 (ix3 (0 : Fin 1) n k)) (fun k c => x10 (ix2 k c))
          (fun c => x11 (ix2 (0 : Fin 1) c)) (fun c => x12 (ix2 (0 : Fin 1) c)) (fun c => x13 (ix2 (0 : Fin 1) c)) n c := by
  refine (pay1_apply _ n c).trans ?_
  rw [blk3_apply E hE]
  rfl

/-! ## The output block -/

theorem hz3 : (![0, 0, 0] : Fin 3 → Nat) = fun _ => 0 := funext fun a => by fin_cases a <;> rfl
theorem hz2 : (![0, 0] : Fin 2 → Nat) = fun _ => 0 := funext fun a => by fin_cases a <;> rfl

/-- The output block at (0, n, c). -/
theorem out_apply (x0 x1 : Vec Ideal S1x8192x128 .f32) (x2 : Vec Ideal S128x128 .f32) (x3 x4 x5 : Vec Ideal S1x128 .f32)
    (x6 : Vec Ideal S128x128 .f32) (x7 x8 x9 : Vec Ideal S1x128 .f32)
    (x10 : Vec Ideal S128x128 .f32) (x11 x12 x13 : Vec Ideal S1x128 .f32) (n : Fin 8192) (c : Fin 128) :
    out0_14 (F := Ideal) x0 x1 x2 x3 x4 x5 x6 x7 x8 x9 x10 x11 x12 x13 (ix3 (0 : Fin 1) n c)
      = Cert.Spec.net (fun n k => x0 (ix3 (0 : Fin 1) n k)) (fun n k => x1 (ix3 (0 : Fin 1) n k))
          (fun k c => x2 (ix2 k c)) (fun c => x3 (ix2 (0 : Fin 1) c)) (fun c => x4 (ix2 (0 : Fin 1) c)) (fun c => x5 (ix2 (0 : Fin 1) c))
          (fun k c => x6 (ix2 k c)) (fun c => x7 (ix2 (0 : Fin 1) c)) (fun c => x8 (ix2 (0 : Fin 1) c)) (fun c => x9 (ix2 (0 : Fin 1) c))
          (fun k c => x10 (ix2 k c)) (fun c => x11 (ix2 (0 : Fin 1) c)) (fun c => x12 (ix2 (0 : Fin 1) c)) (fun c => x13 (ix2 (0 : Fin 1) c)) n c := by
  unfold out0_14
  rw [View.canon_unit_zero hz3]
  simp only [View.ld_unit_zero (S := S1x8192x128) hz3, View.ld_unit_zero (S := S128x128) hz2,
    View.ld_unit_zero (S := S1x128) hz2]
  refine (tail_apply _ pay6_apply _ x1 x10 x11 x12 x13 n c).trans ?_
  have h9 := blk2_apply _ pay6_apply (k0_pay7 k0_pay2 k0_pay3 k0_pay4 k0_pay5 x0 x2 x3 x4) (k0_pay8 x5) x6 x7 x8 x9
  have h78 := blk1_apply x0 x2 x3 x4 x5
  simp only [h9, h78]
  rfl

end Cert.KernelIdeal.KerBlock

end
-- ==== Proof.RefTerm.lean ====
/-
  What the reference computes, as pure terms of the argument arrays, operation by operation as its program states them.

  `latent`: every query row gathers sixteen rows of the support features (a negative row number counted from the end)
  and sums them with weights `1 / (d² + 1e-8)` normalised to sum one, `d²` the squared distance of the neighbour's
  point to the query's.  `var`: the group variance as the program's helper function states it (the mean again, the
  squared centred values summed over rows and the group's channels, divided by the count less the correction, which is
  zero, and kept where that divisor is positive).  `block`: the linear layer, the group normalisation over the array
  viewed [4, 8192, 8, 16], the leaky rectifier.  `net`: three blocks, the query features added before the third.
-/
import proofs.«408550_j77214922047594_4_alg».proof.Proof.Gen.ReferenceIdeal

noncomputable section

namespace Cert.ReferenceIdeal.RefTerm

open Cert.ReferenceIdeal Cert.ReferenceIdeal.Gen Idealize.ShloMosaic

variable {F : FTy → Type} [FloatOps F]

/-- The weighted sum of the gathered neighbour features. -/
def latent (sf : FVec F S4x32768x128 .f32) (qp : FVec F S4x8192x3 .f32) (sp : FVec F S4x8192x16x3 .f32)
    (idx : IVec S4x8192x16 32) : FVec F S4x8192x128 .f32 :=
  have v0 : IVec S4x8192x16 32 := broadcastInDim S4x8192x16 ![] bcast_S_S4x8192x16 (constantI S_ 32 0#32)
  have v1 : IVec S4x8192x16 1 := cmpi .slt idx v0
  have v2 : IVec S4x8192x16 32 := broadcastInDim S4x8192x16 ![] bcast_S_S4x8192x16 (constantI S_ 32 32768#32)
  have v3 : IVec S4x8192x16 32 := addi idx v2
  have v4 : IVec S4x8192x16 32 := select v1 v3 idx
  have v5 : IVec S4x8192x16x1 32 := broadcastInDim S4x8192x16x1 ![0, 1, 2] bcast_S4x8192x16_S4x8192x16x1_0_1_2 v4
  have v6 : FVec F S4x8192x16x128 .f32 := Host.gather gather_S4x32768x128_S4x8192x16x1_S4x8192x16x128_3_1_0_0_1_3_11128 sf v5
  have v7 : FVec F S4x8192x1x3 .f32 := broadcastInDim S4x8192x1x3 ![0, 1, 3] bcast_S4x8192x3_S4x8192x1x3_0_1_3 qp
  have v8 : FVec F S4x8192x16x3 .f32 := broadcastInDim S4x8192x16x3 ![0, 1, 2, 3] bcast_S4x8192x1x3_S4x8192x16x3_0_1_2_3 v7
  have v9 : FVec F S4x8192x16x3 .f32 := subf sp v8
  have v10 : FVec F S4x8192x16x3 .f32 := mulf v9 v9
  have v11 : FVec F S4x8192x16 .f32 := Host.reduceAdd v10 (constant S_ .f32 0x00000000#32) reducesTo_S4x8192x16x3_S4x8192x16_d3 h_S_
  have v12 : FVec F S4x8192x16 .f32 := broadcastInDim S4x8192x16 ![] bcast_S_S4x8192x16 (constant S_ .f32 0x322BCC77#32)
  have v13 : FVec F S4x8192x16 .f32 := addf v11 v12
  have v14 : FVec F S4x8192x16 .f32 := broadcastInDim S4x8192x16 ![] bcast_S_S4x8192x16 (constant S_ .f32 0x3F800000#32)
  have v15 : FVec F S4x8192x16 .f32 := Host.divf v14 v13
  have v16 : FVec F S4x8192 .f32 := Host.reduceAdd v15 (constant S_ .f32 0x00000000#32) reducesTo_S4x8192x16_S4x8192_d2 h_S_
  have v17 : FVec F S4x8192x1 .f32 := broadcastInDim S4x8192x1 ![0, 1] bcast_S4x8192_S4x8192x1_0_1 v16
  have v18 : FVec F S4x8192x16 .f32 := broadcastInDim S4x8192x16 ![0, 1, 2] bcast_S4x8192x1_S4x8192x16_0_1_2 v17
  have v19 : FVec F S4x8192x16 .f32 := Host.divf v15 v18
  have v20 : FVec F S4x8192x16x1 .f32 := broadcastInDim S4x8192x16x1 ![0, 1, 2] bcast_S4x8192x16_S4x8192x16x1_0_1_2 v19
  have v21 : FVec F S4x8192x16x128 .f32 := broadcastInDim S4x8192x16x128 ![0, 1, 2, 3] bcast_S4x8192x16x1_S4x8192x16x128_0_1_2_3 v20
  have v22 : FVec F S4x8192x16x128 .f32 := mulf v6 v21
  Host.reduceAdd v22 (constant S_ .f32 0x00000000#32) reducesTo_S4x8192x16x128_S4x8192x128_d2 h_S_

/-- The helper function's variance of the array viewed [4, 8192, 8, 16], over rows and the channels of a group;
    `ddof` is the correction it is called with (zero). -/
def var (x : FVec F S4x8192x8x16 .f32) (ddof : IVec S_ 32) : FVec F S4x1x8x1 .f32 :=
  have v0 : FVec F S4x8 .f32 := Host.reduceAdd x (constant S_ .f32 0x00000000#32) reducesTo_S4x8192x8x16_S4x8_d1_3 h_S_
  have v1 : FVec F S4x1x8x1 .f32 := broadcastInDim S4x1x8x1 ![0, 2] bcast_S4x8_S4x1x8x1_0_2 v0
  have v2 : FVec F S4x1x8x1 .f32 := broadcastInDim S4x1x8x1 ![] bcast_S_S4x1x8x1 (constant S_ .f32 0x48000000#32)
  have v3 : FVec F S4x1x8x1 .f32 := Host.divf v1 v2
  have v4 : FVec F S4x8192x8x16 .f32 := broadcastInDim S4x8192x8x16 ![0, 1, 2, 3] bcast_S4x1x8x1_S4x8192x8x16_0_1_2_3 v3
  have v5 : FVec F S4x8192x8x16 .f32 := subf x v4
  have v6 : FVec F S4x8192x8x16 .f32 := mulf v5 v5
  have v7 : FVec F S_ .f32 := sitofp .f32 ddof
  have v8 : FVec F S_ .f32 := subf (constant S_ .f32 0x48000000#32) v7
  have v9 : FVec F S4x8 .f32 := Host.reduceAdd v6 (constant S_ .f32 0x00000000#32) reducesTo_S4x8192x8x16_S4x8_d1_3 h_S_
  have v10 : FVec F S4x1x8x1 .f32 := broadcastInDim S4x1x8x1 ![0, 2] bcast_S4x8_S4x1x8x1_0_2 v9
  have v11 : FVec F S4x1x8x1 .f32 := broadcastInDim S4x1x8x1 ![] bcast_S_S4x1x8x1 v8
  have v12 : FVec F S4x1x8x1 .f32 := Host.divf v10 v11
  have v13 : IVec S_ 1 := cmpf .ogt v8 (constant S_ .f32 0x00000000#32)
  have w0 : FVec F S_ .f32 := id (constant S_ .f32 0x7FC00000#32)
  have w1 : FVec F S4x1x8x1 .f32 := broadcastInDim S4x1x8x1 ![] bcast_S_S4x1x8x1 w0
  select (broadcastInDim S4x1x8x1 ![] bcast_S_S4x1x8x1 v13) v12 w1

/-- One block on the whole array: the linear layer, the group normalisation, the leaky rectifier. -/
def block (x : FVec F S4x8192x128 .f32) (W : FVec F S128x128 .f32) (b g be : FVec F S128 .f32) : FVec F S4x8192x128 .f32 :=
  have v24 : FVec F S4x8192x128 .f32 := Host.dotGeneral dot_S4x8192x128_S128x128_S4x8192x128_2_0_01_1_n_n none x W
  have v25 : FVec F S1x1x128 .f32 := broadcastInDim S1x1x128 ![2] bcast_S128_S1x1x128_2 b
  have v26 : FVec F S4x8192x128 .f32 := broadcastInDim S4x8192x128 ![0, 1, 2] bcast_S1x1x128_S4x8192x128_0_1_2 v25
  have v27 : FVec F S4x8192x128 .f32 := addf v24 v26
  have v28 : FVec F S4x8192x8x16 .f32 := shapeCast S4x8192x8x16 v27 shapeCasts_S4x8192x128_S4x8192x8x16
  have v29 : FVec F S4x8 .f32 := Host.reduceAdd v28 (constant S_ .f32 0x00000000#32) reducesTo_S4x8192x8x16_S4x8_d1_3 h_S_
  have v30 : FVec F S4x1x8x1 .f32 := broadcastInDim S4x1x8x1 ![0, 2] bcast_S4x8_S4x1x8x1_0_2 v29
  have v31 : FVec F S4x1x8x1 .f32 := broadcastInDim S4x1x8x1 ![] bcast_S_S4x1x8x1 (constant S_ .f32 0x48000000#32)
  have v32 : FVec F S4x1x8x1 .f32 := Host.divf v30 v31
  have v33 : FVec F S4x1x8x1 .f32 := var v28 (constantI S_ 32 0#32)
  have v34 : FVec F S4x8192x8x16 .f32 := broadcastInDim S4x8192x8x16 ![0, 1, 2, 3] bcast_S4x1x8x1_S4x8192x8x16_0_1_2_3 v32
  have v35 : FVec F S4x8192x8x16 .f32 := subf v28 v34
  have v36 : FVec F S4x1x8x1 .f32 := broadcastInDim S4x1x8x1 ![] bcast_S_S4x1x8x1 (constant S_ .f32 0x3727C5AC#32)
  have v37 : FVec F S4x1x8x1 .f32 := addf v33 v36
  have v38 : FVec F S4x1x8x1 .f32 := Host.rsqrt v37
  have v39 : FVec F S4x8192x8x16 .f32 := broadcastInDim S4x8192x8x16 ![0, 1, 2, 3] bcast_S4x1x8x1_S4x8192x8x16_0_1_2_3 v38
  have v40 : FVec F S4x8192x8x16 .f32 := mulf v35 v39
  have v41 : FVec F S4x8192x128 .f32 := shapeCast S4x8192x128 v40 shapeCasts_S4x8192x8x16_S4x8192x128
  have v42 : FVec F S1x1x128 .f32 := broadcastInDim S1x1x128 ![2] bcast_S128_S1x1x128_2 g
  have v43 : FVec F S4x8192x128 .f32 := broadcastInDim S4x8192x128 ![0, 1, 2] bcast_S1x1x128_S4x8192x128_0_1_2 v42
  have v44 : FVec F S4x8192x128 .f32 := mulf v41 v43
  have v45 : FVec F S1x1x128 .f32 := broadcastInDim S1x1x128 ![2] bcast_S128_S1x1x128_2 be
  have v46 : FVec F S4x8192x128 .f32 := broadcastInDim S4x8192x128 ![0, 1, 2] bcast_S1x1x128_S4x8192x128_0_1_2 v45
  have v47 : FVec F S4x8192x128 .f32 := addf v44 v46
  have v48 : FVec F S4x8192x128 .f32 := broadcastInDim S4x8192x128 ![] bcast_S_S4x8192x128 (constant S_ .f32 0x00000000#32)
  have v49 : IVec S4x8192x128 1 := cmpf .oge v47 v48
  have v50 : FVec F S4x8192x128 .f32 := broadcastInDim S4x8192x128 ![] bcast_S_S4x8192x128 (constant S_ .f32 0x3DCCCCCD#32)
  have v51 : FVec F S4x8192x128 .f32 := mulf v50 v47
  select v49 v47 v51

/-- The reference's result. -/
def net (qf : FVec F S4x8192x128 .f32) (sf : FVec F S4x32768x128 .f32) (qp : FVec F S4x8192x3 .f32)
    (sp : FVec F S4x8192x16x3 .f32) (idx : IVec S4x8192x16 32)
    (W1 : FVec F S128x128 .f32) (b1 g1 be1 : FVec F S128 .f32)
    (W2 : FVec F S128x128 .f32) (b2 g2 be2 : FVec F S128 .f32)
    (W3 : FVec F S128x128 .f32) (b3 g3 be3 : FVec F S128 .f32) : FVec F S4x8192x128 .f32 :=
  block (addf (block (block (latent sf qp sp idx) W1 b1 g1 be1) W2 b2 g2 be2) qf) W3 b3 g3 be3

end Cert.ReferenceIdeal.RefTerm

end
-- ==== Proof.HostPre.lean ====
/-
  What the kernel's region finds in the arrays its host operations wrote before it: the weighted neighbour features
  (the same operations as the reference's, in another order of statement), and each bias, scale and shift vector viewed
  as one row [1, 128].
-/
import proofs.«408550_j77214922047594_4_alg».proof.Proof.Gen.KernelIdeal.Frame
import proofs.«408550_j77214922047594_4_alg».proof.Proof.RefTerm
import Idealize.ShloMosaic.Lib.StableHlo.Run
import Idealize.ShloMosaic.Lib.ValueIdx
import Idealize.ShloMosaic.Lib.ValueLayout

noncomputable section

namespace Cert.KernelIdeal.HostPre

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]
variable (m : (ℓ : Loc nD τ sig) → Buf (Elt F) ℓ)

/-- The neighbour-features array at the region's entry is the reference's term of the support features, the query
    points, the neighbour points and the neighbour row numbers. -/
theorem V_lat (c : Dev nD) :
    (V m c main_v23 : S4x8192x128.Idx → Elt F .f32)
      = Cert.ReferenceIdeal.RefTerm.latent (F := F) (m ((c : Thread nD τ).loc main_arg1)) (m ((c : Thread nD τ).loc main_arg2))
          (m ((c : Thread nD τ).loc main_arg3)) (m ((c : Thread nD τ).loc main_arg4)) := by
  dsimp only [V, hostOps0]
  after_results_simp
  rfl

/-- The row the region finds in `main_v24` is argument 6's vector. -/
theorem V_row24 (c : Dev nD) (j : Fin 128) :
    (V m c main_v24 : S1x128.Idx → Elt F .f32) (ix2 (0 : Fin 1) j) = (m ((c : Thread nD τ).loc main_arg6) : S128.Idx → Elt F .f32) (ix1 j) := by
  have e : (V m c main_v24 : S1x128.Idx → Elt F .f32)
      = shapeCast S1x128 (m ((c : Thread nD τ).loc main_arg6) : S128.Idx → Elt F .f32) shapeCasts_S128_S1x128 := by
    dsimp only [V, hostOps0]
    after_results_simp
    rfl
  rw [e]
  exact shapeCast_a_1a_apply _ _ _ _

/-- The row the region finds in `main_v25` is argument 7's vector. -/
theorem V_row25 (c : Dev nD) (j : Fin 128) :
    (V m c main_v25 : S1x128.Idx → Elt F .f32) (ix2 (0 : Fin 1) j) = (m ((c : Thread nD τ).loc main_arg7) : S128.Idx → Elt F .f32) (ix1 j) := by
  have e : (V m c main_v25 : S1x128.Idx → Elt F .f32)
      = shapeCast S1x128 (m ((c : Thread nD τ).loc main_arg7) : S128.Idx → Elt F .f32) shapeCasts_S128_S1x128 := by
    dsimp only [V, hostOps0]
    after_results_simp
    rfl
  rw [e]
  exact shapeCast_a_1a_apply _ _ _ _

/-- The row the region finds in `main_v26` is argument 8's vector. -/
theorem V_row26 (c : Dev nD) (j : Fin 128) :
    (V m c main_v26 : S1x128.Idx → Elt F .f32) (ix2 (0 : Fin 1) j) = (m ((c : Thread nD τ).loc main_arg8) : S128.Idx → Elt F .f32) (ix1 j) := by
  have e : (V m c main_v26 : S1x128.Idx → Elt F .f32)
      = shapeCast S1x128 (m ((c : Thread nD τ).loc main_arg8) : S128.Idx → Elt F .f32) shapeCasts_S128_S1x128 := by
    dsimp only [V, hostOps0]
    after_results_simp
    rfl
  rw [e]
  exact shapeCast_a_1a_apply _ _ _ _

/-- The row the region finds in `main_v27` is argument 10's vector. -/
theorem V_row27 (c : Dev nD) (j : Fin 128) :
    (V m c main_v27 : S1x128.Idx → Elt F .f32) (ix2 (0 : Fin 1) j) = (m ((c : Thread nD τ).loc main_arg10) : S128.Idx → Elt F .f32) (ix1 j) := by
  have e : (V m c main_v27 : S1x128.Idx → Elt F .f32)
      = shapeCast S1x128 (m ((c : Thread nD τ).loc main_arg10) : S128.Idx → Elt F .f32) shapeCasts_S128_S1x128 := by
    dsimp only [V, hostOps0]
    after_results_simp
    rfl
  rw [e]
  exact shapeCast_a_1a_apply _ _ _ _

/-- The row the region finds in `main_v28` is argument 11's vector. -/
theorem V_row28 (c : Dev nD) (j : Fin 128) :
    (V m c main_v28 : S1x128.Idx → Elt F .f32) (ix2 (0 : Fin 1) j) = (m ((c : Thread nD τ).loc main_arg11) : S128.Idx → Elt F .f32) (ix1 j) := by
  have e : (V m c main_v28 : S1x128.Idx → Elt F .f32)
      = shapeCast S1x128 (m ((c : Thread nD τ).loc main_arg11) : S128.Idx → Elt F .f32) shapeCasts_S128_S1x128 := by
    dsimp only [V, hostOps0]
    after_results_simp
    rfl
  rw [e]
  exact shapeCast_a_1a_apply _ _ _ _

/-- The row the region finds in `main_v29` is argument 12's vector. -/
theorem V_row29 (c : Dev nD) (j : Fin 128) :
    (V m c main_v29 : S1x128.Idx → Elt F .f32) (ix2 (0 : Fin 1) j) = (m ((c : Thread nD τ).loc main_arg12) : S128.Idx → Elt F .f32) (ix1 j) := by
  have e : (V m c main_v29 : S1x128.Idx → Elt F .f32)
      = shapeCast S1x128 (m ((c : Thread nD τ).loc main_arg12) : S128.Idx → Elt F .f32) shapeCasts_S128_S1x128 := by
    dsimp only [V, hostOps0]
    after_results_simp
    rfl
  rw [e]
  exact shapeCast_a_1a_apply _ _ _ _

/-- The row the region finds in `main_v30` is argument 14's vector. -/
theorem V_row30 (c : Dev nD) (j : Fin 128) :
    (V m c main_v30 : S1x128.Idx → Elt F .f32) (ix2 (0 : Fin 1) j) = (m ((c : Thread nD τ).loc main_arg14) : S128.Idx → Elt F .f32) (ix1 j) := by
  have e : (V m c main_v30 : S1x128.Idx → Elt F .f32)
      = shapeCast S1x128 (m ((c : Thread nD τ).loc main_arg14) : S128.Idx → Elt F .f32) shapeCasts_S128_S1x128 := by
    dsimp only [V, hostOps0]
    after_results_simp
    rfl
  rw [e]
  exact shapeCast_a_1a_apply _ _ _ _

/-- The row the region finds in `main_v31` is argument 15's vector. -/
theorem V_row31 (c : Dev nD) (j : Fin 128) :
    (V m c main_v31 : S1x128.Idx → Elt F .f32) (ix2 (0 : Fin 1) j) = (m ((c : Thread nD τ).loc main_arg15) : S128.Idx → Elt F .f32) (ix1 j) := by
  have e : (V m c main_v31 : S1x128.Idx → Elt F .f32)
      = shapeCast S1x128 (m ((c : Thread nD τ).loc main_arg15) : S128.Idx → Elt F .f32) shapeCasts_S128_S1x128 := by
    dsimp only [V, hostOps0]
    after_results_simp
    rfl
  rw [e]
  exact shapeCast_a_1a_apply _ _ _ _

/-- The row the region finds in `main_v32` is argument 16's vector. -/
theorem V_row32 (c : Dev nD) (j : Fin 128) :
    (V m c main_v32 : S1x128.Idx → Elt F .f32) (ix2 (0 : Fin 1) j) = (m ((c : Thread nD τ).loc main_arg16) : S128.Idx → Elt F .f32) (ix1 j) := by
  have e : (V m c main_v32 : S1x128.Idx → Elt F .f32)
      = shapeCast S1x128 (m ((c : Thread nD τ).loc main_arg16) : S128.Idx → Elt F .f32) shapeCasts_S128_S1x128 := by
    dsimp only [V, hostOps0]
    after_results_simp
    rfl
  rw [e]
  exact shapeCast_a_1a_apply _ _ _ _

end Cert.KernelIdeal.HostPre

end
-- ==== Proof.Target.lean ====
/-
  The network's value at one index of the whole result array, as a function of whole arrays: batch entry `p`'s rows of
  the neighbour features and of the query features, the shared weight matrices and per-channel vectors.  Both programs'
  results are read against this one function.
-/
import proofs.«408550_j77214922047594_4_alg».proof.Proof.Spec

noncomputable section

namespace Cert.Target

open Idealize.ShloMosaic Idealize.ShloMosaic.ValueIdx

/-- The result at batch entry `p`, row `n`, channel `c`. -/
def netAt (lat qf : (⟨3, ![4, 8192, 128]⟩ : Shape).Idx → EReal)
    (W1 : (⟨2, ![128, 128]⟩ : Shape).Idx → EReal) (b1 g1 be1 : (⟨1, ![128]⟩ : Shape).Idx → EReal)
    (W2 : (⟨2, ![128, 128]⟩ : Shape).Idx → EReal) (b2 g2 be2 : (⟨1, ![128]⟩ : Shape).Idx → EReal)
    (W3 : (⟨2, ![128, 128]⟩ : Shape).Idx → EReal) (b3 g3 be3 : (⟨1, ![128]⟩ : Shape).Idx → EReal)
    (p : Fin 4) (n : Fin 8192) (c : Fin 128) : EReal :=
  Cert.Spec.net (fun n k => lat (ix3 p n k)) (fun n k => qf (ix3 p n k))
    (fun k c => W1 (ix2 k c)) (fun c => b1 (ix1 c)) (fun c => g1 (ix1 c)) (fun c => be1 (ix1 c))
    (fun k c => W2 (ix2 k c)) (fun c => b2 (ix1 c)) (fun c => g2 (ix1 c)) (fun c => be2 (ix1 c))
    (fun k c => W3 (ix2 k c)) (fun c => b3 (ix1 c)) (fun c => g3 (ix1 c)) (fun c => be3 (ix1 c)) n c

/-- The whole result array: `netAt` at the index's three coordinates. -/
def netArr (lat qf : (⟨3, ![4, 8192, 128]⟩ : Shape).Idx → EReal)
    (W1 : (⟨2, ![128, 128]⟩ : Shape).Idx → EReal) (b1 g1 be1 : (⟨1, ![128]⟩ : Shape).Idx → EReal)
    (W2 : (⟨2, ![128, 128]⟩ : Shape).Idx → EReal) (b2 g2 be2 : (⟨1, ![128]⟩ : Shape).Idx → EReal)
    (W3 : (⟨2, ![128, 128]⟩ : Shape).Idx → EReal) (b3 g3 be3 : (⟨1, ![128]⟩ : Shape).Idx → EReal) :
    (⟨3, ![4, 8192, 128]⟩ : Shape).Idx → EReal :=
  fun i => netAt lat qf W1 b1 g1 be1 W2 b2 g2 be2 W3 b3 g3 be3 ⟨(i 0).val, (i 0).isLt⟩ ⟨(i 1).val, (i 1).isLt⟩ ⟨(i 2).val, (i 2).isLt⟩

/-- At an index given by its coordinates. -/
theorem netArr_ix3 (lat qf : (⟨3, ![4, 8192, 128]⟩ : Shape).Idx → EReal)
    (W1 : (⟨2, ![128, 128]⟩ : Shape).Idx → EReal) (b1 g1 be1 : (⟨1, ![128]⟩ : Shape).Idx → EReal)
    (W2 : (⟨2, ![128, 128]⟩ : Shape).Idx → EReal) (b2 g2 be2 : (⟨1, ![128]⟩ : Shape).Idx → EReal)
    (W3 : (⟨2, ![128, 128]⟩ : Shape).Idx → EReal) (b3 g3 be3 : (⟨1, ![128]⟩ : Shape).Idx → EReal)
    (p : Fin 4) (n : Fin 8192) (c : Fin 128) :
    netArr lat qf W1 b1 g1 be1 W2 b2 g2 be2 W3 b3 g3 be3 (ix3 p n c)
      = netAt lat qf W1 b1 g1 be1 W2 b2 g2 be2 W3 b3 g3 be3 p n c := rfl

end Cert.Target

end
-- ==== Proof.KerValue.lean ====
/-
  From blocks to the array.  Grid point `t` of the kernel's one launch stages batch entry `t` of the neighbour features
  and of the query features as [1, 8192, 128] blocks and every weight, bias, scale and shift whole; what it writes back
  is block `t` of one function of the argument arrays, `result`; the four blocks tile the result array, so after the
  run the array IS that function.
-/
import proofs.«408550_j77214922047594_4_alg».proof.Proof.Gen.KernelIdeal.Value
import proofs.«408550_j77214922047594_4_alg».proof.Proof.KerBlock
import proofs.«408550_j77214922047594_4_alg».proof.Proof.HostPre
import proofs.«408550_j77214922047594_4_alg».proof.Proof.Target
import Idealize.ShloMosaic.Lib.Pipeline.Value
import Idealize.ShloMosaic.Lib.ValueIdx

set_option pp.maxSteps 5000
set_option pp.deepTerms false

noncomputable section

namespace Cert.KernelIdeal.KerValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The result array as one function of the argument arrays. -/
def result (c : Dev nD) : S4x8192x128.Idx → EReal :=
  Cert.Target.netArr
    (Cert.ReferenceIdeal.RefTerm.latent (F := Ideal) (m ((c : Thread nD τ).loc main_arg1)) (m ((c : Thread nD τ).loc main_arg2)) (m ((c : Thread nD τ).loc main_arg3)) (m ((c : Thread nD τ).loc main_arg4)))
    (m ((c : Thread nD τ).loc main_arg0))
    (m ((c : Thread nD τ).loc main_arg5)) (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11)) (m ((c : Thread nD τ).loc main_arg12))
    (m ((c : Thread nD τ).loc main_arg13)) (m ((c : Thread nD τ).loc main_arg14)) (m ((c : Thread nD τ).loc main_arg15)) (m ((c : Thread nD τ).loc main_arg16))

/-- `result` at an index given by its coordinates. -/
theorem result_ix3 (c : Dev nD) (p : Fin 4) (n : Fin 8192) (j : Fin 128) :
    result m c (ix3 p n j)
      = Cert.Target.netAt
          (Cert.ReferenceIdeal.RefTerm.latent (F := Ideal) (m ((c : Thread nD τ).loc main_arg1)) (m ((c : Thread nD τ).loc main_arg2)) (m ((c : Thread nD τ).loc main_arg3)) (m ((c : Thread nD τ).loc main_arg4)))
          (m ((c : Thread nD τ).loc main_arg0))
          (m ((c : Thread nD τ).loc main_arg5)) (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11)) (m ((c : Thread nD τ).loc main_arg12))
          (m ((c : Thread nD τ).loc main_arg13)) (m ((c : Thread nD τ).loc main_arg14)) (m ((c : Thread nD τ).loc main_arg15)) (m ((c : Thread nD τ).loc main_arg16)) p n j := by
  unfold result
  exact Cert.Target.netArr_ix3 _ _ _ _ _ _ _ _ _ _ _ _ _ _ p n j

/-- The printed index maps, decided over the four grid points: the two batched inputs and the output move along the batch
    axis with the point; every other block index is zero. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_14.index t (0 : Fin 3) = t.val ∧ win0_14.index t (1 : Fin 3) = 0 ∧ win0_14.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0) :=
  (by decide +kernel : ∀ t : Fin grid0.N, _)

/-- A grid point is one of the four batch entries. -/
theorem t_lt (t : Fin cfg0.N) : t.val < 4 := by
  have h := t.isLt
  have hN : cfg0.N = 4 := N_0
  omega

/-- The neighbour features' block at point `t` is batch entry `t` of the array. -/
theorem iblk0_apply (c : Dev nD) (t : Fin cfg0.N) (n : Fin 8192) (k : Fin 128) :
    (iblk m c 0 t : Vec Ideal S1x8192x128 .f32) (ix3 (0 : Fin 1) n k)
      = (V m c main_v23 : S4x8192x128.Idx → EReal) (ix3 (⟨t.val, t_lt t⟩ : Fin 4) n k) := by
  obtain ⟨⟨e0, e1, e2⟩, -⟩ := idx_facts t
  unfold iblk
  rw [View.read_apply]
  refine congrArg (V m c main_v23 : S4x8192x128.Idx → EReal) ?_
  funext a
  apply Fin.ext
  match a with
  | ⟨0, _⟩ => show win0_0.index t (0 : Fin 3) * 1 + 1 * 0 = t.val; omega
  | ⟨1, _⟩ => show win0_0.index t (1 : Fin 3) * 8192 + 1 * n.val = n.val; omega
  | ⟨2, _⟩ => show win0_0.index t (2 : Fin 3) * 128 + 1 * k.val = k.val; omega

/-- The query features' block at point `t` is batch entry `t` of the array. -/
theorem iblk1_apply (c : Dev nD) (t : Fin cfg0.N) (n : Fin 8192) (k : Fin 128) :
    (iblk m c 1 t : Vec Ideal S1x8192x128 .f32) (ix3 (0 : Fin 1) n k)
      = (V m c main_arg0 : S4x8192x128.Idx → EReal) (ix3 (⟨t.val, t_lt t⟩ : Fin 4) n k) := by
  obtain ⟨-, ⟨e0, e1, e2⟩, -⟩ := idx_facts t
  unfold iblk
  rw [View.read_apply]
  refine congrArg (V m c main_arg0 : S4x8192x128.Idx → EReal) ?_
  funext a
  apply Fin.ext
  match a with
  | ⟨0, _⟩ => show win0_1.index t (0 : Fin 3) * 1 + 1 * 0 = t.val; omega
  | ⟨1, _⟩ => show win0_1.index t (1 : Fin 3) * 8192 + 1 * n.val = n.val; omega
  | ⟨2, _⟩ => show win0_1.index t (2 : Fin 3) * 128 + 1 * k.val = k.val; omega

/-- Weight window 2 stages its whole matrix at every point. -/
theorem iblk2_apply (c : Dev nD) (t : Fin cfg0.N) (k : Fin 128) (j : Fin 128) :
    (iblk m c 2 t : Vec Ideal S128x128 .f32) (ix2 k j) = (V m c main_arg5 : S128x128.Idx → EReal) (ix2 k j) := by
  obtain ⟨-, -, -, ⟨e0, e1⟩, -, -, -, -, -, -, -, -, -, -, -⟩ := idx_facts t
  unfold iblk
  rw [View.read_apply]
  refine congrArg (V m c main_arg5 : S128x128.Idx → EReal) ?_
  funext a
  apply Fin.ext
  match a with
  | ⟨0, _⟩ => show win0_2.index t (0 : Fin 2) * 128 + 1 * k.val = k.val; omega
  | ⟨1, _⟩ => show win0_2.index t (1 : Fin 2) * 128 + 1 * j.val = j.val; omega

/-- Weight window 6 stages its whole matrix at every point. -/
theorem iblk6_apply (c : Dev nD) (t : Fin cfg0.N) (k : Fin 128) (j : Fin 128) :
    (iblk m c 6 t : Vec Ideal S128x128 .f32) (ix2 k j) = (V m c main_arg9 : S128x128.Idx → EReal) (ix2 k j) := by
  obtain ⟨-, -, -, -, -, -, -, ⟨e0, e1⟩, -, -, -, -, -, -, -⟩ := idx_facts t
  unfold iblk
  rw [View.read_apply]
  refine congrArg (V m c main_arg9 : S128x128.Idx → EReal) ?_
  funext a
  apply Fin.ext
  match a with
  | ⟨0, _⟩ => show win0_6.index t (0 : Fin 2) * 128 + 1 * k.val = k.val; omega
  | ⟨1, _⟩ => show win0_6.index t (1 : Fin 2) * 128 + 1 * j.val = j.val; omega

/-- Weight window 10 stages its whole matrix at every point. -/
theorem iblk10_apply (c : Dev nD) (t : Fin cfg0.N) (k : Fin 128) (j : Fin 128) :
    (iblk m c 10 t : Vec Ideal S128x128 .f32) (ix2 k j) = (V m c main_arg13 : S128x128.Idx → EReal) (ix2 k j) := by
  obtain ⟨-, -, -, -, -, -, -, -, -, -, -, ⟨e0, e1⟩, -, -, -⟩ := idx_facts t
  unfold iblk
  rw [View.read_apply]
  refine congrArg (V m c main_arg13 : S128x128.Idx → EReal) ?_
  funext a
  apply Fin.ext
  match a with
  | ⟨0, _⟩ => show win0_10.index t (0 : Fin 2) * 128 + 1 * k.val = k.val; omega
  | ⟨1, _⟩ => show win0_10.index t (1 : Fin 2) * 128 + 1 * j.val = j.val; omega

/-- Window 3 stages its one row at every point. -/
theorem iblk3_apply (c : Dev nD) (t : Fin cfg0.N) (j : Fin 128) :
    (iblk m c 3 t : Vec Ideal S1x128 .f32) (ix2 (0 : Fin 1) j) = (V m c main_v24 : S1x128.Idx → EReal) (ix2 (0 : Fin 1) j) := by
  obtain ⟨-, -, -, -, ⟨e0, e1⟩, -, -, -, -, -, -, -, -, -, -⟩ := idx_facts t
  unfold iblk
  rw [View.read_apply]
  refine congrArg (V m c main_v24 : S1x128.Idx → EReal) ?_
  funext a
  apply Fin.ext
  match a with
  | ⟨0, _⟩ => show win0_3.index t (0 : Fin 2) * 1 + 1 * 0 = 0; omega
  | ⟨1, _⟩ => show win0_3.index t (1 : Fin 2) * 128 + 1 * j.val = j.val; omega

/-- Window 4 stages its one row at every point. -/
theorem iblk4_apply (c : Dev nD) (t : Fin cfg0.N) (j : Fin 128) :
    (iblk m c 4 t : Vec Ideal S1x128 .f32) (ix2 (0 : Fin 1) j) = (V m c main_v25 : S1x128.Idx → EReal) (ix2 (0 : Fin 1) j) := by
  obtain ⟨-, -, -, -, -, ⟨e0, e1⟩, -, -, -, -, -, -, -, -, -⟩ := idx_facts t
  unfold iblk
  rw [View.read_apply]
  refine congrArg (V m c main_v25 : S1x128.Idx → EReal) ?_
  funext a
  apply Fin.ext
  match a with
  | ⟨0, _⟩ => show win0_4.index t (0 : Fin 2) * 1 + 1 * 0 = 0; omega
  | ⟨1, _⟩ => show win0_4.index t (1 : Fin 2) * 128 + 1 * j.val = j.val; omega

/-- Window 5 stages its one row at every point. -/
theorem iblk5_apply (c : Dev nD) (t : Fin cfg0.N) (j : Fin 128) :
    (iblk m c 5 t : Vec Ideal S1x128 .f32) (ix2 (0 : Fin 1) j) = (V m c main_v26 : S1x128.Idx → EReal) (ix2 (0 : Fin 1) j) := by
  obtain ⟨-, -, -, -, -, -, ⟨e0, e1⟩, -, -, -, -, -, -, -, -⟩ := idx_facts t
  unfold iblk
  rw [View.read_apply]
  refine congrArg (V m c main_v26 : S1x128.Idx → EReal) ?_
  funext a
  apply Fin.ext
  match a with
  | ⟨0, _⟩ => show win0_5.index t (0 : Fin 2) * 1 + 1 * 0 = 0; omega
  | ⟨1, _⟩ => show win0_5.index t (1 : Fin 2) * 128 + 1 * j.val = j.val; omega

/-- Window 7 stages its one row at every point. -/
theorem iblk7_apply (c : Dev nD) (t : Fin cfg0.N) (j : Fin 128) :
    (iblk m c 7 t : Vec Ideal S1x128 .f32) (ix2 (0 : Fin 1) j) = (V m c main_v27 : S1x128.Idx → EReal) (ix2 (0 : Fin 1) j) := by
  obtain ⟨-, -, -, -, -, -, -, -, ⟨e0, e1⟩, -, -, -, -, -, -⟩ := idx_facts t
  unfold iblk
  rw [View.read_apply]
  refine congrArg (V m c main_v27 : S1x128.Idx → EReal) ?_
  funext a
  apply Fin.ext
  match a with
  | ⟨0, _⟩ => show win0_7.index t (0 : Fin 2) * 1 + 1 * 0 = 0; omega
  | ⟨1, _⟩ => show win0_7.index t (1 : Fin 2) * 128 + 1 * j.val = j.val; omega

/-- Window 8 stages its one row at every point. -/
theorem iblk8_apply (c : Dev nD) (t : Fin cfg0.N) (j : Fin 128) :
    (iblk m c 8 t : Vec Ideal S1x128 .f32) (ix2 (0 : Fin 1) j) = (V m c main_v28 : S1x128.Idx → EReal) (ix2 (0 : Fin 1) j) := by
  obtain ⟨-, -, -, -, -, -, -, -, -, ⟨e0, e1⟩, -, -, -, -, -⟩ := idx_facts t
  unfold iblk
  rw [View.read_apply]
  refine congrArg (V m c main_v28 : S1x128.Idx → EReal) ?_
  funext a
  apply Fin.ext
  match a with
  | ⟨0, _⟩ => show win0_8.index t (0 : Fin 2) * 1 + 1 * 0 = 0; omega
  | ⟨1, _⟩ => show win0_8.index t (1 : Fin 2) * 128 + 1 * j.val = j.val; omega

/-- Window 9 stages its one row at every point. -/
theorem iblk9_apply (c : Dev nD) (t : Fin cfg0.N) (j : Fin 128) :
    (iblk m c 9 t : Vec Ideal S1x128 .f32) (ix2 (0 : Fin 1) j) = (V m c main_v29 : S1x128.Idx → EReal) (ix2 (0 : Fin 1) j) := by
  obtain ⟨-, -, -, -, -, -, -, -, -, -, ⟨e0, e1⟩, -, -, -, -⟩ := idx_facts t
  unfold iblk
  rw [View.read_apply]
  refine congrArg (V m c main_v29 : S1x128.Idx → EReal) ?_
  funext a
  apply Fin.ext
  match a with
  | ⟨0, _⟩ => show win0_9.index t (0 : Fin 2) * 1 + 1 * 0 = 0; omega
  | ⟨1, _⟩ => show win0_9.index t (1 : Fin 2) * 128 + 1 * j.val = j.val; omega

/-- Window 11 stages its one row at every point. -/
theorem iblk11_apply (c : Dev nD) (t : Fin cfg0.N) (j : Fin 128) :
    (iblk m c 11 t : Vec Ideal S1x128 .f32) (ix2 (0 : Fin 1) j) = (V m c main_v30 : S1x128.Idx → EReal) (ix2 (0 : Fin 1) j) := by
  obtain ⟨-, -, -, -, -, -, -, -, -, -, -, -, ⟨e0, e1⟩, -, -⟩ := idx_facts t
  unfold iblk
  rw [View.read_apply]
  refine congrArg (V m c main_v30 : S1x128.Idx → EReal) ?_
  funext a
  apply Fin.ext
  match a with
  | ⟨0, _⟩ => show win0_11.index t (0 : Fin 2) * 1 + 1 * 0 = 0; omega
  | ⟨1, _⟩ => show win0_11.index t (1 : Fin 2) * 128 + 1 * j.val = j.val; omega

/-- Window 12 stages its one row at every point. -/
theorem iblk12_apply (c : Dev nD) (t : Fin cfg0.N) (j : Fin 128) :
    (iblk m c 12 t : Vec Ideal S1x128 .f32) (ix2 (0 : Fin 1) j) = (V m c main_v31 : S1x128.Idx → EReal) (ix2 (0 : Fin 1) j) := by
  obtain ⟨-, -, -, -, -, -, -, -, -, -, -, -, -, ⟨e0, e1⟩, -⟩ := idx_facts t
  unfold iblk
  rw [View.read_apply]
  refine congrArg (V m c main_v31 : S1x128.Idx → EReal) ?_
  funext a
  apply Fin.ext
  match a with
  | ⟨0, _⟩ => show win0_12.index t (0 : Fin 2) * 1 + 1 * 0 = 0; omega
  | ⟨1, _⟩ => show win0_12.index t (1 : Fin 2) * 128 + 1 * j.val = j.val; omega

/-- Window 13 stages its one row at every point. -/
theorem iblk13_apply (c : Dev nD) (t : Fin cfg0.N) (j : Fin 128) :
    (iblk m c 13 t : Vec Ideal S1x128 .f32) (ix2 (0 : Fin 1) j) = (V m c main_v32 : S1x128.Idx → EReal) (ix2 (0 : Fin 1) j) := by
  obtain ⟨-, -, -, -, -, -, -, -, -, -, -, -, -, -, ⟨e0, e1⟩⟩ := idx_facts t
  unfold iblk
  rw [View.read_apply]
  refine congrArg (V m c main_v32 : S1x128.Idx → EReal) ?_
  funext a
  apply Fin.ext
  match a with
  | ⟨0, _⟩ => show win0_13.index t (0 : Fin 2) * 1 + 1 * 0 = 0; omega
  | ⟨1, _⟩ => show win0_13.index t (1 : Fin 2) * 128 + 1 * j.val = j.val; omega

/-- WHAT POINT `t` WRITES BACK is block `t` of `result`. -/
theorem flushed_eq (c : Dev nD) (t : Fin cfg0.N) :
    (dats m 0 c).flushed 14 t = ((cfg0.win 14).blk t).view.read (Elt Ideal) (result m c) := by
  rw [Cert.KernelIdeal.Value.flushed14]
  obtain ⟨-, -, ⟨e0, e1, e2⟩, -⟩ := idx_facts t
  funext y
  obtain ⟨z, n, j, rfl⟩ : ∃ (z : Fin 1) (n : Fin 8192) (j : Fin 128), y = ix3 z n j := ⟨y 0, y 1, y 2, eq_ix3 y⟩
  obtain rfl : z = 0 := Subsingleton.elim _ _
  have hemb : ((cfg0.win 14).blk t).view.emb (ix3 (0 : Fin 1) n j) = (ix3 (⟨t.val, t_lt t⟩ : Fin 4) n j : S4x8192x128.Idx) := by
    funext a
    apply Fin.ext
    match a with
    | ⟨0, _⟩ => show win0_14.index t (0 : Fin 3) * 1 + 1 * 0 = t.val; omega
    | ⟨1, _⟩ => show win0_14.index t (1 : Fin 3) * 8192 + 1 * n.val = n.val; omega
    | ⟨2, _⟩ => show win0_14.index t (2 : Fin 3) * 128 + 1 * j.val = j.val; omega
  rw [View.read_apply, hemb, result_ix3]
  show out0_14 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (ix3 (0 : Fin 1) n j) = _
  refine (Cert.KernelIdeal.KerBlock.out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) n j).trans ?_
  have h0 : (fun (n : Fin 8192) (k : Fin 128) => (iblk m c 0 t : Vec Ideal S1x8192x128 .f32) (ix3 (0 : Fin 1) n k))
      = fun n k => Cert.ReferenceIdeal.RefTerm.latent (F := Ideal) (m ((c : Thread nD τ).loc main_arg1)) (m ((c : Thread nD τ).loc main_arg2)) (m ((c : Thread nD τ).loc main_arg3)) (m ((c : Thread nD τ).loc main_arg4)) (ix3 (⟨t.val, t_lt t⟩ : Fin 4) n k) := by
    funext n k; rw [iblk0_apply, Cert.KernelIdeal.HostPre.V_lat]
  have h1 : (fun (n : Fin 8192) (k : Fin 128) => (iblk m c 1 t : Vec Ideal S1x8192x128 .f32) (ix3 (0 : Fin 1) n k))
      = fun n k => ((m ((c : Thread nD τ).loc main_arg0)) : S4x8192x128.Idx → EReal) (ix3 (⟨t.val, t_lt t⟩ : Fin 4) n k) := by
    funext n k; rw [iblk1_apply, V_main_arg0]
  have h2 : (fun (k : Fin 128) (j : Fin 128) => (iblk m c 2 t : Vec Ideal S128x128 .f32) (ix2 k j))
      = fun k j => ((m ((c : Thread nD τ).loc main_arg5)) : S128x128.Idx → EReal) (ix2 k j) := by
    funext k j; rw [iblk2_apply, V_main_arg5]
  have h3 : (fun (j : Fin 128) => (iblk m c 3 t : Vec Ideal S1x128 .f32) (ix2 (0 : Fin 1) j))
      = fun j => ((m ((c : Thread nD τ).loc main_arg6)) : S128.Idx → EReal) (ix1 j) := by
    funext j; rw [iblk3_apply, Cert.KernelIdeal.HostPre.V_row24]
  have h4 : (fun (j : Fin 128) => (iblk m c 4 t : Vec Ideal S1x128 .f32) (ix2 (0 : Fin 1) j))
      = fun j => ((m ((c : Thread nD τ).loc main_arg7)) : S128.Idx → EReal) (ix1 j) := by
    funext j; rw [iblk4_apply, Cert.KernelIdeal.HostPre.V_row25]
  have h5 : (fun (j : Fin 128) => (iblk m c 5 t : Vec Ideal S1x128 .f32) (ix2 (0 : Fin 1) j))
      = fun j => ((m ((c : Thread nD τ).loc main_arg8)) : S128.Idx → EReal) (ix1 j) := by
    funext j; rw [iblk5_apply, Cert.KernelIdeal.HostPre.V_row26]
  have h6 : (fun (k : Fin 128) (j : Fin 128) => (iblk m c 6 t : Vec Ideal S128x128 .f32) (ix2 k j))
      = fun k j => ((m ((c : Thread nD τ).loc main_arg9)) : S128x128.Idx → EReal) (ix2 k j) := by
    funext k j; rw [iblk6_apply, V_main_arg9]
  have h7 : (fun (j : Fin 128) => (iblk m c 7 t : Vec Ideal S1x128 .f32) (ix2 (0 : Fin 1) j))
      = fun j => ((m ((c : Thread nD τ).loc main_arg10)) : S128.Idx → EReal) (ix1 j) := by
    funext j; rw [iblk7_apply, Cert.KernelIdeal.HostPre.V_row27]
  have h8 : (fun (j : Fin 128) => (iblk m c 8 t : Vec Ideal S1x128 .f32) (ix2 (0 : Fin 1) j))
      = fun j => ((m ((c : Thread nD τ).loc main_arg11)) : S128.Idx → EReal) (ix1 j) := by
    funext j; rw [iblk8_apply, Cert.KernelIdeal.HostPre.V_row28]
  have h9 : (fun (j : Fin 128) => (iblk m c 9 t : Vec Ideal S1x128 .f32) (ix2 (0 : Fin 1) j))
      = fun j => ((m ((c : Thread nD τ).loc main_arg12)) : S128.Idx → EReal) (ix1 j) := by
    funext j; rw [iblk9_apply, Cert.KernelIdeal.HostPre.V_row29]
  have h10 : (fun (k : Fin 128) (j : Fin 128) => (iblk m c 10 t : Vec Ideal S128x128 .f32) (ix2 k j))
      = fun k j => ((m ((c : Thread nD τ).loc main_arg13)) : S128x128.Idx → EReal) (ix2 k j) := by
    funext k j; rw [iblk10_apply, V_main_arg13]
  have h11 : (fun (j : Fin 128) => (iblk m c 11 t : Vec Ideal S1x128 .f32) (ix2 (0 : Fin 1) j))
      = fun j => ((m ((c : Thread nD τ).loc main_arg14)) : S128.Idx → EReal) (ix1 j) := by
    funext j; rw [iblk11_apply, Cert.KernelIdeal.HostPre.V_row30]
  have h12 : (fun (j : Fin 128) => (iblk m c 12 t : Vec Ideal S1x128 .f32) (ix2 (0 : Fin 1) j))
      = fun j => ((m ((c : Thread nD τ).loc main_arg15)) : S128.Idx → EReal) (ix1 j) := by
    funext j; rw [iblk12_apply, Cert.KernelIdeal.HostPre.V_row31]
  have h13 : (fun (j : Fin 128) => (iblk m c 13 t : Vec Ideal S1x128 .f32) (ix2 (0 : Fin 1) j))
      = fun j => ((m ((c : Thread nD τ).loc main_arg16)) : S128.Idx → EReal) (ix1 j) := by
    funext j; rw [iblk13_apply, Cert.KernelIdeal.HostPre.V_row32]
  rw [h0, h1, h2, h3, h4, h5, h6, h7, h8, h9, h10, h11, h12, h13]
  unfold Cert.Target.netAt
  rfl

/-- An index of the array is in point `t`'s block iff each coordinate is in the block's range on its axis. -/
theorem mem_blk (t : Fin cfg0.N) (i : S4x8192x128.Idx) :
    i ∈ ((cfg0.win 14).blk t).view.set ↔ ∀ a : Fin 3, win0_14.index t a * S1x8192x128.size a ≤ (i a).val ∧ (i a).val < win0_14.index t a * S1x8192x128.size a + S1x8192x128.size a := by
  show i ∈ ((View.whole main_v33).slice (win0_14.rect t)).set ↔ _
  rw [View.set_slice_whole, Rect.mem_set_unit]
  exact Iff.rfl

/-- Every index of the result array is in the block of the point that is its batch entry. -/
theorem cover (i : S4x8192x128.Idx) :
    ∃ t : Fin cfg0.N, (cfg0.win 14).flush t = true ∧ i ∈ ((cfg0.win 14).blk t).view.set := by
  have h0 : (i 0).val < 4 := (i 0).isLt
  have h1 : (i 1).val < 8192 := (i 1).isLt
  have h2 : (i 2).val < 128 := (i 2).isLt
  have hN : cfg0.N = 4 := N_0
  refine ⟨⟨(i 0).val, by omega⟩, flush0_14 _, ?_⟩
  rw [mem_blk]
  obtain ⟨-, -, ⟨e0, e1, e2⟩, -⟩ := idx_facts ⟨(i 0).val, by omega⟩
  intro a
  match a with
  | ⟨0, _⟩ => show win0_14.index _ (0 : Fin 3) * 1 ≤ (i 0).val ∧ (i 0).val < win0_14.index _ (0 : Fin 3) * 1 + 1; rw [e0]; show (i 0).val * 1 ≤ (i 0).val ∧ (i 0).val < (i 0).val * 1 + 1; omega
  | ⟨1, _⟩ => show win0_14.index _ (1 : Fin 3) * 8192 ≤ (i 1).val ∧ (i 1).val < win0_14.index _ (1 : Fin 3) * 8192 + 8192; rw [e1]; omega
  | ⟨2, _⟩ => show win0_14.index _ (2 : Fin 3) * 128 ≤ (i 2).val ∧ (i 2).val < win0_14.index _ (2 : Fin 3) * 128 + 128; rw [e2]; omega

/-- THE ARRAY after the run is `result`. -/
theorem final (c : Dev nD) : (dats m 0 c).arrAt 14 cfg0.N = result m c :=
  (dats m 0 c).arrAt_eq_of_cover 14 (result m c) (fun t _ => flushed_eq m c t) cover

/-- The frame run re-posted: the result array at `result` of the arguments, the arguments unchanged. -/
theorem run : θ_run defs (onTc (τ := τ) (main (F := Ideal))) ⟨m, fun _ => 0, ρ⟩ fun r => ∀ c : Dev nD,
      r.2.mem ((c : Thread nD τ).loc main_v33) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨(h c).1.trans (final m c), (h c).2⟩)
    (Cert.KernelIdeal.Value.run_blocks m ρ)

end Cert.KernelIdeal.KerValue

end
-- ==== Proof.RefRunOps.lean ====
/- The reference program's host operations in program order, each call's operations listed at the call over
   the call's buffer record, cut into six lists: opsL (31), opsB1a (51), opsB1b (6), opsB2 (57), opsB3a (41), opsB3b (17).
   A table of the printed program's text: it states no theorem. -/
import proofs.«408550_j77214922047594_4_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 31 of 203. -/
abbrev opsL : List (HloOp τ sig (Elt F)) :=
  [ StableHlo.nullary main_c (constantI S_ 32 0#32),
    StableHlo.unary main_c main_v0 (broadcastInDim S4x8192x16 ![] bcast_S_S4x8192x16 : (⟨S_, .i32⟩ : BufTy).Contents (Elt F) → (⟨S4x8192x16, .i32⟩ : BufTy).Contents (Elt F)),
    StableHlo.binary main_arg4 main_v0 main_v1 (cmpi .slt : (⟨S4x8192x16, .i32⟩ : BufTy).Contents (Elt F) → (⟨S4x8192x16, .i32⟩ : BufTy).Contents (Elt F) → (⟨S4x8192x16, .i1⟩ : BufTy).Contents (Elt F)),
    StableHlo.nullary main_c_0 (constantI S_ 32 32768#32),
    StableHlo.unary main_c_0 main_v2 (broadcastInDim S4x8192x16 ![] bcast_S_S4x8192x16 : (⟨S_, .i32⟩ : BufTy).Contents (Elt F) → (⟨S4x8192x16, .i32⟩ : BufTy).Contents (Elt F)),
    StableHlo.binary main_arg4 main_v2 main_v3 (addi : (⟨S4x8192x16, .i32⟩ : BufTy).Contents (Elt F) → (⟨S4x8192x16, .i32⟩ : BufTy).Contents (Elt F) → (⟨S4x8192x16, .i32⟩ : BufTy).Contents (Elt F)),
    StableHlo.ternary main_v1 main_v3 main_arg4 main_v4 (select : (⟨S4x8192x16, .i1⟩ : BufTy).Contents (Elt F) → (⟨S4x8192x16, .i32⟩ : BufTy).Contents (Elt F) → (⟨S4x8192x16, .i32⟩ : BufTy).Contents (Elt F) → (⟨S4x8192x16, .i32⟩ : BufTy).Contents (Elt F)),
    StableHlo.unary main_v4 main_v5 (broadcastInDim S4x8192x16x1 ![0, 1, 2] bcast_S4x8192x16_S4x8192x16x1_0_1_2 : (⟨S4x8192x16, .i32⟩ : BufTy).Contents (Elt F) → (⟨S4x8192x16x1, .i32⟩ : BufTy).Contents (Elt F)),
    StableHlo.binary main_arg1 main_v5 main_v6 ((fun x i => Host.gather gather_S4x32768x128_S4x8192x16x1_S4x8192x16x128_3_1_0_0_1_3_11128 x i) : (⟨S4x32768x128, .f32⟩ : BufTy).Contents (Elt F) → (⟨S4x8192x16x1, .i32⟩ : BufTy).Contents (Elt F) → (⟨S4x8192x16x128, .f32⟩ : BufTy).Contents (Elt F)),
    StableHlo.unary main_arg2 main_v7 (broadcastInDim S4x8192x1x3 ![0, 1, 3] bcast_S4x8192x3_S4x8192x1x3_0_1_3 : (⟨S4x8192x3, .f32⟩ : BufTy).Contents (Elt F) → (⟨S4x8192x1x3, .f32⟩ : BufTy).Contents (Elt F)),
    StableHlo.unary main_v7 main_v8 (broadcastInDim S4x8192x16x3 ![0, 1, 2, 3] bcast_S4x8192x1x3_S4x8192x16x3_0_1_2_3 : (⟨S4x8192x1x3, .f32⟩ : BufTy).Contents (Elt F) → (⟨S4x8192x16x3, .f32⟩ : BufTy).Contents (Elt F)),
    StableHlo.binary main_arg3 main_v8 main_v9 (subf : (⟨S4x8192x16x3, .f32⟩ : BufTy).Contents (Elt F) → (⟨S4x8192x16x3, .f32⟩ : BufTy).Contents (Elt F) → (⟨S4x8192x16x3, .f32⟩ : BufTy).Contents (Elt F)),
    StableHlo.binary main_v9 main_v9 main_v10 (mulf : (⟨S4x8192x16x3, .f32⟩ : BufTy).Contents (Elt F) → (⟨S4x8192x16x3, .f32⟩ : BufTy).Contents (Elt F) → (⟨S4x8192x16x3, .f32⟩ : BufTy).Contents (Elt F)),
    StableHlo.nullary main_cst (constant S_ .f32 0x00000000#32),
    StableHlo.binary main_v10 main_cst main_v11 ((fun x v => Host.reduceAdd x v reducesTo_S4x8192x16x3_S4x8192x16_d3 h_S_) : (⟨S4x8192x16x3, .f32⟩ : BufTy).Contents (Elt F) → (⟨S_, .f32⟩ : BufTy).Contents (Elt F) → (⟨S4x8192x16, .f32⟩ : BufTy).Contents (Elt F)),
    StableHlo.nullary main_cst_1 (constant S_ .f32 0x322BCC77#32),
    StableHlo.unary main_cst_1 main_v12 (broadcastInDim S4x8192x16 ![] bcast_S_S4x8192x16 : (⟨S_, .f32⟩ : BufTy).Contents (Elt F) → (⟨S4x8192x16, .f32⟩ : BufTy).Contents (Elt F)),
    StableHlo.binary main_v11 main_v12 main_v13 (addf : (⟨S4x8192x16, .f32⟩ : BufTy).Contents (Elt F) → (⟨S4x8192x16, .f32⟩ : BufTy).Contents (Elt F) → (⟨S4x8192x16, .f32⟩ : BufTy).Contents (Elt F)),
    StableHlo.nullary main_cst_2 (constant S_ .f32 0x3F800000#32),
    StableHlo.unary main_cst_2 main_v14 (broadcastInDim S4x8192x16 ![] bcast_S_S4x8192x16 : (⟨S_, .f32⟩ : BufTy).Contents (Elt F) → (⟨S4x8192x16, .f32⟩ : BufTy).Contents (Elt F)),
    StableHlo.binary main_v14 main_v13 main_v15 (Host.divf : (⟨S4x8192x16, .f32⟩ : BufTy).Contents (Elt F) → (⟨S4x8192x16, .f32⟩ : BufTy).Contents (Elt F) → (⟨S4x8192x16, .f32⟩ : BufTy).Contents (Elt F)),
    StableHlo.nullary main_cst_3 (constant S_ .f32 0x00000000#32),
    StableHlo.binary main_v15 main_cst_3 main_v16 ((fun x v => Host.reduceAdd x v reducesTo_S4x8192x16_S4x8192_d2 h_S_) : (⟨S4x8192x16, .f32⟩ : BufTy).Contents (Elt F) → (⟨S_, .f32⟩ : BufTy).Contents (Elt F) → (⟨S4x8192, .f32⟩ : BufTy).Contents (Elt F)),
    StableHlo.unary main_v16 main_v17 (broadcastInDim S4x8192x1 ![0, 1] bcast_S4x8192_S4x8192x1_0_1 : (⟨S4x8192, .f32⟩ : BufTy).Contents (Elt F) → (⟨S4x8192x1, .f32⟩ : BufTy).Contents (Elt F)),
    StableHlo.unary main_v17 main_v18 (broadcastInDim S4x8192x16 ![0, 1, 2] bcast_S4x8192x1_S4x8192x16_0_1_2 : (⟨S4x8192x1, .f32⟩ : BufTy).Contents (Elt F) → (⟨S4x8192x16, .f32⟩ : BufTy).Contents (Elt F)),
    StableHlo.binary main_v15 main_v18 main_v19 (Host.divf : (⟨S4x8192x16, .f32⟩ : BufTy).Contents (Elt F) → (⟨S4x8192x16, .f32⟩ : BufTy).Contents (Elt F) → (⟨S4x8192x16, .f32⟩ : BufTy).Contents (Elt F)),
    StableHlo.unary main_v19 main_v20 (broadcastInDim S4x8192x16x1 ![0, 1, 2] bcast_S4x8192x16_S4x8192x16x1_0_1_2 : (⟨S4x8192x16, .f32⟩ : BufTy).Contents (Elt F) → (⟨S4x8192x16x1, .f32⟩ : BufTy).Contents (Elt F)),
    StableHlo.unary main_v20 main_v21 (broadcastInDim S4x8192x16x128 ![0, 1, 2, 3] bcast_S4x8192x16x1_S4x8192x16x128_0_1_2_3 : (⟨S4x8192x16x1, .f32⟩ : BufTy).Contents (Elt F) → (⟨S4x8192x16x128, .f32⟩ : BufTy).Contents (Elt F)),
    StableHlo.binary main_v6 main_v21 main_v22 (mulf : (⟨S4x8192x16x128, .f32⟩ : BufTy).Contents (Elt F) → (⟨S4x8192x16x128, .f32⟩ : BufTy).Contents (Elt F) → (⟨S4x8192x16x128, .f32⟩ : BufTy).Contents (Elt F)),
    StableHlo.nullary main_cst_4 (constant S_ .f32 0x00000000#32),
    StableHlo.binary main_v22 main_cst_4 main_v23 ((fun x v => Host.reduceAdd x v reducesTo_S4x8192x16x128_S4x8192x128_d2 h_S_) : (⟨S4x8192x16x128, .f32⟩ : BufTy).Contents (Elt F) → (⟨S_, .f32⟩ : BufTy).Contents (Elt F) → (⟨S4x8192x128, .f32⟩ : BufTy).Contents (Elt F)) ]

/-- Operations 32 … 82 of 203. -/
abbrev opsB1a : List (HloOp τ sig (Elt F)) :=
  [ StableHlo.binary main_v23 main_arg5 main_v24 ((fun l r => Host.dotGeneral dot_S4x8192x128_S128x128_S4x8192x128_2_0_01_1_n_n none l r) : (⟨S4x8192x128, .f32⟩ : BufTy).Contents (Elt F) → (⟨S128x128, .f32⟩ : BufTy).Contents (Elt F) → (⟨S4x8192x128, .f32⟩ : BufTy).Contents (Elt F)),
    StableHlo.unary main_arg6 main_v25 (broadcastInDim S1x1x128 ![2] bcast_S128_S1x1x128_2 : (⟨S128, .f32⟩ : BufTy).Contents (Elt F) → (⟨S1x1x128, .f32⟩ : BufTy).Contents (Elt F)),
    StableHlo.unary main_v25 main_v26 (broadcastInDim S4x8192x128 ![0, 1, 2] bcast_S1x1x128_S4x8192x128_0_1_2 : (⟨S1x1x128, .f32⟩ : BufTy).Contents (Elt F) → (⟨S4x8192x128, .f32⟩ : BufTy).Contents (Elt F)),
    StableHlo.binary main_v24 main_v26 main_v27 (addf : (⟨S4x8192x128, .f32⟩ : BufTy).Contents (Elt F) → (⟨S4x8192x128, .f32⟩ : BufTy).Contents (Elt F) → (⟨S4x8192x128, .f32⟩ : BufTy).Contents (Elt F)),
    StableHlo.reshape main_v27 main_v28 rfl shapeCasts_S4x8192x128_S4x8192x8x16,
    StableHlo.nullary main_cst_5 (constant S_ .f32 0x00000000#32),
    StableHlo.binary main_v28 main_cst_5 main_v29 ((fun x v => Host.reduceAdd x v reducesTo_S4x8192x8x16_S4x8_d1_3 h_S_) : (⟨S4x8192x8x16, .f32⟩ : BufTy).Contents (Elt F) → (⟨S_, .f32⟩ : BufTy).Contents (Elt F) → (⟨S4x8, .f32⟩ : BufTy).Contents (Elt F)),
    StableHlo.unary main_v29 main_v30 (broadcastInDim S4x1x8x1 ![0, 2] bcast_S4x8_S4x1x8x1_0_2 : (⟨S4x8, .f32⟩ : BufTy).Contents (Elt F) → (⟨S4x1x8x1, .f32⟩ : BufTy).Contents (Elt F)),
    StableHlo.nullary main_cst_6 (constant S_ .f32 0x48000000#32),
    StableHlo.unary main_cst_6 main_v31 (broadcastInDim S4x1x8x1 ![] bcast_S_S4x1x8x1 : (⟨S_, .f32⟩ : BufTy).Contents (Elt F) → (⟨S4x1x8x1, .f32⟩ : BufTy).Contents (Elt F)),
    StableHlo.binary main_v30 main_v31 main_v32 (Host.divf : (⟨S4x1x8x1, .f32⟩ : BufTy).Contents (Elt F) → (⟨S4x1x8x1, .f32⟩ : BufTy).Contents (Elt F) → (⟨S4x1x8x1, .f32⟩ : BufTy).Contents (Elt F)),
    StableHlo.nullary main_c_7 (constantI S_ 32 0#32),
    StableHlo.TRef.nullary main_call0.cst (constant S_ .f32 0x00000000#32),
    StableHlo.TRef.binary (.of main_v28) main_call0.cst main_call0.v0 (fun x v => Host.reduceAdd x v reducesTo_S4x8192x8x16_S4x8_d1_3 h_S_),
    StableHlo.TRef.unary main_call0.v0 main_call0.v1 (broadcastInDim S4x1x8x1 ![0, 2] bcast_S4x8_S4x1x8x1_0_2),
    StableHlo.TRef.nullary main_call0.cst_0 (constant S_ .f32 0x48000000#32),
    StableHlo.TRef.unary main_call0.cst_0 main_call0.v2 (broadcastInDim S4x1x8x1 ![] bcast_S_S4x1x8x1),
    StableHlo.TRef.binary main_call0.v1 main_call0.v2 main_call0.v3 Host.divf,
    StableHlo.TRef.unary main_call0.v3 main_call0.v4 (broadcastInDim S4x8192x8x16 ![0, 1, 2, 3] bcast_S4x1x8x1_S4x8192x8x16_0_1_2_3),
    StableHlo.TRef.binary (.of main_v28) main_call0.v4 main_call0.v5 subf,
    StableHlo.TRef.binary main_call0.v5 main_call0.v5 main_call0.v6 mulf,
    StableHlo.TRef.unary (.of main_c_7) main_call0.v7 (sitofp .f32),
    StableHlo.TRef.nullary main_call0.cst_1 (constant S_ .f32 0x48000000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S4x8192x8x16_S4x8_d1_3 h_S_),
    StableHlo.TRef.unary main_call0.v9 main_call0.v10 (broadcastInDim S4x1x8x1 ![0, 2] bcast_S4x8_S4x1x8x1_0_2),
    StableHlo.TRef.unary main_call0.v8 main_call0.v11 (broadcastInDim S4x1x8x1 ![] bcast_S_S4x1x8x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S4x1x8x1 ![] bcast_S_S4x1x8x1),
    StableHlo.TRef.ternary main_call0.v13 main_call0.v12 main_call0.call0.v1 main_call0.call0.v2 (fun p a b => select (broadcastInDim S4x1x8x1 ![] bcast_S_S4x1x8x1 p) a b),
    StableHlo.unary main_v32 main_v34 (broadcastInDim S4x8192x8x16 ![0, 1, 2, 3] bcast_S4x1x8x1_S4x8192x8x16_0_1_2_3 : (⟨S4x1x8x1, .f32⟩ : BufTy).Contents (Elt F) → (⟨S4x8192x8x16, .f32⟩ : BufTy).Contents (Elt F)),
    StableHlo.binary main_v28 main_v34 main_v35 (subf : (⟨S4x8192x8x16, .f32⟩ : BufTy).Contents (Elt F) → (⟨S4x8192x8x16, .f32⟩ : BufTy).Contents (Elt F) → (⟨S4x8192x8x16, .f32⟩ : BufTy).Contents (Elt F)),
    StableHlo.nullary main_cst_8 (constant S_ .f32 0x3727C5AC#32),
    StableHlo.unary main_cst_8 main_v36 (broadcastInDim S4x1x8x1 ![] bcast_S_S4x1x8x1 : (⟨S_, .f32⟩ : BufTy).Contents (Elt F) → (⟨S4x1x8x1, .f32⟩ : BufTy).Contents (Elt F)),
    StableHlo.binary main_v33 main_v36 main_v37 (addf : (⟨S4x1x8x1, .f32⟩ : BufTy).Contents (Elt F) → (⟨S4x1x8x1, .f32⟩ : BufTy).Contents (Elt F) → (⟨S4x1x8x1, .f32⟩ : BufTy).Contents (Elt F)),
    StableHlo.unary main_v37 main_v38 (Host.rsqrt : (⟨S4x1x8x1, .f32⟩ : BufTy).Contents (Elt F) → (⟨S4x1x8x1, .f32⟩ : BufTy).Contents (Elt F)),
    StableHlo.unary main_v38 main_v39 (broadcastInDim S4x8192x8x16 ![0, 1, 2, 3] bcast_S4x1x8x1_S4x8192x8x16_0_1_2_3 : (⟨S4x1x8x1, .f32⟩ : BufTy).Contents (Elt F) → (⟨S4x8192x8x16, .f32⟩ : BufTy).Contents (Elt F)),
    StableHlo.binary main_v35 main_v39 main_v40 (mulf : (⟨S4x8192x8x16, .f32⟩ : BufTy).Contents (Elt F) → (⟨S4x8192x8x16, .f32⟩ : BufTy).Contents (Elt F) → (⟨S4x8192x8x16, .f32⟩ : BufTy).Contents (Elt F)),
    StableHlo.reshape main_v40 main_v41 rfl shapeCasts_S4x8192x8x16_S4x8192x128,
    StableHlo.unary main_arg7 main_v42 (broadcastInDim S1x1x128 ![2] bcast_S128_S1x1x128_2 : (⟨S128, .f32⟩ : BufTy).Contents (Elt F) → (⟨S1x1x128, .f32⟩ : BufTy).Contents (Elt F)),
    StableHlo.unary main_v42 main_v43 (broadcastInDim S4x8192x128 ![0, 1, 2] bcast_S1x1x128_S4x8192x128_0_1_2 : (⟨S1x1x128, .f32⟩ : BufTy).Contents (Elt F) → (⟨S4x8192x128, .f32⟩ : BufTy).Contents (Elt F)),
    StableHlo.binary main_v41 main_v43 main_v44 (mulf : (⟨S4x8192x128, .f32⟩ : BufTy).Contents (Elt F) → (⟨S4x8192x128, .f32⟩ : BufTy).Contents (Elt F) → (⟨S4x8192x128, .f32⟩ : BufTy).Contents (Elt F)),
    StableHlo.unary main_arg8 main_v45 (broadcastInDim S1x1x128 ![2] bcast_S128_S1x1x128_2 : (⟨S128, .f32⟩ : BufTy).Contents (Elt F) → (⟨S1x1x128, .f32⟩ : BufTy).Contents (Elt F)),
    StableHlo.unary main_v45 main_v46 (broadcastInDim S4x8192x128 ![0, 1, 2] bcast_S1x1x128_S4x8192x128_0_1_2 : (⟨S1x1x128, .f32⟩ : BufTy).Contents (Elt F) → (⟨S4x8192x128, .f32⟩ : BufTy).Contents (Elt F)),
    StableHlo.binary main_v44 main_v46 main_v47 (addf : (⟨S4x8192x128, .f32⟩ : BufTy).Contents (Elt F) → (⟨S4x8192x128, .f32⟩ : BufTy).Contents (Elt F) → (⟨S4x8192x128, .f32⟩ : BufTy).Contents (Elt F)),
    StableHlo.nullary main_cst_9 (constant S_ .f32 0x00000000#32) ]

/-- Operations 83 … 88 of 203. -/
abbrev opsB1b : List (HloOp τ sig (Elt F)) :=
  [ StableHlo.unary main_cst_9 main_v48 (broadcastInDim S4x8192x128 ![] bcast_S_S4x8192x128 : (⟨S_, .f32⟩ : BufTy).Contents (Elt F) → (⟨S4x8192x128, .f32⟩ : BufTy).Contents (Elt F)),
    StableHlo.binary main_v47 main_v48 main_v49 (cmpf .oge : (⟨S4x8192x128, .f32⟩ : BufTy).Contents (Elt F) → (⟨S4x8192x128, .f32⟩ : BufTy).Contents (Elt F) → (⟨S4x8192x128, .i1⟩ : BufTy).Contents (Elt F)),
    StableHlo.nullary main_cst_10 (constant S_ .f32 0x3DCCCCCD#32),
    StableHlo.unary main_cst_10 main_v50 (broadcastInDim S4x8192x128 ![] bcast_S_S4x8192x128 : (⟨S_, .f32⟩ : BufTy).Contents (Elt F) → (⟨S4x8192x128, .f32⟩ : BufTy).Contents (Elt F)),
    StableHlo.binary main_v50 main_v47 main_v51 (mulf : (⟨S4x8192x128, .f32⟩ : BufTy).Contents (Elt F) → (⟨S4x8192x128, .f32⟩ : BufTy).Contents (Elt F) → (⟨S4x8192x128, .f32⟩ : BufTy).Contents (Elt F)),
    StableHlo.TRef.ternary (.of main_v49) (.of main_v47) (.of main_v51) main_call1.v0 select ]

/-- Operations 89 … 145 of 203. -/
abbrev opsB2 : List (HloOp τ sig (Elt F)) :=
  [ StableHlo.binary main_v52 main_arg9 main_v53 ((fun l r => Host.dotGeneral dot_S4x8192x128_S128x128_S4x8192x128_2_0_01_1_n_n none l r) : (⟨S4x8192x128, .f32⟩ : BufTy).Contents (Elt F) → (⟨S128x128, .f32⟩ : BufTy).Contents (Elt F) → (⟨S4x8192x128, .f32⟩ : BufTy).Contents (Elt F)),
    StableHlo.unary main_arg10 main_v54 (broadcastInDim S1x1x128 ![2] bcast_S128_S1x1x128_2 : (⟨S128, .f32⟩ : BufTy).Contents (Elt F) → (⟨S1x1x128, .f32⟩ : BufTy).Contents (Elt F)),
    StableHlo.unary main_v54 main_v55 (broadcastInDim S4x8192x128 ![0, 1, 2] bcast_S1x1x128_S4x8192x128_0_1_2 : (⟨S1x1x128, .f32⟩ : BufTy).Contents (Elt F) → (⟨S4x8192x128, .f32⟩ : BufTy).Contents (Elt F)),
    StableHlo.binary main_v53 main_v55 main_v56 (addf : (⟨S4x8192x128, .f32⟩ : BufTy).Contents (Elt F) → (⟨S4x8192x128, .f32⟩ : BufTy).Contents (Elt F) → (⟨S4x8192x128, .f32⟩ : BufTy).Contents (Elt F)),
    StableHlo.reshape main_v56 main_v57 rfl shapeCasts_S4x8192x128_S4x8192x8x16,
    StableHlo.nullary main_cst_11 (constant S_ .f32 0x00000000#32),
    StableHlo.binary main_v57 main_cst_11 main_v58 ((fun x v => Host.reduceAdd x v reducesTo_S4x8192x8x16_S4x8_d1_3 h_S_) : (⟨S4x8192x8x16, .f32⟩ : BufTy).Contents (Elt F) → (⟨S_, .f32⟩ : BufTy).Contents (Elt F) → (⟨S4x8, .f32⟩ : BufTy).Contents (Elt F)),
    StableHlo.unary main_v58 main_v59 (broadcastInDim S4x1x8x1 ![0, 2] bcast_S4x8_S4x1x8x1_0_2 : (⟨S4x8, .f32⟩ : BufTy).Contents (Elt F) → (⟨S4x1x8x1, .f32⟩ : BufTy).Contents (Elt F)),
    StableHlo.nullary main_cst_12 (constant S_ .f32 0x48000000#32),
    StableHlo.unary main_cst_12 main_v60 (broadcastInDim S4x1x8x1 ![] bcast_S_S4x1x8x1 : (⟨S_, .f32⟩ : BufTy).Contents (Elt F) → (⟨S4x1x8x1, .f32⟩ : BufTy).Contents (Elt F)),
    StableHlo.binary main_v59 main_v60 main_v61 (Host.divf : (⟨S4x1x8x1, .f32⟩ : BufTy).Contents (Elt F) → (⟨S4x1x8x1, .f32⟩ : BufTy).Contents (Elt F) → (⟨S4x1x8x1, .f32⟩ : BufTy).Contents (Elt F)),
    StableHlo.nullary main_c_13 (constantI S_ 32 0#32),
    StableHlo.TRef.nullary main_call2.cst (constant S_ .f32 0x00000000#32),
    StableHlo.TRef.binary (.of main_v57) main_call2.cst main_call2.v0 (fun x v => Host.reduceAdd x v reducesTo_S4x8192x8x16_S4x8_d1_3 h_S_),
    StableHlo.TRef.unary main_call2.v0 main_call2.v1 (broadcastInDim S4x1x8x1 ![0, 2] bcast_S4x8_S4x1x8x1_0_2),
    StableHlo.TRef.nullary main_call2.cst_0 (constant S_ .f32 0x48000000#32),
    StableHlo.TRef.unary main_call2.cst_0 main_call2.v2 (broadcastInDim S4x1x8x1 ![] bcast_S_S4x1x8x1),
    StableHlo.TRef.binary main_call2.v1 main_call2.v2 main_call2.v3 Host.divf,
    StableHlo.TRef.unary main_call2.v3 main_call2.v4 (broadcastInDim S4x8192x8x16 ![0, 1, 2, 3] bcast_S4x1x8x1_S4x8192x8x16_0_1_2_3),
    StableHlo.TRef.binary (.of main_v57) main_call2.v4 main_call2.v5 subf,
    StableHlo.TRef.binary main_call2.v5 main_call2.v5 main_call2.v6 mulf,
    StableHlo.TRef.unary (.of main_c_13) main_call2.v7 (sitofp .f32),
    StableHlo.TRef.nullary main_call2.cst_1 (constant S_ .f32 0x48000000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S4x8192x8x16_S4x8_d1_3 h_S_),
    StableHlo.TRef.unary main_call2.v9 main_call2.v10 (broadcastInDim S4x1x8x1 ![0, 2] bcast_S4x8_S4x1x8x1_0_2),
    StableHlo.TRef.unary main_call2.v8 main_call2.v11 (broadcastInDim S4x1x8x1 ![] bcast_S_S4x1x8x1),
    StableHlo.TRef.binary main_call2.v10 main_call2.v11 main_call2.v12 Host.divf,
    StableHlo.TRef.nullary main_call2.cst_3 (constant S_ .f32 0x00000000#32),
    StableHlo.TRef.binary main_call2.v8 main_call2.cst_3 main_call2.v13 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S4x1x8x1 ![] bcast_S_S4x1x8x1),
    StableHlo.TRef.ternary main_call2.v13 main_call2.v12 main_call2.call0.v1 main_call2.call0.v2 (fun p a b => select (broadcastInDim S4x1x8x1 ![] bcast_S_S4x1x8x1 p) a b),
    StableHlo.unary main_v61 main_v63 (broadcastInDim S4x8192x8x16 ![0, 1, 2, 3] bcast_S4x1x8x1_S4x8192x8x16_0_1_2_3 : (⟨S4x1x8x1, .f32⟩ : BufTy).Contents (Elt F) → (⟨S4x8192x8x16, .f32⟩ : BufTy).Contents (Elt F)),
    StableHlo.binary main_v57 main_v63 main_v64 (subf : (⟨S4x8192x8x16, .f32⟩ : BufTy).Contents (Elt F) → (⟨S4x8192x8x16, .f32⟩ : BufTy).Contents (Elt F) → (⟨S4x8192x8x16, .f32⟩ : BufTy).Contents (Elt F)),
    StableHlo.nullary main_cst_14 (constant S_ .f32 0x3727C5AC#32),
    StableHlo.unary main_cst_14 main_v65 (broadcastInDim S4x1x8x1 ![] bcast_S_S4x1x8x1 : (⟨S_, .f32⟩ : BufTy).Contents (Elt F) → (⟨S4x1x8x1, .f32⟩ : BufTy).Contents (Elt F)),
    StableHlo.binary main_v62 main_v65 main_v66 (addf : (⟨S4x1x8x1, .f32⟩ : BufTy).Contents (Elt F) → (⟨S4x1x8x1, .f32⟩ : BufTy).Contents (Elt F) → (⟨S4x1x8x1, .f32⟩ : BufTy).Contents (Elt F)),
    StableHlo.unary main_v66 main_v67 (Host.rsqrt : (⟨S4x1x8x1, .f32⟩ : BufTy).Contents (Elt F) → (⟨S4x1x8x1, .f32⟩ : BufTy).Contents (Elt F)),
    StableHlo.unary main_v67 main_v68 (broadcastInDim S4x8192x8x16 ![0, 1, 2, 3] bcast_S4x1x8x1_S4x8192x8x16_0_1_2_3 : (⟨S4x1x8x1, .f32⟩ : BufTy).Contents (Elt F) → (⟨S4x8192x8x16, .f32⟩ : BufTy).Contents (Elt F)),
    StableHlo.binary main_v64 main_v68 main_v69 (mulf : (⟨S4x8192x8x16, .f32⟩ : BufTy).Contents (Elt F) → (⟨S4x8192x8x16, .f32⟩ : BufTy).Contents (Elt F) → (⟨S4x8192x8x16, .f32⟩ : BufTy).Contents (Elt F)),
    StableHlo.reshape main_v69 main_v70 rfl shapeCasts_S4x8192x8x16_S4x8192x128,
    StableHlo.unary main_arg11 main_v71 (broadcastInDim S1x1x128 ![2] bcast_S128_S1x1x128_2 : (⟨S128, .f32⟩ : BufTy).Contents (Elt F) → (⟨S1x1x128, .f32⟩ : BufTy).Contents (Elt F)),
    StableHlo.unary main_v71 main_v72 (broadcastInDim S4x8192x128 ![0, 1, 2] bcast_S1x1x128_S4x8192x128_0_1_2 : (⟨S1x1x128, .f32⟩ : BufTy).Contents (Elt F) → (⟨S4x8192x128, .f32⟩ : BufTy).Contents (Elt F)),
    StableHlo.binary main_v70 main_v72 main_v73 (mulf : (⟨S4x8192x128, .f32⟩ : BufTy).Contents (Elt F) → (⟨S4x8192x128, .f32⟩ : BufTy).Contents (Elt F) → (⟨S4x8192x128, .f32⟩ : BufTy).Contents (Elt F)),
    StableHlo.unary main_arg12 main_v74 (broadcastInDim S1x1x128 ![2] bcast_S128_S1x1x128_2 : (⟨S128, .f32⟩ : BufTy).Contents (Elt F) → (⟨S1x1x128, .f32⟩ : BufTy).Contents (Elt F)),
    StableHlo.unary main_v74 main_v75 (broadcastInDim S4x8192x128 ![0, 1, 2] bcast_S1x1x128_S4x8192x128_0_1_2 : (⟨S1x1x128, .f32⟩ : BufTy).Contents (Elt F) → (⟨S4x8192x128, .f32⟩ : BufTy).Contents (Elt F)),
    StableHlo.binary main_v73 main_v75 main_v76 (addf : (⟨S4x8192x128, .f32⟩ : BufTy).Contents (Elt F) → (⟨S4x8192x128, .f32⟩ : BufTy).Contents (Elt F) → (⟨S4x8192x128, .f32⟩ : BufTy).Contents (Elt F)),
    StableHlo.nullary main_cst_15 (constant S_ .f32 0x00000000#32),
    StableHlo.unary main_cst_15 main_v77 (broadcastInDim S4x8192x128 ![] bcast_S_S4x8192x128 : (⟨S_, .f32⟩ : BufTy).Contents (Elt F) → (⟨S4x8192x128, .f32⟩ : BufTy).Contents (Elt F)),
    StableHlo.binary main_v76 main_v77 main_v78 (cmpf .oge : (⟨S4x8192x128, .f32⟩ : BufTy).Contents (Elt F) → (⟨S4x8192x128, .f32⟩ : BufTy).Contents (Elt F) → (⟨S4x8192x128, .i1⟩ : BufTy).Contents (Elt F)),
    StableHlo.nullary main_cst_16 (constant S_ .f32 0x3DCCCCCD#32),
    StableHlo.unary main_cst_16 main_v79 (broadcastInDim S4x8192x128 ![] bcast_S_S4x8192x128 : (⟨S_, .f32⟩ : BufTy).Contents (Elt F) → (⟨S4x8192x128, .f32⟩ : BufTy).Contents (Elt F)),
    StableHlo.binary main_v79 main_v76 main_v80 (mulf : (⟨S4x8192x128, .f32⟩ : BufTy).Contents (Elt F) → (⟨S4x8192x128, .f32⟩ : BufTy).Contents (Elt F) → (⟨S4x8192x128, .f32⟩ : BufTy).Contents (Elt F)),
    StableHlo.TRef.ternary (.of main_v78) (.of main_v76) (.of main_v80) main_call3.v0 select ]

/-- Operations 146 … 186 of 203. -/
abbrev opsB3a : List (HloOp τ sig (Elt F)) :=
  [ StableHlo.binary main_v81 main_arg0 main_v82 (addf : (⟨S4x8192x128, .f32⟩ : BufTy).Contents (Elt F) → (⟨S4x8192x128, .f32⟩ : BufTy).Contents (Elt F) → (⟨S4x8192x128, .f32⟩ : BufTy).Contents (Elt F)),
    StableHlo.binary main_v82 main_arg13 main_v83 ((fun l r => Host.dotGeneral dot_S4x8192x128_S128x128_S4x8192x128_2_0_01_1_n_n none l r) : (⟨S4x8192x128, .f32⟩ : BufTy).Contents (Elt F) → (⟨S128x128, .f32⟩ : BufTy).Contents (Elt F) → (⟨S4x8192x128, .f32⟩ : BufTy).Contents (Elt F)),
    StableHlo.unary main_arg14 main_v84 (broadcastInDim S1x1x128 ![2] bcast_S128_S1x1x128_2 : (⟨S128, .f32⟩ : BufTy).Contents (Elt F) → (⟨S1x1x128, .f32⟩ : BufTy).Contents (Elt F)),
    StableHlo.unary main_v84 main_v85 (broadcastInDim S4x8192x128 ![0, 1, 2] bcast_S1x1x128_S4x8192x128_0_1_2 : (⟨S1x1x128, .f32⟩ : BufTy).Contents (Elt F) → (⟨S4x8192x128, .f32⟩ : BufTy).Contents (Elt F)),
    StableHlo.binary main_v83 main_v85 main_v86 (addf : (⟨S4x8192x128, .f32⟩ : BufTy).Contents (Elt F) → (⟨S4x8192x128, .f32⟩ : BufTy).Contents (Elt F) → (⟨S4x8192x128, .f32⟩ : BufTy).Contents (Elt F)),
    StableHlo.reshape main_v86 main_v87 rfl shapeCasts_S4x8192x128_S4x8192x8x16,
    StableHlo.nullary main_cst_17 (constant S_ .f32 0x00000000#32),
    StableHlo.binary main_v87 main_cst_17 main_v88 ((fun x v => Host.reduceAdd x v reducesTo_S4x8192x8x16_S4x8_d1_3 h_S_) : (⟨S4x8192x8x16, .f32⟩ : BufTy).Contents (Elt F) → (⟨S_, .f32⟩ : BufTy).Contents (Elt F) → (⟨S4x8, .f32⟩ : BufTy).Contents (Elt F)),
    StableHlo.unary main_v88 main_v89 (broadcastInDim S4x1x8x1 ![0, 2] bcast_S4x8_S4x1x8x1_0_2 : (⟨S4x8, .f32⟩ : BufTy).Contents (Elt F) → (⟨S4x1x8x1, .f32⟩ : BufTy).Contents (Elt F)),
    StableHlo.nullary main_cst_18 (constant S_ .f32 0x48000000#32),
    StableHlo.unary main_cst_18 main_v90 (broadcastInDim S4x1x8x1 ![] bcast_S_S4x1x8x1 : (⟨S_, .f32⟩ : BufTy).Contents (Elt F) → (⟨S4x1x8x1, .f32⟩ : BufTy).Contents (Elt F)),
    StableHlo.binary main_v89 main_v90 main_v91 (Host.divf : (⟨S4x1x8x1, .f32⟩ : BufTy).Contents (Elt F) → (⟨S4x1x8x1, .f32⟩ : BufTy).Contents (Elt F) → (⟨S4x1x8x1, .f32⟩ : BufTy).Contents (Elt F)),
    StableHlo.nullary main_c_19 (constantI S_ 32 0#32),
    StableHlo.TRef.nullary main_call4.cst (constant S_ .f32 0x00000000#32),
    StableHlo.TRef.binary (.of main_v87) main_call4.cst main_call4.v0 (fun x v => Host.reduceAdd x v reducesTo_S4x8192x8x16_S4x8_d1_3 h_S_),
    StableHlo.TRef.unary main_call4.v0 main_call4.v1 (broadcastInDim S4x1x8x1 ![0, 2] bcast_S4x8_S4x1x8x1_0_2),
    StableHlo.TRef.nullary main_call4.cst_0 (constant S_ .f32 0x48000000#32),
    StableHlo.TRef.unary main_call4.cst_0 main_call4.v2 (broadcastInDim S4x1x8x1 ![] bcast_S_S4x1x8x1),
    StableHlo.TRef.binary main_call4.v1 main_call4.v2 main_call4.v3 Host.divf,
    StableHlo.TRef.unary main_call4.v3 main_call4.v4 (broadcastInDim S4x8192x8x16 ![0, 1, 2, 3] bcast_S4x1x8x1_S4x8192x8x16_0_1_2_3),
    StableHlo.TRef.binary (.of main_v87) main_call4.v4 main_call4.v5 subf,
    StableHlo.TRef.binary main_call4.v5 main_call4.v5 main_call4.v6 mulf,
    StableHlo.TRef.unary (.of main_c_19) main_call4.v7 (sitofp .f32),
    StableHlo.TRef.nullary main_call4.cst_1 (constant S_ .f32 0x48000000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S4x8192x8x16_S4x8_d1_3 h_S_),
    StableHlo.TRef.unary main_call4.v9 main_call4.v10 (broadcastInDim S4x1x8x1 ![0, 2] bcast_S4x8_S4x1x8x1_0_2),
    StableHlo.TRef.unary main_call4.v8 main_call4.v11 (broadcastInDim S4x1x8x1 ![] bcast_S_S4x1x8x1),
    StableHlo.TRef.binary main_call4.v10 main_call4.v11 main_call4.v12 Host.divf,
    StableHlo.TRef.nullary main_call4.cst_3 (constant S_ .f32 0x00000000#32),
    StableHlo.TRef.binary main_call4.v8 main_call4.cst_3 main_call4.v13 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S4x1x8x1 ![] bcast_S_S4x1x8x1),
    StableHlo.TRef.ternary main_call4.v13 main_call4.v12 main_call4.call0.v1 main_call4.call0.v2 (fun p a b => select (broadcastInDim S4x1x8x1 ![] bcast_S_S4x1x8x1 p) a b),
    StableHlo.unary main_v91 main_v93 (broadcastInDim S4x8192x8x16 ![0, 1, 2, 3] bcast_S4x1x8x1_S4x8192x8x16_0_1_2_3 : (⟨S4x1x8x1, .f32⟩ : BufTy).Contents (Elt F) → (⟨S4x8192x8x16, .f32⟩ : BufTy).Contents (Elt F)),
    StableHlo.binary main_v87 main_v93 main_v94 (subf : (⟨S4x8192x8x16, .f32⟩ : BufTy).Contents (Elt F) → (⟨S4x8192x8x16, .f32⟩ : BufTy).Contents (Elt F) → (⟨S4x8192x8x16, .f32⟩ : BufTy).Contents (Elt F)),
    StableHlo.nullary main_cst_20 (constant S_ .f32 0x3727C5AC#32),
    StableHlo.unary main_cst_20 main_v95 (broadcastInDim S4x1x8x1 ![] bcast_S_S4x1x8x1 : (⟨S_, .f32⟩ : BufTy).Contents (Elt F) → (⟨S4x1x8x1, .f32⟩ : BufTy).Contents (Elt F)),
    StableHlo.binary main_v92 main_v95 main_v96 (addf : (⟨S4x1x8x1, .f32⟩ : BufTy).Contents (Elt F) → (⟨S4x1x8x1, .f32⟩ : BufTy).Contents (Elt F) → (⟨S4x1x8x1, .f32⟩ : BufTy).Contents (Elt F)) ]

/-- Operations 187 … 203 of 203. -/
abbrev opsB3b : List (HloOp τ sig (Elt F)) :=
  [ StableHlo.unary main_v96 main_v97 (Host.rsqrt : (⟨S4x1x8x1, .f32⟩ : BufTy).Contents (Elt F) → (⟨S4x1x8x1, .f32⟩ : BufTy).Contents (Elt F)),
    StableHlo.unary main_v97 main_v98 (broadcastInDim S4x8192x8x16 ![0, 1, 2, 3] bcast_S4x1x8x1_S4x8192x8x16_0_1_2_3 : (⟨S4x1x8x1, .f32⟩ : BufTy).Contents (Elt F) → (⟨S4x8192x8x16, .f32⟩ : BufTy).Contents (Elt F)),
    StableHlo.binary main_v94 main_v98 main_v99 (mulf : (⟨S4x8192x8x16, .f32⟩ : BufTy).Contents (Elt F) → (⟨S4x8192x8x16, .f32⟩ : BufTy).Contents (Elt F) → (⟨S4x8192x8x16, .f32⟩ : BufTy).Contents (Elt F)),
    StableHlo.reshape main_v99 main_v100 rfl shapeCasts_S4x8192x8x16_S4x8192x128,
    StableHlo.unary main_arg15 main_v101 (broadcastInDim S1x1x128 ![2] bcast_S128_S1x1x128_2 : (⟨S128, .f32⟩ : BufTy).Contents (Elt F) → (⟨S1x1x128, .f32⟩ : BufTy).Contents (Elt F)),
    StableHlo.unary main_v101 main_v102 (broadcastInDim S4x8192x128 ![0, 1, 2] bcast_S1x1x128_S4x8192x128_0_1_2 : (⟨S1x1x128, .f32⟩ : BufTy).Contents (Elt F) → (⟨S4x8192x128, .f32⟩ : BufTy).Contents (Elt F)),
    StableHlo.binary main_v100 main_v102 main_v103 (mulf : (⟨S4x8192x128, .f32⟩ : BufTy).Contents (Elt F) → (⟨S4x8192x128, .f32⟩ : BufTy).Contents (Elt F) → (⟨S4x8192x128, .f32⟩ : BufTy).Contents (Elt F)),
    StableHlo.unary main_arg16 main_v104 (broadcastInDim S1x1x128 ![2] bcast_S128_S1x1x128_2 : (⟨S128, .f32⟩ : BufTy).Contents (Elt F) → (⟨S1x1x128, .f32⟩ : BufTy).Contents (Elt F)),
    StableHlo.unary main_v104 main_v105 (broadcastInDim S4x8192x128 ![0, 1, 2] bcast_S1x1x128_S4x8192x128_0_1_2 : (⟨S1x1x128, .f32⟩ : BufTy).Contents (Elt F) → (⟨S4x8192x128, .f32⟩ : BufTy).Contents (Elt F)),
    StableHlo.binary main_v103 main_v105 main_v106 (addf : (⟨S4x8192x128, .f32⟩ : BufTy).Contents (Elt F) → (⟨S4x8192x128, .f32⟩ : BufTy).Contents (Elt F) → (⟨S4x8192x128, .f32⟩ : BufTy).Contents (Elt F)),
    StableHlo.nullary main_cst_21 (constant S_ .f32 0x00000000#32),
    StableHlo.unary main_cst_21 main_v107 (broadcastInDim S4x8192x128 ![] bcast_S_S4x8192x128 : (⟨S_, .f32⟩ : BufTy).Contents (Elt F) → (⟨S4x8192x128, .f32⟩ : BufTy).Contents (Elt F)),
    StableHlo.binary main_v106 main_v107 main_v108 (cmpf .oge : (⟨S4x8192x128, .f32⟩ : BufTy).Contents (Elt F) → (⟨S4x8192x128, .f32⟩ : BufTy).Contents (Elt F) → (⟨S4x8192x128, .i1⟩ : BufTy).Contents (Elt F)),
    StableHlo.nullary main_cst_22 (constant S_ .f32 0x3DCCCCCD#32),
    StableHlo.unary main_cst_22 main_v109 (broadcastInDim S4x8192x128 ![] bcast_S_S4x8192x128 : (⟨S_, .f32⟩ : BufTy).Contents (Elt F) → (⟨S4x8192x128, .f32⟩ : BufTy).Contents (Elt F)),
    StableHlo.binary main_v109 main_v106 main_v110 (mulf : (⟨S4x8192x128, .f32⟩ : BufTy).Contents (Elt F) → (⟨S4x8192x128, .f32⟩ : BufTy).Contents (Elt F) → (⟨S4x8192x128, .f32⟩ : BufTy).Contents (Elt F)),
    StableHlo.TRef.ternary (.of main_v108) (.of main_v106) (.of main_v110) main_call5.v0 select ]

end Cert.ReferenceIdeal.RefRun

end
-- ==== Proof.RefRun.lean ====
/-
  The reference program's run: @main as the list of its host operations, the helper functions' operations listed at
  their calls, and what every weakly fair execution ends with: the result buffer at the reference's term of the argument
  arrays, the arguments unchanged.

  The list is cut where the mathematics cuts it: the weighted neighbour features, then the three blocks (the first and
  the third cut once more where the program's own windows end, so that each window is a concatenation of whole pieces).
  Each stretch is read over an arbitrary valuation, so that the stretch before it enters as a variable; no stretch writes
  an argument buffer; the stretches compose to the network's term.
-/
import proofs.«408550_j77214922047594_4_alg».proof.Proof.RefTerm
import proofs.«408550_j77214922047594_4_alg».proof.Proof.RefRunOps
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The fold of two lines -/

/-- Two lines run one after the other: the second's fold starts from the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## @main is the line

The program runs its statements in three windows; the first ends inside the first block (after the zero word of its
rectifier), the second inside the third block (after the stabilised variance). Each window is the line of its
operations once the helper functions' definitions are unfolded at their calls and sequencing is reassociated. -/

/-- The whole line: the neighbour features, then the three blocks. -/
abbrev ops : List (HloOp τ sig (Elt F)) := (opsL ++ opsB1a) ++ (((opsB1b ++ opsB2) ++ opsB3a) ++ opsB3b)

set_option maxRecDepth 4096 in
/-- The first window: the neighbour features and the first block up to the rectifier's zero word. -/
theorem part0_eq (d : Dev nD) : main_part0 (F := F) d = seq (opsL ++ opsB1a) := by
  rw [seq_append]
  simp only [main_part0, fn_var.body, fn_where.body, seq, bind_assoc, pure_bind]
  rfl

set_option maxRecDepth 4096 in
/-- The second window: the first block's rectifier, the second block, the third up to its stabilised variance. -/
theorem part1_eq (d : Dev nD) : main_part1 (F := F) d = seq ((opsB1b ++ opsB2) ++ opsB3a) := by
  rw [seq_append, seq_append]
  simp only [main_part1, fn_var.body, fn_where.body, fn_where_0.body, seq, bind_assoc, pure_bind]
  rfl

set_option maxRecDepth 4096 in
/-- The third window: the rest of the third block. -/
theorem part2_eq (d : Dev nD) : main_part2 (F := F) d = seq opsB3b := by
  simp only [main_part2, fn_where_0.body, seq, bind_assoc, pure_bind]

/-- @main is the whole line. -/
theorem main_eq (d : Dev nD) : main (F := F) d = seq ops := by
  simp only [main, part0_eq, part1_eq, part2_eq, ops, seq_append, bind_assoc]

/-! ## What each stretch of the line computes, from any contents

Each stretch is read at its last result over an arbitrary valuation: the fold unrolls, every operation's result at the
buffer read is its function's value if that is the buffer it writes and what was there otherwise, and the typed
references' transports are the identity at these literal references. What is left is the stretch's term of the
contents it started from, which is the reference's term by definition. The reductions, the gather, the division and
the reciprocal square root stay folded: the equation never looks inside them. -/

attribute [local irreducible] Host.reduceAdd Host.gather Host.divf Host.rsqrt in
set_option maxRecDepth 8192 in
set_option maxHeartbeats 400000 in
/-- The first thirty-one operations leave the weighted neighbour features of the four arrays they read. -/
theorem latent_eq (V : Valuation τ sig (Elt F)) :
    after opsL V (main_v23 : DevRef τ sig)
      = RefTerm.latent (F := F) (V (main_arg1 : DevRef τ sig)) (V (main_arg2 : DevRef τ sig))
          (V (main_arg3 : DevRef τ sig)) (V (main_arg4 : DevRef τ sig)) := by
  simp only [after_cons, after_nil]
  rfl

attribute [local irreducible] Host.reduceAdd Host.gather Host.divf Host.rsqrt in
set_option maxRecDepth 8192 in
set_option maxHeartbeats 400000 in
/-- The first block, of the neighbour features' buffer and the first block's four parameter arrays. -/
theorem block1_eq (V : Valuation τ sig (Elt F)) :
    after opsB1b (after opsB1a V) (main_v52 : DevRef τ sig)
      = RefTerm.block (F := F) (V (main_v23 : DevRef τ sig)) (V (main_arg5 : DevRef τ sig))
          (V (main_arg6 : DevRef τ sig)) (V (main_arg7 : DevRef τ sig)) (V (main_arg8 : DevRef τ sig)) := by
  simp only [after_cons, after_nil]
  rfl

attribute [local irreducible] Host.reduceAdd Host.gather Host.divf Host.rsqrt in
set_option maxRecDepth 8192 in
set_option maxHeartbeats 400000 in
/-- The second block, of the first block's result buffer and the second block's parameters. -/
theorem block2_eq (V : Valuation τ sig (Elt F)) :
    after opsB2 V (main_v81 : DevRef τ sig)
      = RefTerm.block (F := F) (V (main_v52 : DevRef τ sig)) (V (main_arg9 : DevRef τ sig))
          (V (main_arg10 : DevRef τ sig)) (V (main_arg11 : DevRef τ sig)) (V (main_arg12 : DevRef τ sig)) := by
  simp only [after_cons, after_nil]
  rfl

attribute [local irreducible] Host.reduceAdd Host.gather Host.divf Host.rsqrt in
set_option maxRecDepth 8192 in
set_option maxHeartbeats 400000 in
/-- The third block, of the second block's result added to the query features, and the third block's parameters. -/
theorem block3_eq (V : Valuation τ sig (Elt F)) :
    after opsB3b (after opsB3a V) (main_v111 : DevRef τ sig)
      = RefTerm.block (F := F) (addf (V (main_v81 : DevRef τ sig)) (V (main_arg0 : DevRef τ sig)))
          (V (main_arg13 : DevRef τ sig)) (V (main_arg14 : DevRef τ sig))
          (V (main_arg15 : DevRef τ sig)) (V (main_arg16 : DevRef τ sig)) := by
  simp only [after_cons, after_nil]
  rfl

/-! ## The arguments are never written -/

/-- The seventeen argument buffers. -/
abbrev argRefs : List (Ref sig .tc) :=
  [main_arg0, main_arg1, main_arg2, main_arg3, main_arg4, main_arg5, main_arg6, main_arg7, main_arg8, main_arg9,
    main_arg10, main_arg11, main_arg12, main_arg13, main_arg14, main_arg15, main_arg16]

/-- A line none of whose operations writes an argument buffer. -/
def KeepsArgs (l : List (HloOp τ sig (Elt F))) : Prop :=
  l.Forall fun op => ∀ r ∈ argRefs, Proc.devRef (τ := τ) .tc r ∉ op.writes

/-- A buffer that is no argument: no argument is in the set holding it alone. -/
theorem not_arg {y : Ref sig .tc} (h : ∀ r ∈ argRefs, r ≠ y) :
    ∀ r ∈ argRefs, Proc.devRef (τ := τ) .tc r ∉ ({Proc.devRef .tc y} : Finset (DevRef τ sig)) :=
  fun r hr => by rw [Finset.mem_singleton]; exact devRef_ne_of_ne (h r hr)

/-- Such a line leaves every argument as it found it. -/
theorem after_arg {l : List (HloOp τ sig (Elt F))} (hl : KeepsArgs l) (V : Valuation τ sig (Elt F))
    {r : Ref sig .tc} (hr : r ∈ argRefs) : after l V (Proc.devRef .tc r) = V (Proc.devRef .tc r) :=
  after_of_forall_not_mem l V fun op hop => List.forall_iff_forall_mem.mp hl op hop r hr

/-- For a literal line: each operation writes the one buffer of its result, and that buffer is no argument (which
    reference is which is decided). -/
local macro "keeps_args" : tactic =>
  `(tactic| (unfold KeepsArgs
             simp only [List.Forall, nullary_writes, unary_writes, binary_writes, ternary_writes, reshape_writes]
             repeat' apply And.intro
             all_goals exact not_arg (by decide)))

theorem opsL_keeps : KeepsArgs (opsL (F := F)) := by keeps_args
theorem opsB1a_keeps : KeepsArgs (opsB1a (F := F)) := by keeps_args
theorem opsB1b_keeps : KeepsArgs (opsB1b (F := F)) := by keeps_args
theorem opsB2_keeps : KeepsArgs (opsB2 (F := F)) := by keeps_args
theorem opsB3a_keeps : KeepsArgs (opsB3a (F := F)) := by keeps_args
theorem opsB3b_keeps : KeepsArgs (opsB3b (F := F)) := by keeps_args

/-- Contents that hold at the argument buffers what V holds there. -/
def SameArgs (V W : Valuation τ sig (Elt F)) : Prop :=
  ∀ r ∈ argRefs, W (Proc.devRef .tc r) = V (Proc.devRef .tc r)

/-- A line that writes no argument keeps that agreement. -/
theorem SameArgs.step {V W : Valuation τ sig (Elt F)} (h : SameArgs V W) {l : List (HloOp τ sig (Elt F))}
    (hl : KeepsArgs l) : SameArgs V (after l W) :=
  fun r hr => (after_arg hl W hr).trans (h r hr)

/-! ## The whole line

The stretches compose: each block reads its input where the stretch before it left it and its parameters where the
launch left them, no stretch having written an argument. -/

/-- The result buffer after the whole line is the reference's term of the contents the line started from. -/
theorem value (V : Valuation τ sig (Elt F)) :
    after ops V (main_v111 : DevRef τ sig)
      = RefTerm.net (F := F) (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) (V (main_arg11 : DevRef τ sig))
          (V (main_arg12 : DevRef τ sig)) (V (main_arg13 : DevRef τ sig)) (V (main_arg14 : DevRef τ sig))
          (V (main_arg15 : DevRef τ sig)) (V (main_arg16 : DevRef τ sig)) := by
  have h1 : SameArgs V (after opsL V) := fun r hr => after_arg opsL_keeps V hr
  have h2 : SameArgs V (after opsB1b (after opsB1a (after opsL V))) := (h1.step opsB1a_keeps).step opsB1b_keeps
  have h3 : SameArgs V (after opsB2 (after opsB1b (after opsB1a (after opsL V)))) := h2.step opsB2_keeps
  simp only [ops, after_append]
  rw [block3_eq, block2_eq, block1_eq, latent_eq,
    h3 main_arg0 (by decide), h3 main_arg13 (by decide), h3 main_arg14 (by decide), h3 main_arg15 (by decide),
    h3 main_arg16 (by decide), h2 main_arg9 (by decide), h2 main_arg10 (by decide), h2 main_arg11 (by decide),
    h2 main_arg12 (by decide), h1 main_arg5 (by decide), h1 main_arg6 (by decide), h1 main_arg7 (by decide),
    h1 main_arg8 (by decide)]
  rfl

/-- A property of every operation of the six stretches is one of every operation of the line. -/
theorem forall_mem_ops {p : HloOp τ sig (Elt F) → Prop}
    (h0 : ∀ op ∈ (opsL (F := F)), p op) (h1 : ∀ op ∈ (opsB1a (F := F)), p op) (h2 : ∀ op ∈ (opsB1b (F := F)), p op)
    (h3 : ∀ op ∈ (opsB2 (F := F)), p op) (h4 : ∀ op ∈ (opsB3a (F := F)), p op) (h5 : ∀ op ∈ (opsB3b (F := F)), p op) :
    ∀ op ∈ (ops (F := F)), p op := by
  intro op h
  simp only [ops, List.mem_append] at h
  rcases h with (h | h) | (((h | h) | h) | h)
  exacts [h0 op h, h1 op h, h2 op h, h3 op h, h4 op h, h5 op h]

/-- The whole line leaves every argument as it found it. -/
theorem ops_arg (V : Valuation τ sig (Elt F)) {r : Ref sig .tc} (hr : r ∈ argRefs) :
    after ops V (Proc.devRef .tc r) = V (Proc.devRef .tc r) :=
  after_of_forall_not_mem ops V fun op hop =>
    forall_mem_ops (p := fun op => ∀ r ∈ argRefs, Proc.devRef (τ := τ) .tc r ∉ op.writes)
      (List.forall_iff_forall_mem.mp opsL_keeps) (List.forall_iff_forall_mem.mp opsB1a_keeps)
      (List.forall_iff_forall_mem.mp opsB1b_keeps) (List.forall_iff_forall_mem.mp opsB2_keeps)
      (List.forall_iff_forall_mem.mp opsB3a_keeps) (List.forall_iff_forall_mem.mp opsB3b_keeps) op hop r hr

/-! ## The run's side conditions -/

/-- For a literal line: every buffer an operation touches is a TensorCore reference. -/
local macro "bufs_sub" : tactic =>
  `(tactic| (refine List.forall_iff_forall_mem.mp ?_
             simp only [List.Forall, nullary_bufs_sub, unary_bufs_sub, binary_bufs_sub, ternary_bufs_sub,
               reshape_bufs_sub, and_self]))

/-- For a literal line: every operation determines its results (none allocates). -/
local macro "none_fresh" : tactic =>
  `(tactic| (intro _ h; (repeat (cases h with | head => rfl | tail _ h => ?_)); exact nomatch h))

theorem opsL_sub : ∀ op ∈ (opsL (F := F)), op.bufs ⊆ tcRefs τ sig := by bufs_sub
theorem opsB1a_sub : ∀ op ∈ (opsB1a (F := F)), op.bufs ⊆ tcRefs τ sig := by bufs_sub
theorem opsB1b_sub : ∀ op ∈ (opsB1b (F := F)), op.bufs ⊆ tcRefs τ sig := by bufs_sub
theorem opsB2_sub : ∀ op ∈ (opsB2 (F := F)), op.bufs ⊆ tcRefs τ sig := by bufs_sub
theorem opsB3a_sub : ∀ op ∈ (opsB3a (F := F)), op.bufs ⊆ tcRefs τ sig := by bufs_sub
theorem opsB3b_sub : ∀ op ∈ (opsB3b (F := F)), op.bufs ⊆ tcRefs τ sig := by bufs_sub

theorem opsL_fresh : ∀ op ∈ (opsL (F := F)), op.fresh = ∅ := by none_fresh
theorem opsB1a_fresh : ∀ op ∈ (opsB1a (F := F)), op.fresh = ∅ := by none_fresh
theorem opsB1b_fresh : ∀ op ∈ (opsB1b (F := F)), op.fresh = ∅ := by none_fresh
theorem opsB2_fresh : ∀ op ∈ (opsB2 (F := F)), op.fresh = ∅ := by none_fresh
theorem opsB3a_fresh : ∀ op ∈ (opsB3a (F := F)), op.fresh = ∅ := by none_fresh
theorem opsB3b_fresh : ∀ op ∈ (opsB3b (F := F)), op.fresh = ∅ := by none_fresh

theorem ops_sub : (ops (F := F)).Forall fun op => op.bufs ⊆ tcRefs τ sig :=
  List.forall_iff_forall_mem.mpr (forall_mem_ops opsL_sub opsB1a_sub opsB1b_sub opsB2_sub opsB3a_sub opsB3b_sub)

theorem ops_fresh : ∀ op ∈ (ops (F := F)), op.fresh = ∅ :=
  forall_mem_ops opsL_fresh opsB1a_fresh opsB1b_fresh opsB2_fresh opsB3a_fresh opsB3b_fresh

theorem scopedRefs_eq : (Finset.univ.filter fun b : Ref sig .tc => b.isScoped) = ∅ := by decide
theorem scopedSems_eq : (Finset.univ.filter fun sm : SemLoc sig => sm.isScoped .tc) = ∅ := by decide

/-! ## The run -/

/-- Every weakly fair execution of the reference's @main terminates with the result at `RefTerm.net` of the arguments'
    launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v111)
        = RefTerm.net (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v111).trans (value _),
      (h c main_arg0).trans (ops_arg _ (r := main_arg0) (by decide)),
      (h c main_arg1).trans (ops_arg _ (r := main_arg1) (by decide)),
      (h c main_arg2).trans (ops_arg _ (r := main_arg2) (by decide)),
      (h c main_arg3).trans (ops_arg _ (r := main_arg3) (by decide)),
      (h c main_arg4).trans (ops_arg _ (r := main_arg4) (by decide)),
      (h c main_arg5).trans (ops_arg _ (r := main_arg5) (by decide)),
      (h c main_arg6).trans (ops_arg _ (r := main_arg6) (by decide)),
      (h c main_arg7).trans (ops_arg _ (r := main_arg7) (by decide)),
      (h c main_arg8).trans (ops_arg _ (r := main_arg8) (by decide)),
      (h c main_arg9).trans (ops_arg _ (r := main_arg9) (by decide)),
      (h c main_arg10).trans (ops_arg _ (r := main_arg10) (by decide)),
      (h c main_arg11).trans (ops_arg _ (r := main_arg11) (by decide)),
      (h c main_arg12).trans (ops_arg _ (r := main_arg12) (by decide)),
      (h c main_arg13).trans (ops_arg _ (r := main_arg13) (by decide)),
      (h c main_arg14).trans (ops_arg _ (r := main_arg14) (by decide)),
      (h c main_arg15).trans (ops_arg _ (r := main_arg15) (by decide)),
      (h c main_arg16).trans (ops_arg _ (r := main_arg16) (by decide))⟩)
    (run_seq scopedRefs_eq scopedSems_eq defs main (fun _ => ops) main_eq (fun _ => ops_sub) m ρ (fun _ => ops_fresh))

end Cert.ReferenceIdeal.RefRun

end
-- ==== Proof.RefBlock.lean ====
/-
  One block of the reference read at an index (batch entry `p`, row `n`, channel `c`): the specification's block of
  batch entry `p`'s rows.  Then the whole reference network at an index.
-/
import proofs.«408550_j77214922047594_4_alg».proof.Proof.RefTerm
import proofs.«408550_j77214922047594_4_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefBlock

open Cert.ReferenceIdeal Cert.ReferenceIdeal.Gen Idealize.ShloMosaic Idealize.ShloMosaic.ValueIdx

/-! ## The linear layer's contraction -/

/-- The contraction's dimension numbers: rows of the left operand against columns of the right. -/
abbrev D : DotDims S4x8192x128 S128x128 S4x8192x128 := dot_S4x8192x128_S128x128_S4x8192x128_2_0_01_1_n_n

theorem lhs_0 (j : S4x8192x128.Idx) (k : D.contr.Idx) : (D.lhsIdx j k 0 : ℕ) = j 0 := by
  simp [DotDims.lhsIdx, D, dot_S4x8192x128_S128x128_S4x8192x128_2_0_01_1_n_n]; rfl
theorem lhs_1 (j : S4x8192x128.Idx) (k : D.contr.Idx) : (D.lhsIdx j k 1 : ℕ) = j 1 := by
  simp [DotDims.lhsIdx, D, dot_S4x8192x128_S128x128_S4x8192x128_2_0_01_1_n_n]; rfl
theorem lhs_2 (j : S4x8192x128.Idx) (k : D.contr.Idx) : (D.lhsIdx j k 2 : ℕ) = k ⟨0, by decide⟩ := by
  simp [DotDims.lhsIdx, D, dot_S4x8192x128_S128x128_S4x8192x128_2_0_01_1_n_n]; rfl
theorem rhs_0 (j : S4x8192x128.Idx) (k : D.contr.Idx) : (D.rhsIdx j k 0 : ℕ) = k ⟨0, by decide⟩ := by
  simp [DotDims.rhsIdx, D, dot_S4x8192x128_S128x128_S4x8192x128_2_0_01_1_n_n]; rfl
theorem rhs_1 (j : S4x8192x128.Idx) (k : D.contr.Idx) : (D.rhsIdx j k 1 : ℕ) = j 2 := by
  simp [DotDims.rhsIdx, D, dot_S4x8192x128_S128x128_S4x8192x128_2_0_01_1_n_n]; rfl

/-- The contraction index is one coordinate below 128. -/
def cE : D.contr.Idx ≃ Fin 128 := contrEquiv1 D 128 (by decide) (by decide)

theorem cE_symm_val (k : Fin 128) : ((cE.symm k) ⟨0, by decide⟩ : ℕ) = k.val :=
  contrEquiv1_symm_val D 128 (by decide) (by decide) k

/-- The linear layer's product at (p, n, c): the sum over the 128 input channels. -/
theorem dot_apply (x : FVec Ideal S4x8192x128 .f32) (W : FVec Ideal S128x128 .f32) (p : Fin 4) (n : Fin 8192) (c : Fin 128) :
    Host.dotGeneral (F := Ideal) D none x W (ix3 p n c) = ∑ k : Fin 128, x (ix3 p n k) * W (ix2 k c) := by
  refine (Ideal.dotGeneral_apply D none .single x W (ix3 p n c)).trans ?_
  rw [← Equiv.sum_comp cE.symm]
  refine Finset.sum_congr rfl fun k _ => ?_
  have hl : D.lhsIdx (ix3 p n c) (cE.symm k) = ix3 p n k := by
    funext a
    match a with
    | ⟨0, _⟩ => exact Fin.ext (lhs_0 _ _)
    | ⟨1, _⟩ => exact Fin.ext (lhs_1 _ _)
    | ⟨2, _⟩ => exact Fin.ext ((lhs_2 _ _).trans (cE_symm_val k))
  have hr : D.rhsIdx (ix3 p n c) (cE.symm k) = ix2 k c := by
    funext a
    match a with
    | ⟨0, _⟩ => exact Fin.ext ((rhs_0 _ _).trans (cE_symm_val k))
    | ⟨1, _⟩ => exact Fin.ext (rhs_1 _ _)
  rw [hl, hr]

/-! ## The broadcasts and the two views, at an index -/

/-- A per-channel vector broadcast over batch and rows reads its channel. -/
theorem bcRow_apply {α : Type} (b : S128.Idx → α) (p : Fin 4) (n : Fin 8192) (c : Fin 128) :
    broadcastInDim S4x8192x128 ![0, 1, 2] bcast_S1x1x128_S4x8192x128_0_1_2
      (broadcastInDim S1x1x128 ![2] bcast_S128_S1x1x128_2 b) (ix3 p n c) = b (ix1 c) := by
  refine (broadcastInDim_apply _ _ _ (ix3 p n c) (ix3 (0 : Fin 1) (0 : Fin 1) c) (fun a => ?_)).trans ?_
  · match a with
    | ⟨0, _⟩ => rfl
    | ⟨1, _⟩ => rfl
    | ⟨2, _⟩ => rfl
  · refine broadcastInDim_apply _ _ _ (ix3 (0 : Fin 1) (0 : Fin 1) c) (ix1 c) (fun a => ?_)
    match a with
    | ⟨0, _⟩ => rfl

/-- A scalar broadcast reads the scalar everywhere. -/
theorem bcScalar_apply {α : Type} {t : Shape} (dims : Fin S_.rank → Fin t.rank) (h : S_.BroadcastsInDim t dims)
    (v : S_.Idx → α) (j : t.Idx) : broadcastInDim t dims h v j = v ix0 :=
  broadcastInDim_apply dims h v j ix0 (fun a => a.elim0)

/-- A per-(entry, group) array broadcast to [4, 1, 8, 1] reads its entry and group. -/
theorem bcGroup_apply {α : Type} (v : S4x8.Idx → α) (p : Fin 4) (g : Fin 8) :
    broadcastInDim S4x1x8x1 ![0, 2] bcast_S4x8_S4x1x8x1_0_2 v (ix4 p (0 : Fin 1) g (0 : Fin 1)) = v (ix2 p g) := by
  refine broadcastInDim_apply _ _ _ (ix4 p (0 : Fin 1) g (0 : Fin 1)) (ix2 p g) (fun a => ?_)
  match a with
  | ⟨0, _⟩ => rfl
  | ⟨1, _⟩ => rfl

/-- A [4, 1, 8, 1] array broadcast over rows and the channels of a group reads its entry and group. -/
theorem bcFull_apply {α : Type} (v : S4x1x8x1.Idx → α) (p : Fin 4) (n : Fin 8192) (g : Fin 8) (q : Fin 16) :
    broadcastInDim S4x8192x8x16 ![0, 1, 2, 3] bcast_S4x1x8x1_S4x8192x8x16_0_1_2_3 v (ix4 p n g q)
      = v (ix4 p (0 : Fin 1) g (0 : Fin 1)) := by
  refine broadcastInDim_apply _ _ _ (ix4 p n g q) (ix4 p (0 : Fin 1) g (0 : Fin 1)) (fun a => ?_)
  match a with
  | ⟨0, _⟩ => rfl
  | ⟨1, _⟩ => rfl
  | ⟨2, _⟩ => rfl
  | ⟨3, _⟩ => rfl

/-- The view [4, 8192, 8, 16] at (p, n, g, q) reads channel 16·g + q. -/
theorem view4_apply {α : Type} (v : S4x8192x128.Idx → α) (p : Fin 4) (n : Fin 8192) (g : Fin 8) (q : Fin 16) (c : Fin 128)
    (hc : c.val = 16 * g.val + q.val) :
    shapeCast S4x8192x8x16 v shapeCasts_S4x8192x128_S4x8192x8x16 (ix4 p n g q) = v (ix3 p n c) := by
  refine shapeCast_apply v _ (ix4 p n g q) (ix3 p n c) ?_
  rw [Shape.rowMajor_val_three, Shape.rowMajor_val_four]
  show (p.val * 8192 + n.val) * 128 + c.val = ((p.val * 8192 + n.val) * 8 + g.val) * 16 + q.val
  omega

/-- The view back [4, 8192, 128] at (p, n, c) reads group c / 16, channel c % 16 of the group. -/
theorem view3_apply {α : Type} (v : S4x8192x8x16.Idx → α) (p : Fin 4) (n : Fin 8192) (c : Fin 128) (g : Fin 8) (q : Fin 16)
    (hc : c.val = 16 * g.val + q.val) :
    shapeCast S4x8192x128 v shapeCasts_S4x8192x8x16_S4x8192x128 (ix3 p n c) = v (ix4 p n g q) := by
  refine shapeCast_apply v _ (ix3 p n c) (ix4 p n g q) ?_
  rw [Shape.rowMajor_val_three, Shape.rowMajor_val_four]
  show ((p.val * 8192 + n.val) * 8 + g.val) * 16 + q.val = (p.val * 8192 + n.val) * 128 + c.val
  omega

/-! ## The sum over rows and the channels of a group -/

/-- The indices that reduce to (p, g) are the (p, n, g, q): the sum over them is the double sum. -/
theorem sum_drop (f : S4x8192x8x16.Idx → EReal) (p : Fin 4) (g : Fin 8) :
    ∑ i ∈ Finset.univ.filter (fun i => reducesTo_S4x8192x8x16_S4x8_d1_3.drop i = ix2 p g), f i
      = ∑ n : Fin 8192, ∑ q : Fin 16, f (ix4 p n g q) := by
  have h0 : ∀ i : S4x8192x8x16.Idx, ((reducesTo_S4x8192x8x16_S4x8_d1_3.drop i) 0 : ℕ) = i 0 :=
    fun i => Shape.ReducesTo.drop_apply_val_of_eq _ i 0 0
  have h1 : ∀ i : S4x8192x8x16.Idx, ((reducesTo_S4x8192x8x16_S4x8_d1_3.drop i) 1 : ℕ) = i 2 :=
    fun i => Shape.ReducesTo.drop_apply_val_of_eq _ i 1 2
  have key : ∑ i ∈ Finset.univ.filter (fun i => reducesTo_S4x8192x8x16_S4x8_d1_3.drop i = ix2 p g), f i
      = ∑ x : Fin 8192 × Fin 16, f (ix4 p x.1 g x.2) := by
    refine Finset.sum_nbij' (fun i : S4x8192x8x16.Idx => ((i 1 : Fin 8192), (i 3 : Fin 16)))
      (fun nq : Fin 8192 × Fin 16 => ix4 p nq.1 g nq.2) ?_ ?_ ?_ ?_ ?_
    · intro i _
      simp only [Finset.mem_univ]
    · intro nq _
      refine Finset.mem_filter.mpr ⟨Finset.mem_univ _, ?_⟩
      funext b
      match b with
      | ⟨0, _⟩ => exact Fin.ext (h0 _)
      | ⟨1, _⟩ => exact Fin.ext (h1 _)
    · intro i hi
      have h := (Finset.mem_filter.mp hi).2
      have e0 : (i 0 : ℕ) = p.val := (h0 i).symm.trans (congrArg (fun j : S4x8.Idx => (j 0 : ℕ)) h)
      have e2 : (i 2 : ℕ) = g.val := (h1 i).symm.trans (congrArg (fun j : S4x8.Idx => (j 1 : ℕ)) h)
      funext a
      match a with
      | ⟨0, _⟩ => exact Fin.ext e0.symm
      | ⟨1, _⟩ => rfl
      | ⟨2, _⟩ => exact Fin.ext e2.symm
      | ⟨3, _⟩ => rfl
    · intro nq _
      rfl
    · intro i hi
      have h := (Finset.mem_filter.mp hi).2
      have e0 : (i 0 : ℕ) = p.val := (h0 i).symm.trans (congrArg (fun j : S4x8.Idx => (j 0 : ℕ)) h)
      have e2 : (i 2 : ℕ) = g.val := (h1 i).symm.trans (congrArg (fun j : S4x8.Idx => (j 1 : ℕ)) h)
      refine congrArg f ?_
      funext a
      match a with
      | ⟨0, _⟩ => exact Fin.ext e0
      | ⟨1, _⟩ => rfl
      | ⟨2, _⟩ => exact Fin.ext e2
      | ⟨3, _⟩ => rfl
  exact key.trans (Fintype.sum_prod_type (fun x : Fin 8192 × Fin 16 => f (ix4 p x.1 g x.2)))

/-- The host's sum over axes 1 and 3 from the zero word, at (p, g). -/
theorem reduce_apply (v : FVec Ideal S4x8192x8x16 .f32) (p : Fin 4) (g : Fin 8) :
    Host.reduceAdd (F := Ideal) v (constant (F := Ideal) S_ .f32 0x00000000#32) reducesTo_S4x8192x8x16_S4x8_d1_3 h_S_ (ix2 p g)
      = ∑ n : Fin 8192, ∑ q : Fin 16, v (ix4 p n g q) := by
  show Ideal.hostReduceAdd reducesTo_S4x8192x8x16_S4x8_d1_3 v (Ideal.ofBits .f32 0x00000000#32) (ix2 p g) = _
  unfold Ideal.hostReduceAdd
  rw [Ideal.ofBits_zero_f32, zero_add]
  exact sum_drop v p g

/-! ## The group statistics of a viewed array -/

/-- The host's quotient and reciprocal square root at an index. -/
theorem hdivf_apply {s : Shape} {φ : FTy} (a b : FVec Ideal s φ) (i : s.Idx) : Host.divf a b i = Ideal.div (a i) (b i) := rfl
theorem hrsqrt_apply {s : Shape} {φ : FTy} (a : FVec Ideal s φ) (i : s.Idx) : Host.rsqrt a i = Ideal.rsqrt (a i) := rfl

/-- The mean of group (p, g). -/
def gmean (v : S4x8192x8x16.Idx → EReal) (p : Fin 4) (g : Fin 8) : EReal :=
  Ideal.div (∑ n : Fin 8192, ∑ q : Fin 16, v (ix4 p n g q)) Cert.Spec.cnt

/-- The variance of group (p, g). -/
def gvar (v : S4x8192x8x16.Idx → EReal) (p : Fin 4) (g : Fin 8) : EReal :=
  Ideal.div (∑ n : Fin 8192, ∑ q : Fin 16, (v (ix4 p n g q) - gmean v p g) * (v (ix4 p n g q) - gmean v p g)) Cert.Spec.cnt

/-- The count word read as a constant. -/
theorem cnt_const : Ideal.ofBits .f32 0x48000000#32 = Cert.Spec.cnt := rfl

/-- The mean as the program computes it, at (p, 0, g, 0). -/
theorem mean_apply (v : FVec Ideal S4x8192x8x16 .f32) (p : Fin 4) (g : Fin 8) :
    Host.divf (F := Ideal)
      (broadcastInDim S4x1x8x1 ![0, 2] bcast_S4x8_S4x1x8x1_0_2
        (Host.reduceAdd (F := Ideal) v (constant (F := Ideal) S_ .f32 0x00000000#32) reducesTo_S4x8192x8x16_S4x8_d1_3 h_S_))
      (broadcastInDim S4x1x8x1 ![] bcast_S_S4x1x8x1 (constant (F := Ideal) S_ .f32 0x48000000#32))
      (ix4 p (0 : Fin 1) g (0 : Fin 1)) = gmean v p g := by
  rw [hdivf_apply, bcGroup_apply, reduce_apply, bcScalar_apply, constant_apply, cnt_const]
  rfl

/-- The divisor of the variance: the count less the correction zero is the count. -/
theorem divisor_eq :
    subf (constant (F := Ideal) S_ .f32 0x48000000#32) (sitofp (F := Ideal) .f32 (constantI S_ 32 0#32)) ix0 = Cert.Spec.cnt := by
  show Cert.Spec.cnt - (((0#32 : BitVec 32).toInt : ℝ) : EReal) = Cert.Spec.cnt
  simp

/-- The divisor is above zero, so the selecting bit is one. -/
theorem divisor_pos :
    cmpf .ogt (subf (constant (F := Ideal) S_ .f32 0x48000000#32) (sitofp (F := Ideal) .f32 (constantI S_ 32 0#32)))
      (constant (F := Ideal) S_ .f32 0x00000000#32) ix0 = 1#1 := by
  rw [cmpf_apply, divisor_eq, constant_apply, Ideal.ofBits_zero_f32, Ideal.cmpf_def]
  unfold Ideal.cmp
  simp [Cert.Spec.cnt_pos]

/-- The centred value at (p, n, g, q). -/
theorem centred_apply (v : FVec Ideal S4x8192x8x16 .f32) (p : Fin 4) (n : Fin 8192) (g : Fin 8) (q : Fin 16) :
    subf v (broadcastInDim S4x8192x8x16 ![0, 1, 2, 3] bcast_S4x1x8x1_S4x8192x8x16_0_1_2_3
      (Host.divf (F := Ideal)
        (broadcastInDim S4x1x8x1 ![0, 2] bcast_S4x8_S4x1x8x1_0_2
          (Host.reduceAdd (F := Ideal) v (constant (F := Ideal) S_ .f32 0x00000000#32) reducesTo_S4x8192x8x16_S4x8_d1_3 h_S_))
        (broadcastInDim S4x1x8x1 ![] bcast_S_S4x1x8x1 (constant (F := Ideal) S_ .f32 0x48000000#32)))) (ix4 p n g q)
      = v (ix4 p n g q) - gmean v p g := by
  rw [subf_apply, bcFull_apply, mean_apply]

/-- The helper function's variance at (p, 0, g, 0). -/
theorem var_apply (v : FVec Ideal S4x8192x8x16 .f32) (p : Fin 4) (g : Fin 8) :
    RefTerm.var (F := Ideal) v (constantI S_ 32 0#32) (ix4 p (0 : Fin 1) g (0 : Fin 1)) = gvar v p g := by
  unfold RefTerm.var
  simp only [select_apply, bcScalar_apply, divisor_pos, select_one]
  rw [hdivf_apply, bcGroup_apply, reduce_apply, bcScalar_apply, divisor_eq]
  refine congrArg (fun s => Ideal.div s Cert.Spec.cnt) ?_
  refine Finset.sum_congr rfl fun n _ => Finset.sum_congr rfl fun q _ => ?_
  rw [mulf_apply, centred_apply]

/-! ## A channel's group and its place in the group -/

/-- The group of channel `c`. -/
def gi (c : Fin 128) : Fin 8 := ⟨c.val / 16, by have := c.isLt; omega⟩
/-- The place of channel `c` in its group. -/
def qi (c : Fin 128) : Fin 16 := ⟨c.val % 16, Nat.mod_lt _ (by norm_num)⟩

theorem c_split (c : Fin 128) : c.val = 16 * (gi c).val + (qi c).val := by
  show c.val = 16 * (c.val / 16) + c.val % 16
  omega

theorem gch_split (c : Fin 128) (q : Fin 16) : (Cert.Spec.gch c q).val = 16 * (gi c).val + q.val := rfl

/-- A channel of `c`'s group has `c`'s group. -/
theorem gch_gch (c : Fin 128) (q q' : Fin 16) : Cert.Spec.gch (Cert.Spec.gch c q) q' = Cert.Spec.gch c q' := by
  refine Fin.ext ?_
  show 16 * ((16 * (c.val / 16) + q.val) / 16) + q'.val = 16 * (c.val / 16) + q'.val
  have := q.isLt
  omega

/-- The group mean is the same at every channel of the group. -/
theorem mean_gch (h : Fin 8192 → Fin 128 → EReal) (c : Fin 128) (q : Fin 16) :
    Cert.Spec.mean h (Cert.Spec.gch c q) = Cert.Spec.mean h c := by
  simp only [Cert.Spec.mean, Cert.Spec.gsum, gch_gch]

/-! ## The viewed array's statistics are the specification's -/

section Stats
variable (v : S4x8192x8x16.Idx → EReal) (h : Fin 8192 → Fin 128 → EReal) (p : Fin 4)
  (hv : ∀ (n : Fin 8192) (g : Fin 8) (q : Fin 16) (c : Fin 128), c.val = 16 * g.val + q.val → v (ix4 p n g q) = h n c)
include hv

theorem gmean_eq (c : Fin 128) : gmean v p (gi c) = Cert.Spec.mean h c := by
  simp only [gmean, Cert.Spec.mean, Cert.Spec.gsum]
  refine congrArg (fun s => Ideal.div s Cert.Spec.cnt) ?_
  exact Finset.sum_congr rfl fun n _ => Finset.sum_congr rfl fun q _ => hv n (gi c) q (Cert.Spec.gch c q) (gch_split c q)

theorem gvar_eq (c : Fin 128) : gvar v p (gi c) = Cert.Spec.var h c := by
  simp only [gvar, Cert.Spec.var, Cert.Spec.gsum, Cert.Spec.cen]
  refine congrArg (fun s => Ideal.div s Cert.Spec.cnt) ?_
  refine Finset.sum_congr rfl fun n _ => Finset.sum_congr rfl fun q _ => ?_
  rw [hv n (gi c) q (Cert.Spec.gch c q) (gch_split c q), gmean_eq v h p hv c, mean_gch]

end Stats

/-! ## One block -/

/-- The linear layer at (p, n, c). -/
theorem lin_apply (x : FVec Ideal S4x8192x128 .f32) (W : FVec Ideal S128x128 .f32) (b : FVec Ideal S128 .f32)
    (p : Fin 4) (n : Fin 8192) (c : Fin 128) :
    addf (Host.dotGeneral (F := Ideal) dot_S4x8192x128_S128x128_S4x8192x128_2_0_01_1_n_n none x W)
        (broadcastInDim S4x8192x128 ![0, 1, 2] bcast_S1x1x128_S4x8192x128_0_1_2
          (broadcastInDim S1x1x128 ![2] bcast_S128_S1x1x128_2 b)) (ix3 p n c)
      = Cert.Spec.lin (fun n k => x (ix3 p n k)) (fun k c => W (ix2 k c)) (fun c => b (ix1 c)) n c := by
  rw [addf_apply, bcRow_apply]
  exact congrArg (· + b (ix1 c)) (dot_apply x W p n c)

/-- The stabiliser word read as a constant. -/
theorem eps_const : Ideal.ofBits .f32 0x3727C5AC#32 = Cert.Spec.eps := rfl

/-- The reference's block at (p, n, c) is the specification's block of entry `p`. -/
theorem block_apply (x : FVec Ideal S4x8192x128 .f32) (W : FVec Ideal S128x128 .f32) (b g be : FVec Ideal S128 .f32)
    (p : Fin 4) (n : Fin 8192) (c : Fin 128) :
    RefTerm.block (F := Ideal) x W b g be (ix3 p n c)
      = Cert.Spec.block (fun n k => x (ix3 p n k)) (fun k c => W (ix2 k c)) (fun c => b (ix1 c)) (fun c => g (ix1 c))
          (fun c => be (ix1 c)) n c := by
  unfold RefTerm.block
  simp only [select_apply, cmpf_apply, bcScalar_apply, constant_apply]
  -- the linear layer's result viewed [4, 8192, 8, 16], as one array `V`
  generalize hV : shapeCast S4x8192x8x16 (addf (F := Ideal) _ _) shapeCasts_S4x8192x128_S4x8192x8x16 = V
  have hv : ∀ (n : Fin 8192) (g : Fin 8) (q : Fin 16) (c : Fin 128), c.val = 16 * g.val + q.val →
      V (ix4 p n g q) = Cert.Spec.lin (fun n k => x (ix3 p n k)) (fun k c => W (ix2 k c)) (fun c => b (ix1 c)) n c := by
    intro n g q c hc
    rw [← hV]
    exact (view4_apply _ p n g q c hc).trans (lin_apply x W b p n c)
  rw [mulf_apply, bcScalar_apply, constant_apply]
  -- the normalised, scaled and shifted value `Y`
  generalize hY : addf (F := Ideal) _ _ (ix3 p n c) = Y
  have hY' : Y = Cert.Spec.gn (Cert.Spec.lin (fun n k => x (ix3 p n k)) (fun k c => W (ix2 k c)) (fun c => b (ix1 c)))
      (fun c => g (ix1 c)) (fun c => be (ix1 c)) n c := by
    rw [← hY, addf_apply, mulf_apply, bcRow_apply, bcRow_apply, view3_apply _ p n c (gi c) (qi c) (c_split c),
      mulf_apply, centred_apply, bcFull_apply, hrsqrt_apply, addf_apply, var_apply, bcScalar_apply, constant_apply, eps_const,
      hv n (gi c) (qi c) c (c_split c), gmean_eq V _ p hv c, gvar_eq V _ p hv c]
    rfl
  rw [hY']
  rfl

/-- The reference's network at (p, n, c) is the specification's network of entry `p`: the neighbour features and the
    query features of that entry, the shared weights. -/
theorem net_apply (qf : FVec Ideal S4x8192x128 .f32) (sf : FVec Ideal S4x32768x128 .f32) (qp : FVec Ideal S4x8192x3 .f32)
    (sp : FVec Ideal S4x8192x16x3 .f32) (idx : IVec S4x8192x16 32)
    (W1 : FVec Ideal S128x128 .f32) (b1 g1 be1 : FVec Ideal S128 .f32)
    (W2 : FVec Ideal S128x128 .f32) (b2 g2 be2 : FVec Ideal S128 .f32)
    (W3 : FVec Ideal S128x128 .f32) (b3 g3 be3 : FVec Ideal S128 .f32)
    (p : Fin 4) (n : Fin 8192) (c : Fin 128) :
    RefTerm.net (F := Ideal) qf sf qp sp idx W1 b1 g1 be1 W2 b2 g2 be2 W3 b3 g3 be3 (ix3 p n c)
      = Cert.Spec.net (fun n k => RefTerm.latent (F := Ideal) sf qp sp idx (ix3 p n k)) (fun n k => qf (ix3 p n k))
          (fun k c => W1 (ix2 k c)) (fun c => b1 (ix1 c)) (fun c => g1 (ix1 c)) (fun c => be1 (ix1 c))
          (fun k c => W2 (ix2 k c)) (fun c => b2 (ix1 c)) (fun c => g2 (ix1 c)) (fun c => be2 (ix1 c))
          (fun k c => W3 (ix2 k c)) (fun c => b3 (ix1 c)) (fun c => g3 (ix1 c)) (fun c => be3 (ix1 c)) n c := by
  unfold RefTerm.net Cert.Spec.net
  refine (block_apply _ W3 b3 g3 be3 p n c).trans ?_
  refine congrArg (fun X : Fin 8192 → Fin 128 → EReal => Cert.Spec.block X (fun k c => W3 (ix2 k c)) (fun c => b3 (ix1 c))
    (fun c => g3 (ix1 c)) (fun c => be3 (ix1 c)) n c) ?_
  funext n' k
  rw [addf_apply]
  refine congrArg (· + qf (ix3 p n' k)) ?_
  refine (block_apply _ W2 b2 g2 be2 p n' k).trans ?_
  refine congrArg (fun X : Fin 8192 → Fin 128 → EReal => Cert.Spec.block X (fun k c => W2 (ix2 k c)) (fun c => b2 (ix1 c))
    (fun c => g2 (ix1 c)) (fun c => be2 (ix1 c)) n' k) ?_
  funext n'' k'
  exact block_apply _ W1 b1 g1 be1 p n'' k'

end Cert.ReferenceIdeal.RefBlock

end
-- ==== Proof.lean ====
/-
  A fused point-cloud downsampling layer against its plain reference, equal over the extended reals.

  Both programs first gather, for every query row, sixteen rows of the support features and sum them with
  inverse-squared-distance weights normalised to sum one; they state the same host operations, so that array is one
  term on both sides and is never opened.  Then come three blocks (a 128 × 128 linear layer, a group normalisation over
  the 8192 rows and the sixteen channels of each of eight groups, a leaky rectifier), the query features added before
  the third.  The reference normalises the array viewed [4, 8192, 8, 16] by reducing over rows and in-group channels;
  the kernel works on one batch entry per grid point and gets a group's sum at every channel by multiplying the
  column sums into the 0/1 matrix "same group".  A product with 0 is 0 and with 1 is the factor on every extended real,
  and a finite sum may be taken in any order, so the two agree with no use of the inputs' finiteness.  Both divide by the
  same count word, add the same stabiliser word under the same reciprocal square root, and use the same slope word.

  The kernel's result array is read off its frame run block by block and the four blocks tile it (Proof/KerValue.lean,
  over Proof/KerBlock.lean: the body's stored block at an index); the reference's run is its operations in order with its
  helper functions' operations at their calls (Proof/RefRun.lean) and its term at an index is Proof/RefBlock.lean; both
  are the one function `Cert.Target.netArr` of the arguments (Proof/Target.lean over Proof/Spec.lean).
-/
import proofs.«408550_j77214922047594_4_alg».proof.Defs
import proofs.«408550_j77214922047594_4_alg».proof.Proof.Gen.Kernel
import proofs.«408550_j77214922047594_4_alg».proof.Proof.Gen.Kernel.Frame
import proofs.«408550_j77214922047594_4_alg».proof.Proof.Gen.KernelIdeal
import proofs.«408550_j77214922047594_4_alg».proof.Proof.Gen.KernelIdeal.Frame
import proofs.«408550_j77214922047594_4_alg».proof.Proof.Gen.ReferenceIdeal
import proofs.«408550_j77214922047594_4_alg».proof.Proof.Gen.Pre_finite_inputs
import proofs.«408550_j77214922047594_4_alg».proof.Proof.KerValue
import proofs.«408550_j77214922047594_4_alg».proof.Proof.RefRun
import proofs.«408550_j77214922047594_4_alg».proof.Proof.RefBlock
import Idealize.ShloMosaic.Adequacy
import Idealize.ShloMosaic.Init

noncomputable section

namespace Cert.Proof

open Idealize.ShloMosaic Idealize.SL.Sem Idealize.ShloMosaic.ValueIdx

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- The kernel's result array ends at `netArr` of its arguments, the reference's result at its own term of arguments
    that agree with them; read at an index (p, n, c) that term is `netAt` of the same arrays. -/
theorem algebraic : Cert.algebraic_KernelIdeal_ReferenceIdeal := by
  intro m ρ m' ρ' _ hagree
  refine ⟨Cert.KernelIdeal.KerValue.result m, Cert.KernelIdeal.KerValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5, a6, a7, a8, a9, a10, a11, a12, a13, a14, a15, a16⟩ := hagree c
  rw [a0, a1, a2, a3, a4, a5, a6, a7, a8, a9, a10, a11, a12, a13, a14, a15, a16]
  funext i
  obtain ⟨p, n, j, rfl⟩ : ∃ (p : Fin 4) (n : Fin 8192) (j : Fin 128), i = ix3 p n j := ⟨i 0, i 1, i 2, eq_ix3 i⟩
  rw [Cert.KernelIdeal.KerValue.result_ix3]
  unfold Cert.Target.netAt
  exact Cert.ReferenceIdeal.RefBlock.net_apply _ _ _ _ _ _ _ _ _ _ _ _ _ _ _ _ _ p n j

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
